-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S256x192 : S_.BroadcastsInDim S256x192 (![] : Fin 0 → Fin S256x192.rank)
  reducesTo_S256x192_S_d0_1 : S256x192.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part7 {F : FTy → Type} [FloatOps F] (main_arg25 : FVec F S128 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  main_v128

def fn_part6 {F : FTy → Type} [FloatOps F] (main_arg21 : FVec F S256 .f32) (main_arg22 : FVec F S128x256 .f32) (main_arg23 : FVec F S128 .f32) (main_arg24 : FVec F S128x128 .f32) (main_arg25 : FVec F S128 .f32) (main_v98 : IVec S_ 1) (main_v101 : IVec S256x192 1) (main_c_39 : IVec S_ 1) : IVec S_ 1 :=
  let main_v102 : IVec S_ 1 := (fun x v => Host.reduce IntOp.andi x v reducesTo_S256x192_S_d0_1 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S128x256 .f32 := Host.absf main_arg22
  let main_cst_42 : FVec F S_ .f32 := constant S_ .f32 0x7F800000#32
  let main_v110 : FVec F S128x256 .f32 := broadcastInDim S128x256 ![] bcast_S_S128x256 main_cst_42
  let main_v111 : IVec S128x256 1 := cmpf .olt main_v109 main_v110
  let main_c_43 : IVec S_ 1 := constantI S_ 1 1#1
  let main_v112 : IVec S_ 1 := (fun x v => Host.reduce IntOp.andi x v reducesTo_S128x256_S_d0_1 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128x128 .f32 := Host.absf main_arg24
  fn_part7 (F := F) main_arg25 main_v118 main_v119

def fn_part5 {F : FTy → Type} [FloatOps F] (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S10x128 .f32 := Host.absf main_arg18
  let main_cst_34 : FVec F S_ .f32 := constant S_ .f32 0x7F800000#32
  let main_v90 : FVec F S10x128 .f32 := broadcastInDim S10x128 ![] bcast_S_S10x128 main_cst_34
  let main_v91 : IVec S10x128 1 := cmpf .olt main_v89 main_v90
  let main_c_35 : IVec S_ 1 := constantI S_ 1 1#1
  let main_v92 : IVec S_ 1 := (fun x v => Host.reduce IntOp.andi x v reducesTo_S10x128_S_d0_1 h_S_) main_v91 main_c_35
  let main_v93 : IVec S_ 1 := andi main_v88 main_v92
  let main_v94 : FVec F S10 .f32 := Host.absf main_arg19
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  let main_v99 : FVec F S256x192 .f32 := Host.absf main_arg20
  let main_cst_38 : FVec F S_ .f32 := constant S_ .f32 0x7F800000#32
  let main_v100 : FVec F S256x192 .f32 := broadcastInDim S256x192 ![] bcast_S_S256x192 main_cst_38
  let main_v101 : IVec S256x192 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S128x256 .f32 := Host.absf main_arg12
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S128x64 .f32) (main_arg5 : FVec F S64 .f32) (main_arg6 : FVec F S256x192 .f32) (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S256x192 .f32 := Host.absf main_arg6
  let main_cst_10 : FVec F S_ .f32 := constant S_ .f32 0x7F800000#32
  let main_v30 : FVec F S256x192 .f32 := broadcastInDim S256x192 ![] bcast_S_S256x192 main_cst_10
  let main_v31 : IVec S256x192 1 := cmpf .olt main_v29 main_v30
  let main_c_11 : IVec S_ 1 := constantI S_ 1 1#1
  let main_v32 : IVec S_ 1 := (fun x v => Host.reduce IntOp.andi x v reducesTo_S256x192_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S256x192 .f32) (main_arg7 : FVec F S256 .f32) (main_arg8 : FVec F S256 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S128 .f32) (main_arg17 : FVec F S128 .f32) (main_arg18 : FVec F S10x128 .f32) (main_arg19 : FVec F S10 .f32) (main_arg20 : FVec F S256x192 .f32) (main_arg21 : FVec F S256 .f32) (main_arg22 : FVec F S128x256 .f32) (main_arg23 : FVec F S128 .f32) (main_arg24 : FVec F S128x128 .f32) (main_arg25 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S192x256 : Shape := ⟨2, ![192, 256]⟩
abbrev S256x128 : Shape := ⟨2, ![256, 128]⟩
abbrev S128x10 : Shape := ⟨2, ![128, 10]⟩
abbrev S1x128 : Shape := ⟨2, ![1, 128]⟩
abbrev S1x64 : Shape := ⟨2, ![1, 64]⟩
abbrev S64x256 : Shape := ⟨2, ![64, 256]⟩
abbrev S1x256 : Shape := ⟨2, ![1, 256]⟩
abbrev S1x10 : Shape := ⟨2, ![1, 10]⟩
abbrev S10000x10 : Shape := ⟨2, ![10000, 10]⟩
abbrev S10000x192 : Shape := ⟨2, ![10000, 192]⟩
abbrev S200x10000 : Shape := ⟨2, ![200, 10000]⟩
abbrev S400x10 : Shape := ⟨2, ![400, 10]⟩
abbrev S400x128 : Shape := ⟨2, ![400, 128]⟩
abbrev S400x192 : Shape := ⟨2, ![400, 192]⟩
abbrev S10000x64 : Shape := ⟨2, ![10000, 64]⟩
abbrev S200x128 : Shape := ⟨2, ![200, 128]⟩
abbrev S200x64 : Shape := ⟨2, ![200, 64]⟩
abbrev S400x64 : Shape := ⟨2, ![400, 64]⟩
abbrev S400x256 : Shape := ⟨2, ![400, 256]⟩
abbrev S400 : Shape := ⟨1, ![400]⟩
abbrev S400x1 : Shape := ⟨2, ![400, 1]⟩

abbrev nBuf : Space → Nat
  | .hbm => 55
  | .vmem => 40
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S256x192, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S10x128, .f32⟩
  | .hbm, ⟨19, _⟩ => ⟨S10, .f32⟩
  | .hbm, ⟨20, _⟩ => ⟨S256x192, .f32⟩
  | .hbm, ⟨21, _⟩ => ⟨S256, .f32⟩
  | .hbm, ⟨22, _⟩ => ⟨S128x256, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S192x256, .f32⟩
  | .hbm, ⟨27, _⟩ => ⟨S256x128, .f32⟩
  | .hbm, ⟨28, _⟩ => ⟨S128x10, .f32⟩
  | .hbm, ⟨29, _⟩ => ⟨S192x256, .f32⟩
  | .hbm, ⟨30, _⟩ => ⟨S256x128, .f32⟩
  | .hbm, ⟨31, _⟩ => ⟨S128x128, .f32⟩
  | .hbm, ⟨32, _⟩ => ⟨S1x128, .f32⟩
  | .hbm, ⟨33, _⟩ => ⟨S1x64, .f32⟩
  | .hbm, ⟨34, _⟩ => ⟨S128x256, .f32⟩
  | .hbm, ⟨35, _⟩ => ⟨S64x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x10, .f32⟩
  | .hbm, ⟨47, _⟩ => ⟨S128x256, .f32⟩
  | .hbm, ⟨48, _⟩ => ⟨S64x256, .f32⟩
  | .hbm, ⟨49, _⟩ => ⟨S1x256, .f32⟩
  | .hbm, ⟨50, _⟩ => ⟨S1x128, .f32⟩
  | .hbm, ⟨51, _⟩ => ⟨S1x128, .f32⟩
  | .hbm, ⟨52, _⟩ => ⟨S10000x10, .f32⟩
  | .hbm, ⟨53, _⟩ => ⟨S10000x128, .f32⟩
  | .hbm, ⟨54, _⟩ => ⟨S10000x192, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S128x256, .f32⟩
  | .local _ .vmem, ⟨10, _⟩ => ⟨S64x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S256x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x10, .f32⟩
  | .local _ .vmem, ⟨23, _⟩ => ⟨S1x10, .f32⟩
  | .local _ .vmem, ⟨24, _⟩ => ⟨S128x256, .f32⟩
  | .local _ .vmem, ⟨25, _⟩ => ⟨S64x256, .f32⟩
  | .local _ .vmem, ⟨26, _⟩ => ⟨S1x256, .f32⟩
  | .local _ .vmem, ⟨27, _⟩ => ⟨S256x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S400x10, .f32⟩
  | .local _ .vmem, ⟨32, _⟩ => ⟨S400x10, .f32⟩
  | .local _ .vmem, ⟨33, _⟩ => ⟨S400x128, .f32⟩
  | .local _ .vmem, ⟨34, _⟩ => ⟨S400x128, .f32⟩
  | .local _ .vmem, ⟨35, _⟩ => ⟨S400x192, .f32⟩
  | .local _ .vmem, ⟨36, _⟩ => ⟨S400x192, .f32⟩
  | .local _ .vmem, ⟨37, _⟩ => ⟨S10000x128, .bf16⟩
  | .local _ .vmem, ⟨38, _⟩ => ⟨S10000x128, .f32⟩
  | .local _ .vmem, ⟨39, _⟩ => ⟨S10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26_0 : Ref sig .tc := ⟨.hbm, 52, rfl⟩
abbrev main_v26_1 : Ref sig .tc := ⟨.hbm, 53, rfl⟩
abbrev main_v26_2 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg29_1 : Ref sig .tc := ⟨.vmem, 32, rfl⟩
abbrev cc0_stg30_0 : Ref sig .tc := ⟨.vmem, 33, rfl⟩
abbrev cc0_stg30_1 : Ref sig .tc := ⟨.vmem, 34, rfl⟩
abbrev cc0_stg31_0 : Ref sig .tc := ⟨.vmem, 35, rfl⟩
abbrev cc0_stg31_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem29_1 : DmaSem sig := 32
abbrev cc0_sem30_0 : DmaSem sig := 33
abbrev cc0_sem30_1 : DmaSem sig := 34
abbrev cc0_sem31_0 : DmaSem sig := 35
abbrev cc0_sem31_1 : DmaSem sig := 36

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32_1 : BitVec 32 := 25#32
  let v4 : BitVec 1 := Scalar.cmpi .slt arg0 c25_i32_1
  let v5 : BitVec 32 := Scalar.extui v4
  let c0_i32_2 : BitVec 32 := 0#32
  let v6 : BitVec 1 := Scalar.cmpi .ne v5 c0_i32_2
  v6

def k0_off1 (i : grid0.Coords) : Fin 2 → Nat :=
  let arg0 : BitVec 32 := BitVec.ofNat 32 (i 0).val
  let c25_i32 : BitVec 32 := 25#32
  let v0 : BitVec 32 := Scalar.remsi arg0 c25_i32
  let c400_i32 : BitVec 32 := 400#32
  let v27 : BitVec 32 := Scalar.muli v0 c400_i32
  let v28 : Index := Scalar.indexCast v27
  let c0_17 : Index := 0#32
  ![v28.toNat, 0]
def k0_cond4 (i : grid0.Coords) : BitVec 1 :=
  let arg0 : BitVec 32 := BitVec.ofNat 32 (i 0).val
  let c25_i32_5 : BitVec 32 := 25#32
  let v10 : BitVec 1 := Scalar.cmpi .sge arg0 c25_i32_5
  let v11 : BitVec 32 := Scalar.extui v10
  let c0_i32_6 : BitVec 32 := 0#32
  let v12 : BitVec 1 := Scalar.cmpi .ne v11 c0_i32_6
  v12

def k0_off2 (i : grid0.Coords) : Fin 2 → Nat :=
  let arg0 : BitVec 32 := BitVec.ofNat 32 (i 0).val
  let c25_i32 : BitVec 32 := 25#32
  let v0 : BitVec 32 := Scalar.remsi arg0 c25_i32
  let c400_i32 : BitVec 32 := 400#32
  let v13 : BitVec 32 := Scalar.muli v0 c400_i32
  let v14 : Index := Scalar.indexCast v13
  let c0 : Index := 0#32
  ![v14.toNat, 0]
def cc0_transform_0 (i : grid0.Coords) : Fin 2 → Nat :=
  let arg0 : BitVec 32 := BitVec.ofNat 32 (i 0).val
  let c25_i32 : BitVec 32 := 25#32
  let v0 : BitVec 32 := Scalar.remsi arg0 c25_i32
  let c2_i32 : BitVec 32 := 2#32
  let v1 : BitVec 32 := Scalar.muli c2_i32 v0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.remsi arg0 c25_i32
  let c2_i32 : BitVec 32 := 2#32
  let v1 : BitVec 32 := Scalar.muli c2_i32 v0
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_30 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_31 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x10 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x10 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S64x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S256x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S128x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 2 → Memref sig .tc .vmem S400x10 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S400x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S400x192 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

class Facts₀ : Prop where
  transposes_S256x192_S192x256_1_0 : S256x192.Transposes [1, 0] S192x256
  transposes_S128x256_S256x128_1_0 : S128x256.Transposes [1, 0] S256x128
  transposes_S10x128_S128x10_1_0 : S10x128.Transposes [1, 0] S128x10
  transposes_S128x128_S128x128_1_0 : S128x128.Transposes [1, 0] S128x128
  bcast_S128_S1x128_1 : S128.BroadcastsInDim S1x128 (![1] : Fin 1 → Fin S1x128.rank)
  bcast_S64_S1x64_1 : S64.BroadcastsInDim S1x64 (![1] : Fin 1 → Fin S1x64.rank)
  slices_S192x256_S128x256_0_0 : S192x256.Slices ![0, 0] S128x256
  slices_S192x256_S64x256_128_0 : S192x256.Slices ![128, 0] S64x256
  bcast_S256_S1x256_1 : S256.BroadcastsInDim S1x256 (![1] : Fin 1 → Fin S1x256.rank)
  bcast_S10_S1x10_1 : S10.BroadcastsInDim S1x10 (![1] : Fin 1 → Fin S1x10.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  concatenates_S200x128_S200x128_S400x128_d0 : Shape.Concatenates [S200x128, S200x128] S400x128 0
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  packedbf16_S10000x64_S10000x64_0_0 : (Rect.unit (s := S10000x64) ![0, 0] S10000x64.size inb_S10000x64_S10000x64_0_0).PackedRows (EltTy.packing .bf16)
  concatenates_S200x64_S200x64_S400x64_d0 : Shape.Concatenates [S200x64, S200x64] S400x64 0
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x192_S400x128_0_0 : ∀ a, (![0, 0] : Fin 2 → Nat) a + S400x128.size a ≤ S400x192.size a
  inb_S400x192_S400x64_0_128 : ∀ a, (![0, 128] : Fin 2 → Nat) a + S400x64.size a ≤ S400x192.size a
  h_S400x64 : 0 < S400x64.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S400x10 : S1x10.Broadcasts S400x10
  reduces_S400x10_S400 : S400x10.Reduces [1] S400
  shapeCasts_S400_S400x1 : S400.ShapeCasts S400x1
  broadcasts_S400x1_S400x10 : S400x1.Broadcasts S400x10
  inb_S400x10_S400x10_0_0 : ∀ a, (![0, 0] : Fin 2 → Nat) a + S400x10.size a ≤ S400x10.size a
  h_S400x10 : 0 < S400x10.numel
  shapeCasts_S128x128_S128x128 : S128x128.ShapeCasts S128x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S400x128_S128x256_S400x256_1_0_0_1_n_n_wf : DotDims.WF S400x128 S128x256 S400x256 [1] [0] [0] [1] [] []
  dot_S400x64_S64x256_S400x256_1_0_0_1_n_n_wf : DotDims.WF S400x64 S64x256 S400x256 [1] [0] [0] [1] [] []
  dot_S400x256_S256x128_S400x128_1_0_0_1_n_n_wf : DotDims.WF S400x256 S256x128 S400x128 [1] [0] [0] [1] [] []
  dot_S400x128_S128x10_S400x10_1_0_0_1_n_n_wf : DotDims.WF S400x128 S128x10 S400x10 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h2 : k0_cond2 i = 1#1), ∀ a, (k0_off1 i) a + S400x128.size a ≤ S10000x128.size a
  k0_off2_inb : ∀ i : grid0.Coords, ∀ (k0_h4 : k0_cond4 i = 1#1), ∀ a, (k0_off2 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x256.size a ≤ S64x256.size a
  hwx0_8 : ∀ i : grid0.Coords, EltTy.bits .f32 = 32 ∨ (Rect.block (s := S64x256) S64x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256x128.size a ≤ S256x128.size a
  hwx0_14 : ∀ i : grid0.Coords, EltTy.bits .f32 = 32 ∨ (Rect.block (s := S256x128) S256x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x128.size a ≤ S1x128.size a
  hwx0_17 : ∀ i : grid0.Coords, EltTy.bits .f32 = 32 ∨ (Rect.block (s := S1x128) S1x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S1x128.size a ≤ S1x128.size a
  hwx0_19 : ∀ i : grid0.Coords, EltTy.bits .f32 = 32 ∨ (Rect.block (s := S1x128) S1x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128x10.size a ≤ S128x10.size a
  hwx0_20 : ∀ i : grid0.Coords, EltTy.bits .f32 = 32 ∨ (Rect.block (s := S128x10) S128x10.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x10.size a ≤ S1x10.size a
  hwx0_21 : ∀ i : grid0.Coords, EltTy.bits .f32 = 32 ∨ (Rect.block (s := S1x10) S1x10.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128x256.size a ≤ S128x256.size a
  hwx0_22 : ∀ i : grid0.Coords, EltTy.bits .f32 = 32 ∨ (Rect.block (s := S128x256) S128x256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S64x256.size a ≤ S64x256.size a
  hwx0_23 : ∀ i : grid0.Coords, EltTy.bits .f32 = 32 ∨ (Rect.block (s := S64x256) S64x256.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x256.size a ≤ S1x256.size a
  hwx0_24 : ∀ i : grid0.Coords, EltTy.bits .f32 = 32 ∨ (Rect.block (s := S1x256) S1x256.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S256x128.size a ≤ S256x128.size a
  hwx0_25 : ∀ i : grid0.Coords, EltTy.bits .f32 = 32 ∨ (Rect.block (s := S256x128) S256x128.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x128.size a ≤ S1x128.size a
  hwx0_26 : ∀ i : grid0.Coords, EltTy.bits .f32 = 32 ∨ (Rect.block (s := S1x128) S1x128.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S128x128.size a ≤ S128x128.size a
  hwx0_27 : ∀ i : grid0.Coords, EltTy.bits .f32 = 32 ∨ (Rect.block (s := S128x128) S128x128.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x128.size a ≤ S1x128.size a
  hwx0_28 : ∀ i : grid0.Coords, EltTy.bits .f32 = 32 ∨ (Rect.block (s := S1x128) S1x128.size (cc0_transform_28 i) (hinb0_28 i)).WholeWords (EltTy.packing .f32)
  hstage0_29 : ∀ j, (stage0_29 j).IsWhole
  nbuf0_29 : grid0.bufCount reads0_29 false = 2
  hreads0_29 : ∀ i i' : grid0.Coords, (∀ a, reads0_29 a = true → i a = i' a) → cc0_transform_29 i = cc0_transform_29 i'
  hinb0_29 : ∀ (i : grid0.Coords) a, (cc0_transform_29 i a + 1) * S400x10.size a ≤ S10000x10.size a
  hwx0_29 : ∀ i : grid0.Coords, EltTy.bits .f32 = 32 ∨ (Rect.block (s := S10000x10) S400x10.size (cc0_transform_29 i) (hinb0_29 i)).WholeWords (EltTy.packing .f32)
  hstage0_30 : ∀ j, (stage0_30 j).IsWhole
  nbuf0_30 : grid0.bufCount reads0_30 false = 2
  hreads0_30 : ∀ i i' : grid0.Coords, (∀ a, reads0_30 a = true → i a = i' a) → cc0_transform_30 i = cc0_transform_30 i'
  hinb0_30 : ∀ (i : grid0.Coords) a, (cc0_transform_30 i a + 1) * S400x128.size a ≤ S10000x128.size a
  hwx0_30 : ∀ i : grid0.Coords, EltTy.bits .f32 = 32 ∨ (Rect.block (s := S10000x128) S400x128.size (cc0_transform_30 i) (hinb0_30 i)).WholeWords (EltTy.packing .f32)
  hstage0_31 : ∀ j, (stage0_31 j).IsWhole
  nbuf0_31 : grid0.bufCount reads0_31 false = 2
  hreads0_31 : ∀ i i' : grid0.Coords, (∀ a, reads0_31 a = true → i a = i' a) → cc0_transform_31 i = cc0_transform_31 i'
  hinb0_31 : ∀ (i : grid0.Coords) a, (cc0_transform_31 i a + 1) * S400x192.size a ≤ S10000x192.size a
  hwx0_31 : ∀ i : grid0.Coords, EltTy.bits .f32 = 32 ∨ (Rect.block (s := S10000x192) S400x192.size (cc0_transform_31 i) (hinb0_31 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x64_S64x256_S400x256_1_0_0_1_n_n : DotDims S400x64 S64x256 S400x256 where
  lhsContracting := [1]
  rhsContracting := [0]
  lhsNonContracting := [0]
  rhsNonContracting := [1]
  lhsBatch := []
  rhsBatch := []
  wf := dot_S400x64_S64x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x128_S128x10_S400x10_1_0_0_1_n_n : DotDims S400x128 S128x10 S400x10 where
  lhsContracting := [1]
  rhsContracting := [0]
  lhsNonContracting := [0]
  rhsNonContracting := [1]
  lhsBatch := []
  rhsBatch := []
  wf := dot_S400x128_S128x10_S400x10_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S64x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v14) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v1) S256x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v16) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17) S1x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v18) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v19) S1x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v2) S128x10.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v20) S1x10.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v21) S128x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v22) S64x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v23) S1x256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v4) S256x128.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v24) S1x128.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v5) S128x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v25) S1x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v26_0) S400x10.size cc0_transform_29 reads0_29 true false 2 stage0_29 sem0_29
    hrank0 hreads0_29 hinb0_29 nbuf0_29 (Memref.isWhole_whole _) hwx0_29 hstage0_29

abbrev win0_30 : Pipeline.Window sig grid0 :=
  Pipeline.Window.ofSpec (Memref.whole main_v26_1) S400x128.size cc0_transform_30 reads0_30 true false 2 stage0_30 sem0_30
    hrank0 hreads0_30 hinb0_30 nbuf0_30 (Memref.isWhole_whole _) hwx0_30 hstage0_30

abbrev win0_31 : Pipeline.Window sig grid0 :=
  Pipeline.Window.ofSpec (Memref.whole main_v26_2) S400x192.size cc0_transform_31 reads0_31 true false 2 stage0_31 sem0_31
    hrank0 hreads0_31 hinb0_31 nbuf0_31 (Memref.isWhole_whole _) hwx0_31 hstage0_31

abbrev win0 : Fin 32 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | ⟨_ + 32, h⟩ => absurd h (Nat.not_lt.2 (Nat.le_add_left _ _))
abbrev spec0 : Fin 32 → Pipeline.WinSpec sig grid0.rank := fun w => (win0 w).toWinSpec

abbrev idle0 : Fin 32 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun _ => false | 26 => fun _ => false | 27 => fun _ => false | 28 => fun _ => false | 29 => fun i => !(k0_cond4 i == 1#1) | 30 => fun i => !(k0_cond4 i == 1#1) | 31 => fun i => !(k0_cond4 i == 1#1) | ⟨_ + 32, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S256x192 : Shape := ⟨2, ![256, 192]⟩
abbrev S256 : Shape := ⟨1, ![256]⟩
abbrev S128x256 : Shape := ⟨2, ![128, 256]⟩
abbrev S10x128 : Shape := ⟨2, ![10, 128]⟩
abbrev S10 : Shape := ⟨1, ![10]⟩
abbrev S1x128 : Shape := ⟨2, ![1, 128]⟩
abbrev S10000x64 : Shape := ⟨2, ![10000, 64]⟩
abbrev S1x64 : Shape := ⟨2, ![1, 64]⟩
abbrev S10000x192 : Shape := ⟨2, ![10000, 192]⟩
abbrev S192x256 : Shape := ⟨2, ![192, 256]⟩
abbrev S10000x256 : Shape := ⟨2, ![10000, 256]⟩
abbrev S1x256 : Shape := ⟨2, ![1, 256]⟩
abbrev S_ : Shape := ⟨0, ![]⟩
abbrev S256x128 : Shape := ⟨2, ![256, 128]⟩
abbrev S128x10 : Shape := ⟨2, ![128, 10]⟩
abbrev S10000x10 : Shape := ⟨2, ![10000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 128
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S256x192, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S10x128, .f32⟩
  | .hbm, ⟨19, _⟩ => ⟨S10, .f32⟩
  | .hbm, ⟨20, _⟩ => ⟨S256x192, .f32⟩
  | .hbm, ⟨21, _⟩ => ⟨S256, .f32⟩
  | .hbm, ⟨22, _⟩ => ⟨S128x256, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S10000x128, .f32⟩
  | .hbm, ⟨27, _⟩ => ⟨S10000x128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S10000x64, .f32⟩
  | .hbm, ⟨33, _⟩ => ⟨S10000x64, .f32⟩
  | .hbm, ⟨34, _⟩ => ⟨S1x64, .f32⟩
  | .hbm, ⟨35, _⟩ => ⟨S10000x64, .f32⟩
  | .hbm, ⟨36, _⟩ => ⟨S10000x64, .f32⟩
  | .hbm, ⟨37, _⟩ => ⟨S10000x64, .f32⟩
  | .hbm, ⟨38, _⟩ => ⟨S10000x192, .f32⟩
  | .hbm, ⟨39, _⟩ => ⟨S192x256, .f32⟩
  | .hbm, ⟨40, _⟩ => ⟨S10000x256, .f32⟩
  | .hbm, ⟨41, _⟩ => ⟨S1x256, .f32⟩
  | .hbm, ⟨42, _⟩ => ⟨S10000x256, .f32⟩
  | .hbm, ⟨43, _⟩ => ⟨S10000x256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S_, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S1x256, .f32⟩
  | .hbm, ⟨52, _⟩ => ⟨S10000x256, .f32⟩
  | .hbm, ⟨53, _⟩ => ⟨S10000x256, .f32⟩
  | .hbm, ⟨54, _⟩ => ⟨S1x256, .f32⟩
  | .hbm, ⟨55, _⟩ => ⟨S10000x256, .f32⟩
  | .hbm, ⟨56, _⟩ => ⟨S10000x256, .f32⟩
  | .hbm, ⟨57, _⟩ => ⟨S1x256, .f32⟩
  | .hbm, ⟨58, _⟩ => ⟨S10000x256, .f32⟩
  | .hbm, ⟨59, _⟩ => ⟨S10000x256, .f32⟩
  | .hbm, ⟨60, _⟩ => ⟨S_, .f32⟩
  | .hbm, ⟨61, _⟩ => ⟨S10000x256, .f32⟩
  | .hbm, ⟨62, _⟩ => ⟨S10000x256, .f32⟩
  | .hbm, ⟨63, _⟩ => ⟨S256x128, .f32⟩
  | .hbm, ⟨64, _⟩ => ⟨S10000x128, .f32⟩
  | .hbm, ⟨65, _⟩ => ⟨S1x128, .f32⟩
  | .hbm, ⟨66, _⟩ => ⟨S10000x128, .f32⟩
  | .hbm, ⟨67, _⟩ => ⟨S10000x128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S10000x128, .f32⟩
  | .hbm, ⟨77, _⟩ => ⟨S10000x128, .f32⟩
  | .hbm, ⟨78, _⟩ => ⟨S1x128, .f32⟩
  | .hbm, ⟨79, _⟩ => ⟨S10000x128, .f32⟩
  | .hbm, ⟨80, _⟩ => ⟨S10000x128, .f32⟩
  | .hbm, ⟨81, _⟩ => ⟨S1x128, .f32⟩
  | .hbm, ⟨82, _⟩ => ⟨S10000x128, .f32⟩
  | .hbm, ⟨83, _⟩ => ⟨S10000x128, .f32⟩
  | .hbm, ⟨84, _⟩ => ⟨S_, .f32⟩
  | .hbm, ⟨85, _⟩ => ⟨S10000x128, .f32⟩
  | .hbm, ⟨86, _⟩ => ⟨S10000x128, .f32⟩
  | .hbm, ⟨87, _⟩ => ⟨S128x10, .f32⟩
  | .hbm, ⟨88, _⟩ => ⟨S10000x10, .f32⟩
  | .hbm, ⟨89, _⟩ => ⟨S1x10, .f32⟩
  | .hbm, ⟨90, _⟩ => ⟨S10000x10, .f32⟩
  | .hbm, ⟨91, _⟩ => ⟨S10000x10, .f32⟩
  | .hbm, ⟨92, _⟩ => ⟨S_, .f32⟩
  | .hbm, ⟨93, _⟩ => ⟨S10000, .f32⟩
  | .hbm, ⟨94, _⟩ => ⟨S_, .f32⟩
  | .hbm, ⟨95, _⟩ => ⟨S10000, .f32⟩
  | .hbm, ⟨96, _⟩ => ⟨S10000, .f32⟩
  | .hbm, ⟨97, _⟩ => ⟨S10000x1, .f32⟩
  | .hbm, ⟨98, _⟩ => ⟨S10000x10, .f32⟩
  | .hbm, ⟨99, _⟩ => ⟨S10000x10, .f32⟩
  | .hbm, ⟨100, _⟩ => ⟨S10000x10, .f32⟩
  | .hbm, ⟨101, _⟩ => ⟨S_, .f32⟩
  | .hbm, ⟨102, _⟩ => ⟨S10000, .f32⟩
  | .hbm, ⟨103, _⟩ => ⟨S10000x1, .f32⟩
  | .hbm, ⟨104, _⟩ => ⟨S10000x1, .f32⟩
  | .hbm, ⟨105, _⟩ => ⟨S10000x10, .f32⟩
  | .hbm, ⟨106, _⟩ => ⟨S10000x10, .f32⟩
  | .hbm, ⟨107, _⟩ => ⟨S192x256, .f32⟩
  | .hbm, ⟨108, _⟩ => ⟨S10000x256, .f32⟩
  | .hbm, ⟨109, _⟩ => ⟨S1x256, .f32⟩
  | .hbm, ⟨110, _⟩ => ⟨S10000x256, .f32⟩
  | .hbm, ⟨111, _⟩ => ⟨S10000x256, .f32⟩
  | .hbm, ⟨112, _⟩ => ⟨S_, .f32⟩
  | .hbm, ⟨113, _⟩ => ⟨S10000x256, .f32⟩
  | .hbm, ⟨114, _⟩ => ⟨S10000x256, .f32⟩
  | .hbm, ⟨115, _⟩ => ⟨S256x128, .f32⟩
  | .hbm, ⟨116, _⟩ => ⟨S10000x128, .f32⟩
  | .hbm, ⟨117, _⟩ => ⟨S1x128, .f32⟩
  | .hbm, ⟨118, _⟩ => ⟨S10000x128, .f32⟩
  | .hbm, ⟨119, _⟩ => ⟨S10000x128, .f32⟩
  | .hbm, ⟨120, _⟩ => ⟨S_, .f32⟩
  | .hbm, ⟨121, _⟩ => ⟨S10000x128, .f32⟩
  | .hbm, ⟨122, _⟩ => ⟨S10000x128, .f32⟩
  | .hbm, ⟨123, _⟩ => ⟨S128x128, .f32⟩
  | .hbm, ⟨124, _⟩ => ⟨S10000x128, .f32⟩
  | .hbm, ⟨125, _⟩ => ⟨S1x128, .f32⟩
  | .hbm, ⟨126, _⟩ => ⟨S10000x128, .f32⟩
  | .hbm, ⟨127, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call0_cst : Ref sig .tc := ⟨.hbm, 60, rfl⟩
abbrev main_call0_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_0 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_cst : Ref sig .tc := ⟨.hbm, 84, rfl⟩
abbrev main_call1_v0 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_call3_cst : Ref sig .tc := ⟨.hbm, 112, rfl⟩
abbrev main_call3_v0 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_call4_cst : Ref sig .tc := ⟨.hbm, 120, rfl⟩
abbrev main_call4_v0 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  concatenates_S10000x128_S10000x64_S10000x192_d1 : Shape.Concatenates [S10000x128, S10000x64] S10000x192 1
  transposes_S256x192_S192x256_1_0 : S256x192.Transposes [1, 0] S192x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S256 : S_.BroadcastsInDim S256 (![] : Fin 0 → Fin S256.rank)
  bcast_S_S10000x256 : S_.BroadcastsInDim S10000x256 (![] : Fin 0 → Fin S10000x256.rank)
  transposes_S128x256_S256x128_1_0 : S128x256.Transposes [1, 0] S256x128
  bcast_S_S128 : S_.BroadcastsInDim S128 (![] : Fin 0 → Fin S128.rank)
  bcast_S_S10000x128 : S_.BroadcastsInDim S10000x128 (![] : Fin 0 → Fin S10000x128.rank)
  transposes_S10x128_S128x10_1_0 : S10x128.Transposes [1, 0] S128x10
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  reducesTo_S10000x10_S10000_d1 : S10000x10.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x10_0_1 : S10000x1.BroadcastsInDim S10000x10 (![0, 1] : Fin 2 → Fin S10000x10.rank)
  transposes_S128x128_S128x128_1_0 : S128x128.Transposes [1, 0] S128x128
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x192_S192x256_S10000x256_1_0_0_1_n_n_wf : DotDims.WF S10000x192 S192x256 S10000x256 [1] [0] [0] [1] [] []
  dot_S10000x256_S256x128_S10000x128_1_0_0_1_n_n_wf : DotDims.WF S10000x256 S256x128 S10000x128 [1] [0] [0] [1] [] []
  dot_S10000x128_S128x10_S10000x10_1_0_0_1_n_n_wf : DotDims.WF S10000x128 S128x10 S10000x10 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x192_S192x256_S10000x256_1_0_0_1_n_n : DotDims S10000x192 S192x256 S10000x256 where
  lhsContracting := [1]
  rhsContracting := [0]
  lhsNonContracting := [0]
  rhsNonContracting := [1]
  lhsBatch := []
  rhsBatch := []
  wf := dot_S10000x192_S192x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x10_S10000x10_1_0_0_1_n_n : DotDims S10000x128 S128x10 S10000x10 where
  lhsContracting := [1]
  rhsContracting := [0]
  lhsNonContracting := [0]
  rhsNonContracting := [1]
  lhsBatch := []
  rhsBatch := []
  wf := dot_S10000x128_S128x10_S10000x10_1_0_0_1_n_n_wf

class Facts : Prop extends Facts₀ where

variable [Facts]
-- ==== Proof.Ideal.Conds.lean ====
/-
  The four tests the body branches on, each a comparison of the one grid coordinate t (0 ≤ t < 50), with the set of
  grid points at which it holds: t = 0 (the first support x·W₁ is formed), t < 25 (first sweep over the adjacency's row
  tiles: a tile of the first layer is written), t = 25 (the second support x₁·W₂ is formed), 25 ≤ t (second sweep:
  a tile of the second layer, both heads and the three result blocks).
-/
import proofs.«124129_g73521250173546_cont_sun_c4_545_19_alg».proof.Proof.Gen.KernelIdeal.Launch
import proofs.«124129_g73521250173546_cont_sun_c4_545_19_alg».proof.Proof.Gen.KernelIdeal.Skeleton
import proofs.«124129_g73521250173546_cont_sun_c4_545_19_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test: the grid coordinate is 0. -/
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)
/-- The second: the coordinate is below 25 (the first sweep). -/
abbrev cond2 (i : grid0.Coords) : Prop := k0_cond2 i = 1#1
theorem hcond2 : ∀ t : Fin cfg0.N, cond2 (grid0.coords t) ↔ t.val < 25 :=
  (by decide +kernel : ∀ t : Fin grid0.N, cond2 (grid0.coords t) ↔ t.val < 25)
/-- The third: the coordinate is 25. -/
abbrev cond3 (i : grid0.Coords) : Prop := (Scalar.cmpi .ne (Scalar.extui (Scalar.cmpi .eq (BitVec.ofNat 32 (i 0).val) 25#32)) 0#32) = 1#1
theorem hcond3 : ∀ t : Fin cfg0.N, cond3 (grid0.coords t) ↔ t.val = 25 :=
  (by decide +kernel : ∀ t : Fin grid0.N, cond3 (grid0.coords t) ↔ t.val = 25)
/-- The fourth: the coordinate is at least 25 (the second sweep). -/
abbrev cond4 (i : grid0.Coords) : Prop := k0_cond4 i = 1#1
theorem hcond4 : ∀ t : Fin cfg0.N, cond4 (grid0.coords t) ↔ 25 ≤ t.val :=
  (by decide +kernel : ∀ t : Fin grid0.N, cond4 (grid0.coords t) ↔ 25 ≤ t.val)

end Cert.KernelIdeal.Hand

end
-- ==== Proof.Ideal.Slab.lean ====
/-
  Row slabs of the first layer's scratch. The store of grid point t < 25 into that scratch is ONE piece: the rectangle of
  rows 400·t … 400·t+399 (all 128 columns). A row r lies in it exactly when r / 400 = t; so the store of point t gives
  the scratch the first layer's values on slab t (covered: the read is the pieces' canonical contents, which is how
  `X1full` is defined there) and leaves every other row as it was (off the piece a write changes nothing).
-/
import proofs.«124129_g73521250173546_cont_sun_c4_545_19_alg».proof.Proof.Ideal.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The row-slab offsets over the grid, in closed form: point t stores at row 400·(t mod 25), column 0. -/
private theorem off1_eq : ∀ t : Fin cfg0.N, k0_off1 (grid0.coords t) = ![400 * (t.val % 25), 0] :=
  (by decide +kernel : ∀ t : Fin grid0.N, k0_off1 (grid0.coords t) = ![400 * (t.val % 25), 0])

/-- An index lies in the 400 × 128 unit rectangle at row offset 400·t exactly when its row is in slab t. -/
private theorem mem_slab (t : Fin cfg0.N) (h1 : t.val < 25) (inb) (idx : S10000x128.Idx) :
    idx ∈ (Rect.unit (s := S10000x128) (k0_off1 (grid0.coords t)) S400x128.size inb).set
      ↔ 400 * t.val ≤ (idx 0).val ∧ (idx 0).val < 400 * (t.val + 1) := by
  have e0 : k0_off1 (grid0.coords t) 0 = 400 * t.val := by rw [off1_eq, Nat.mod_eq_of_lt h1]; rfl
  have e1 : k0_off1 (grid0.coords t) 1 = 0 := by rw [off1_eq]; rfl
  have hc : (idx 1).val < 128 := (idx 1).isLt
  rw [Rect.mem_set_unit, Fin.forall_fin_two, e0, e1]
  show (400 * t.val ≤ (idx 0).val ∧ (idx 0).val < 400 * t.val + 400) ∧ (0 ≤ (idx 1).val ∧ (idx 1).val < 0 + 128) ↔ _
  omega

/-- On the one piece a store list consists of, a read after the writes is the pieces' canonical contents; -/
private theorem read_single_of_mem {sig' : RefSig} {κ : Kind} {sp : Space} (v : View sig' κ sp S10000x128 .f32) (f : v.ty.Contents (Elt F))
    (r : Rect S10000x128) (w : r.shape.Idx → Elt F .f32) (idx : S10000x128.Idx) (h : idx ∈ r.set) :
    v.read (Elt F) (v.writes (Elt F) f [⟨r, w⟩]) idx = View.canon [⟨r, w⟩] idx :=
  View.read_writes_apply_eq_canon v f idx [⟨r, w⟩] ⟨⟨r, w⟩, List.mem_singleton.mpr rfl, h⟩

/-- off it, what was there before. -/
private theorem read_single_of_not_mem {sig' : RefSig} {κ : Kind} {sp : Space} (v : View sig' κ sp S10000x128 .f32) (f : v.ty.Contents (Elt F))
    (r : Rect S10000x128) (w : r.shape.Idx → Elt F .f32) (idx : S10000x128.Idx) (h : idx ∉ r.set) :
    v.read (Elt F) (v.writes (Elt F) f [⟨r, w⟩]) idx = v.read (Elt F) f idx :=
  View.read_writes_apply_of_forall_not_mem v f idx [⟨r, w⟩] fun p' hp' => by rw [List.mem_singleton.mp hp']; exact h

/-- The store list of the first point into the first layer's scratch is one piece: the 400 × 128 unit rectangle at
    the point's row offset (the payload is whatever the run computed). -/
private theorem runA_pieces (c : Dev nD) (t : Fin cfg0.N) (h0 : t.val = 0) :
    ∃ inb P, (runA m c t h0).2.1
      = [⟨Rect.unit (s := S10000x128) (k0_off1 (grid0.coords t)) S400x128.size inb, P⟩] := by
  unfold runA kernelRun0_A
  exact ⟨_, _, rfl⟩

/-- The same of a later point of the first sweep. -/
private theorem runB_pieces (c : Dev nD) (t : Fin cfg0.N) (h0 : t.val ≠ 0) (h1 : t.val < 25) :
    ∃ inb P, (runB m c t h0 h1).1
      = [⟨Rect.unit (s := S10000x128) (k0_off1 (grid0.coords t)) S400x128.size inb, P⟩] := by
  unfold runB kernelRun0_B
  exact ⟨_, _, rfl⟩

/-- The first layer on slab t is the canonical contents of point t's pieces. -/
private theorem X1full_eq (c : Dev nD) (t : Fin cfg0.N) (idx : S10000x128.Idx) (hq : (idx 0).val / 400 = t.val) :
    X1full m c idx = View.canon (x1Pieces m c t) idx := by
  obtain ⟨tv, ht⟩ := t
  simp only at hq
  subst hq
  rfl

/-- After the first point the scratch agrees with the first layer on rows 0 … 399, whatever it held before. -/
theorem X1ok_stepA (c : Dev nD) (t : Fin cfg0.N) (h0 : t.val = 0) (X0 : Vec F S10000x128 .f32) :
    X1ok m c 1 (scM1.view.read (Elt F) (scM1.view.writes (Elt F) ((Memref.isWhole_whole _ : scM1.IsWhole).unread X0) (runA m c t h0).2.1)) := by
  obtain ⟨inb, P, hP⟩ := runA_pieces m c t h0
  intro idx hidx
  have hq : (idx 0).val / 400 = t.val := by omega
  have hx : x1Pieces m c t = (runA m c t h0).2.1 := by unfold x1Pieces; rw [dif_pos h0]
  rw [X1full_eq m c t idx hq, hx, hP]
  exact read_single_of_mem _ _ _ P idx ((mem_slab t (by omega) inb idx).mpr (by omega))

/-- A later point t of the first sweep extends the agreement from rows < 400·t to rows < 400·(t + 1). -/
theorem X1ok_stepB (c : Dev nD) (t : Fin cfg0.N) (h0 : t.val ≠ 0) (h1 : t.val < 25) (X : Vec F S10000x128 .f32)
    (hX : X1ok m c t.val X) :
    X1ok m c (t.val + 1) (scM1.view.read (Elt F) (scM1.view.writes (Elt F) ((Memref.isWhole_whole _ : scM1.IsWhole).unread X) (runB m c t h0 h1).1)) := by
  obtain ⟨inb, P, hP⟩ := runB_pieces m c t h0 h1
  intro idx hidx
  by_cases hlo : 400 * t.val ≤ (idx 0).val
  · have hq : (idx 0).val / 400 = t.val := by omega
    have hx : x1Pieces m c t = (runB m c t h0 h1).1 := by unfold x1Pieces; rw [dif_neg h0, dif_pos h1]
    rw [X1full_eq m c t idx hq, hx, hP]
    exact read_single_of_mem _ _ _ P idx ((mem_slab t h1 inb idx).mpr ⟨hlo, hidx⟩)
  · have hnm : idx ∉ (Rect.unit (s := S10000x128) (k0_off1 (grid0.coords t)) S400x128.size inb).set :=
      fun hm => hlo ((mem_slab t h1 inb idx).mp hm).1
    rw [hP, read_single_of_not_mem _ _ _ P idx hnm, Memref.IsWhole.read_unread]
    exact hX idx (by omega)

end Cert.KernelIdeal.Hand

end
-- ==== Proof.Ideal.Inv.lean ====
/-
  Covers and the invariant's bookkeeping. A buffer a case stores into WHOLE — the first support's scratch at point 0,
  the second support's at point 25, the three result blocks at every point of the second sweep (the third of them by two
  stores, columns 0 … 127 and 128 … 191) — ends holding its store pieces' canonical contents whatever it held before:
  the pieces tile it. The first layer's scratch agrees with `X1full` on ALL rows once 25 slabs are written, and then
  IS `X1full`.
-/
import proofs.«124129_g73521250173546_cont_sun_c4_545_19_alg».proof.Proof.Ideal.Slab

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The pieces of a buffer stored into whole tile it -/

theorem coverA_33 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : cond1 i) (hc2 : cond2 i) (hc3 : ¬cond3 i) (hc4 : ¬cond4 i)
    (y3 : Vec F S10000x128 .f32) (y4 : Vec F S128x128 .f32) (y1 : Vec F S200x10000 .f32) (y2 : Vec F S200x10000 .f32) (y5 : Vec F S1x128 .f32) (y : S10000x128.Idx) :
    ∃ pc ∈ (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y3 y4 y1 y2 y5).1, y ∈ pc.1.set :=
  View.cover_of_tiledL (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y3 y4 y1 y2 y5).1 S10000x128.size (by sl_kernel_rfl) y
theorem coverC_35 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : ¬cond2 i) (hc3 : cond3 i) (hc4 : cond4 i)
    (y34 : Vec F S10000x128 .f32) (y6 : Vec F S128x64 .f32) (y1 : Vec F S200x10000 .f32) (y2 : Vec F S200x10000 .f32) (y7 : Vec F S1x64 .f32) (y8 : Vec F S128x256 .f32) (y9 : Vec F S64x256 .f32) (y10 : Vec F S1x256 .f32) (y11 : Vec F S1x256 .f32) (y12 : Vec F S1x256 .f32) (y13 : Vec F S1x256 .f32) (y14 : Vec F S1x256 .f32) (y15 : Vec F S256x128 .f32) (y16 : Vec F S1x128 .f32) (y17 : Vec F S1x128 .f32) (y18 : Vec F S1x128 .f32) (y19 : Vec F S1x128 .f32) (y20 : Vec F S1x128 .f32) (y21 : Vec F S128x10 .f32) (y22 : Vec F S1x10 .f32) (y23 : Vec F S128x256 .f32) (y24 : Vec F S64x256 .f32) (y25 : Vec F S1x256 .f32) (y26 : Vec F S256x128 .f32) (y27 : Vec F S1x128 .f32) (y28 : Vec F S128x128 .f32) (y29 : Vec F S1x128 .f32) (y : S10000x64.Idx) :
    ∃ pc ∈ (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y6 y1 y2 y7 y8 y9 y10 y11 y12 y13 y14 y15 y16 y17 y18 y19 y20 y21 y22 y23 y24 y25 y26 y27 y28 y29).1, y ∈ pc.1.set :=
  View.cover_of_tiledL (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y6 y1 y2 y7 y8 y9 y10 y11 y12 y13 y14 y15 y16 y17 y18 y19 y20 y21 y22 y23 y24 y25 y26 y27 y28 y29).1 S10000x64.size (by sl_kernel_rfl) y
theorem coverC_30 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : ¬cond2 i) (hc3 : cond3 i) (hc4 : cond4 i)
    (y34 : Vec F S10000x128 .f32) (y6 : Vec F S128x64 .f32) (y1 : Vec F S200x10000 .f32) (y2 : Vec F S200x10000 .f32) (y7 : Vec F S1x64 .f32) (y8 : Vec F S128x256 .f32) (y9 : Vec F S64x256 .f32) (y10 : Vec F S1x256 .f32) (y11 : Vec F S1x256 .f32) (y12 : Vec F S1x256 .f32) (y13 : Vec F S1x256 .f32) (y14 : Vec F S1x256 .f32) (y15 : Vec F S256x128 .f32) (y16 : Vec F S1x128 .f32) (y17 : Vec F S1x128 .f32) (y18 : Vec F S1x128 .f32) (y19 : Vec F S1x128 .f32) (y20 : Vec F S1x128 .f32) (y21 : Vec F S128x10 .f32) (y22 : Vec F S1x10 .f32) (y23 : Vec F S128x256 .f32) (y24 : Vec F S64x256 .f32) (y25 : Vec F S1x256 .f32) (y26 : Vec F S256x128 .f32) (y27 : Vec F S1x128 .f32) (y28 : Vec F S128x128 .f32) (y29 : Vec F S1x128 .f32) (y : S400x10.Idx) :
    ∃ pc ∈ (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y6 y1 y2 y7 y8 y9 y10 y11 y12 y13 y14 y15 y16 y17 y18 y19 y20 y21 y22 y23 y24 y25 y26 y27 y28 y29).2.1, y ∈ pc.1.set :=
  View.cover_of_tiledL (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y6 y1 y2 y7 y8 y9 y10 y11 y12 y13 y14 y15 y16 y17 y18 y19 y20 y21 y22 y23 y24 y25 y26 y27 y28 y29).2.1 S400x10.size (by sl_kernel_rfl) y
theorem coverC_31 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : ¬cond2 i) (hc3 : cond3 i) (hc4 : cond4 i)
    (y34 : Vec F S10000x128 .f32) (y6 : Vec F S128x64 .f32) (y1 : Vec F S200x10000 .f32) (y2 : Vec F S200x10000 .f32) (y7 : Vec F S1x64 .f32) (y8 : Vec F S128x256 .f32) (y9 : Vec F S64x256 .f32) (y10 : Vec F S1x256 .f32) (y11 : Vec F S1x256 .f32) (y12 : Vec F S1x256 .f32) (y13 : Vec F S1x256 .f32) (y14 : Vec F S1x256 .f32) (y15 : Vec F S256x128 .f32) (y16 : Vec F S1x128 .f32) (y17 : Vec F S1x128 .f32) (y18 : Vec F S1x128 .f32) (y19 : Vec F S1x128 .f32) (y20 : Vec F S1x128 .f32) (y21 : Vec F S128x10 .f32) (y22 : Vec F S1x10 .f32) (y23 : Vec F S128x256 .f32) (y24 : Vec F S64x256 .f32) (y25 : Vec F S1x256 .f32) (y26 : Vec F S256x128 .f32) (y27 : Vec F S1x128 .f32) (y28 : Vec F S128x128 .f32) (y29 : Vec F S1x128 .f32) (y : S400x128.Idx) :
    ∃ pc ∈ (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y6 y1 y2 y7 y8 y9 y10 y11 y12 y13 y14 y15 y16 y17 y18 y19 y20 y21 y22 y23 y24 y25 y26 y27 y28 y29).2.2.1, y ∈ pc.1.set :=
  View.cover_of_tiledL (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y6 y1 y2 y7 y8 y9 y10 y11 y12 y13 y14 y15 y16 y17 y18 y19 y20 y21 y22 y23 y24 y25 y26 y27 y28 y29).2.2.1 S400x128.size (by sl_kernel_rfl) y
theorem coverC_32 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : ¬cond2 i) (hc3 : cond3 i) (hc4 : cond4 i)
    (y34 : Vec F S10000x128 .f32) (y6 : Vec F S128x64 .f32) (y1 : Vec F S200x10000 .f32) (y2 : Vec F S200x10000 .f32) (y7 : Vec F S1x64 .f32) (y8 : Vec F S128x256 .f32) (y9 : Vec F S64x256 .f32) (y10 : Vec F S1x256 .f32) (y11 : Vec F S1x256 .f32) (y12 : Vec F S1x256 .f32) (y13 : Vec F S1x256 .f32) (y14 : Vec F S1x256 .f32) (y15 : Vec F S256x128 .f32) (y16 : Vec F S1x128 .f32) (y17 : Vec F S1x128 .f32) (y18 : Vec F S1x128 .f32) (y19 : Vec F S1x128 .f32) (y20 : Vec F S1x128 .f32) (y21 : Vec F S128x10 .f32) (y22 : Vec F S1x10 .f32) (y23 : Vec F S128x256 .f32) (y24 : Vec F S64x256 .f32) (y25 : Vec F S1x256 .f32) (y26 : Vec F S256x128 .f32) (y27 : Vec F S1x128 .f32) (y28 : Vec F S128x128 .f32) (y29 : Vec F S1x128 .f32) (y : S400x192.Idx) :
    ∃ pc ∈ (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y6 y1 y2 y7 y8 y9 y10 y11 y12 y13 y14 y15 y16 y17 y18 y19 y20 y21 y22 y23 y24 y25 y26 y27 y28 y29).2.2.2.1, y ∈ pc.1.set :=
  View.cover_of_tiledBy (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y6 y1 y2 y7 y8 y9 y10 y11 y12 y13 y14 y15 y16 y17 y18 y19 y20 y21 y22 y23 y24 y25 y26 y27 y28 y29).2.2.2.1 ![400, 64] (by sl_kernel_rfl) y
theorem coverD_30 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : ¬cond2 i) (hc3 : ¬cond3 i) (hc4 : cond4 i)
    (y34 : Vec F S10000x128 .f32) (y35 : Vec F S10000x64 .bf16) (y1 : Vec F S200x10000 .f32) (y2 : Vec F S200x10000 .f32) (y7 : Vec F S1x64 .f32) (y8 : Vec F S128x256 .f32) (y9 : Vec F S64x256 .f32) (y10 : Vec F S1x256 .f32) (y11 : Vec F S1x256 .f32) (y12 : Vec F S1x256 .f32) (y13 : Vec F S1x256 .f32) (y14 : Vec F S1x256 .f32) (y15 : Vec F S256x128 .f32) (y16 : Vec F S1x128 .f32) (y17 : Vec F S1x128 .f32) (y18 : Vec F S1x128 .f32) (y19 : Vec F S1x128 .f32) (y20 : Vec F S1x128 .f32) (y21 : Vec F S128x10 .f32) (y22 : Vec F S1x10 .f32) (y23 : Vec F S128x256 .f32) (y24 : Vec F S64x256 .f32) (y25 : Vec F S1x256 .f32) (y26 : Vec F S256x128 .f32) (y27 : Vec F S1x128 .f32) (y28 : Vec F S128x128 .f32) (y29 : Vec F S1x128 .f32) (y : S400x10.Idx) :
    ∃ pc ∈ (kernelRun0_D (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y35 y1 y2 y7 y8 y9 y10 y11 y12 y13 y14 y15 y16 y17 y18 y19 y20 y21 y22 y23 y24 y25 y26 y27 y28 y29).1, y ∈ pc.1.set :=
  View.cover_of_tiledL (kernelRun0_D (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y35 y1 y2 y7 y8 y9 y10 y11 y12 y13 y14 y15 y16 y17 y18 y19 y20 y21 y22 y23 y24 y25 y26 y27 y28 y29).1 S400x10.size (by sl_kernel_rfl) y
theorem coverD_31 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : ¬cond2 i) (hc3 : ¬cond3 i) (hc4 : cond4 i)
    (y34 : Vec F S10000x128 .f32) (y35 : Vec F S10000x64 .bf16) (y1 : Vec F S200x10000 .f32) (y2 : Vec F S200x10000 .f32) (y7 : Vec F S1x64 .f32) (y8 : Vec F S128x256 .f32) (y9 : Vec F S64x256 .f32) (y10 : Vec F S1x256 .f32) (y11 : Vec F S1x256 .f32) (y12 : Vec F S1x256 .f32) (y13 : Vec F S1x256 .f32) (y14 : Vec F S1x256 .f32) (y15 : Vec F S256x128 .f32) (y16 : Vec F S1x128 .f32) (y17 : Vec F S1x128 .f32) (y18 : Vec F S1x128 .f32) (y19 : Vec F S1x128 .f32) (y20 : Vec F S1x128 .f32) (y21 : Vec F S128x10 .f32) (y22 : Vec F S1x10 .f32) (y23 : Vec F S128x256 .f32) (y24 : Vec F S64x256 .f32) (y25 : Vec F S1x256 .f32) (y26 : Vec F S256x128 .f32) (y27 : Vec F S1x128 .f32) (y28 : Vec F S128x128 .f32) (y29 : Vec F S1x128 .f32) (y : S400x128.Idx) :
    ∃ pc ∈ (kernelRun0_D (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y35 y1 y2 y7 y8 y9 y10 y11 y12 y13 y14 y15 y16 y17 y18 y19 y20 y21 y22 y23 y24 y25 y26 y27 y28 y29).2.1, y ∈ pc.1.set :=
  View.cover_of_tiledL (kernelRun0_D (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y35 y1 y2 y7 y8 y9 y10 y11 y12 y13 y14 y15 y16 y17 y18 y19 y20 y21 y22 y23 y24 y25 y26 y27 y28 y29).2.1 S400x128.size (by sl_kernel_rfl) y
theorem coverD_32 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : ¬cond2 i) (hc3 : ¬cond3 i) (hc4 : cond4 i)
    (y34 : Vec F S10000x128 .f32) (y35 : Vec F S10000x64 .bf16) (y1 : Vec F S200x10000 .f32) (y2 : Vec F S200x10000 .f32) (y7 : Vec F S1x64 .f32) (y8 : Vec F S128x256 .f32) (y9 : Vec F S64x256 .f32) (y10 : Vec F S1x256 .f32) (y11 : Vec F S1x256 .f32) (y12 : Vec F S1x256 .f32) (y13 : Vec F S1x256 .f32) (y14 : Vec F S1x256 .f32) (y15 : Vec F S256x128 .f32) (y16 : Vec F S1x128 .f32) (y17 : Vec F S1x128 .f32) (y18 : Vec F S1x128 .f32) (y19 : Vec F S1x128 .f32) (y20 : Vec F S1x128 .f32) (y21 : Vec F S128x10 .f32) (y22 : Vec F S1x10 .f32) (y23 : Vec F S128x256 .f32) (y24 : Vec F S64x256 .f32) (y25 : Vec F S1x256 .f32) (y26 : Vec F S256x128 .f32) (y27 : Vec F S1x128 .f32) (y28 : Vec F S128x128 .f32) (y29 : Vec F S1x128 .f32) (y : S400x192.Idx) :
    ∃ pc ∈ (kernelRun0_D (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y35 y1 y2 y7 y8 y9 y10 y11 y12 y13 y14 y15 y16 y17 y18 y19 y20 y21 y22 y23 y24 y25 y26 y27 y28 y29).2.2.1, y ∈ pc.1.set :=
  View.cover_of_tiledBy (kernelRun0_D (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y35 y1 y2 y7 y8 y9 y10 y11 y12 y13 y14 y15 y16 y17 y18 y19 y20 y21 y22 y23 y24 y25 y26 y27 y28 y29).2.2.1 ![400, 64] (by sl_kernel_rfl) y

/-! ## At a grid point -/

theorem coverC_29w (c : Dev nD) (t : Fin cfg0.N) (h : t.val = 25) (y : S400x10.Idx) : ∃ pc ∈ (runC m c t h).2.1, y ∈ pc.1.set := coverC_30 ..
theorem coverC_30w (c : Dev nD) (t : Fin cfg0.N) (h : t.val = 25) (y : S400x128.Idx) : ∃ pc ∈ (runC m c t h).2.2.1, y ∈ pc.1.set := coverC_31 ..
theorem coverC_31w (c : Dev nD) (t : Fin cfg0.N) (h : t.val = 25) (y : S400x192.Idx) : ∃ pc ∈ (runC m c t h).2.2.2.1, y ∈ pc.1.set := coverC_32 ..
theorem coverD_29w (c : Dev nD) (t : Fin cfg0.N) (h : 25 < t.val) (y : S400x10.Idx) : ∃ pc ∈ (runD m c t h).1, y ∈ pc.1.set := coverD_30 ..
theorem coverD_30w (c : Dev nD) (t : Fin cfg0.N) (h : 25 < t.val) (y : S400x128.Idx) : ∃ pc ∈ (runD m c t h).2.1, y ∈ pc.1.set := coverD_31 ..
theorem coverD_31w (c : Dev nD) (t : Fin cfg0.N) (h : 25 < t.val) (y : S400x192.Idx) : ∃ pc ∈ (runD m c t h).2.2.1, y ∈ pc.1.set := coverD_32 ..

/-- Whatever the first scratch held, after the first point it holds the named first support. -/
theorem S1v_of_run (c : Dev nD) (t : Fin cfg0.N) (h0 : t.val = 0) (es0 : scM0.view.ty.Contents (Elt F)) :
    scM0.view.read (Elt F) (scM0.view.writes (Elt F) es0 (runA m c t h0).1) = S1v m c := by
  obtain rfl : t = t0 := Fin.ext h0
  unfold S1v
  exact View.read_writes_of_cover _ _ _ _ _ (fun y => coverA_33 ..)

/-- Whatever the third scratch held, after point 25 it holds the named second support. -/
theorem S2v_of_run (c : Dev nD) (t : Fin cfg0.N) (h2 : t.val = 25) (es2 : scM2.view.ty.Contents (Elt F)) :
    scM2.view.read (Elt F) (scM2.view.writes (Elt F) es2 (runC m c t h2).1) = S2v m c := by
  obtain rfl : t = t25 := Fin.ext h2
  unfold S2v
  exact View.read_writes_of_cover _ _ _ _ _ (fun y => coverC_35 ..)

/-- The first layer agrees with itself. -/
theorem X1ok_self (c : Dev nD) (n : ℕ) : X1ok m c n (X1full m c) := fun _ _ => rfl

/-- Agreement on 25 slabs is agreement everywhere: 25 · 400 rows are all the rows. -/
theorem X1ok_full (c : Dev nD) (X : Vec F S10000x128 .f32) (h : X1ok m c 25 X) : X = X1full m c :=
  funext fun idx => h idx (by have := (idx 0).isLt; simp only [Matrix.cons_val_zero] at this; omega)

end Cert.KernelIdeal.Hand

end
-- ==== Proof.Ideal.Oblig.lean ====
/-
  The library's body obligation at every grid point: its pre- and postcondition are the windows' conjunction over all
  32 windows, which is the window-by-window statement `sound_body` proves.
-/
import proofs.«124129_g73521250173546_cont_sun_c4_545_19_alg».proof.Proof.Ideal.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Ideal.Launch.lean ====
/-
  The launch. @main is the 26 host operations and then the one region. The adjacency reaches the kernel through TWO
  windows (its even and odd 200-row half-tiles), both read-only: the region holds that one buffer whole and lends each
  window half of it; every other window's array is a buffer of its own, held whole. With the body obligation and the
  invariant's two ends (at entry the three scratch buffers hold anything; at exit their contents are forgotten again),
  every weakly fair execution terminates, and ends with every result array at what the write-backs of the second sweep
  made of it and every other unscoped buffer — the argument arrays among them — as the host operations left it.
-/
import proofs.«124129_g73521250173546_cont_sun_c4_545_19_alg».proof.Proof.Ideal.Oblig
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry -/

/-- The 31 distinct buffers behind the 32 windows' arrays, listed. -/
theorem arrBufs0_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = bigSepL [main_arg1, main_arg0, main_arg2, main_v6, main_arg4, main_v7, main_v8, main_v9, main_v10, main_v11, main_v12, main_v13, main_v14, main_v1, main_v15, main_v16, main_v17, main_v18, main_v19, main_v2, main_v20, main_v21, main_v22, main_v23, main_v4, main_v24, main_v5, main_v25, main_v26_0, main_v26_1, main_v26_2] fun b => (((c : Thread nD τ).loc b) ↦{fullShare} V' b : sProp 𝕄) := by
  unfold Pipeline.arrBufs; exact bigSep_eq_bigSepL_of_eq _ (by decide) (by decide) _

/-- The same chain written out, one conjunct per buffer. -/
private theorem arrBufs0_chain (c : Dev nD) (V' : (b : Ref sig .tc) → Buf (Elt F) ((c : Thread nD τ).loc b)) :
    (bigSepL [main_arg1, main_arg0, main_arg2, main_v6, main_arg4, main_v7, main_v8, main_v9, main_v10, main_v11, main_v12, main_v13, main_v14, main_v1, main_v15, main_v16, main_v17, main_v18, main_v19, main_v2, main_v20, main_v21, main_v22, main_v23, main_v4, main_v24, main_v5, main_v25, main_v26_0, main_v26_1, main_v26_2] fun b => (((c : Thread nD τ).loc b) ↦{fullShare} V' b : sProp 𝕄))
      = iprop((((c : Thread nD τ).loc main_arg1) ↦{fullShare} V' main_arg1)
        ∗ (((c : Thread nD τ).loc main_arg0) ↦{fullShare} V' main_arg0)
        ∗ (((c : Thread nD τ).loc main_arg2) ↦{fullShare} V' main_arg2)
        ∗ (((c : Thread nD τ).loc main_v6) ↦{fullShare} V' main_v6)
        ∗ (((c : Thread nD τ).loc main_arg4) ↦{fullShare} V' main_arg4)
        ∗ (((c : Thread nD τ).loc main_v7) ↦{fullShare} V' main_v7)
        ∗ (((c : Thread nD τ).loc main_v8) ↦{fullShare} V' main_v8)
        ∗ (((c : Thread nD τ).loc main_v9) ↦{fullShare} V' main_v9)
        ∗ (((c : Thread nD τ).loc main_v10) ↦{fullShare} V' main_v10)
        ∗ (((c : Thread nD τ).loc main_v11) ↦{fullShare} V' main_v11)
        ∗ (((c : Thread nD τ).loc main_v12) ↦{fullShare} V' main_v12)
        ∗ (((c : Thread nD τ).loc main_v13) ↦{fullShare} V' main_v13)
        ∗ (((c : Thread nD τ).loc main_v14) ↦{fullShare} V' main_v14)
        ∗ (((c : Thread nD τ).loc main_v1) ↦{fullShare} V' main_v1)
        ∗ (((c : Thread nD τ).loc main_v15) ↦{fullShare} V' main_v15)
        ∗ (((c : Thread nD τ).loc main_v16) ↦{fullShare} V' main_v16)
        ∗ (((c : Thread nD τ).loc main_v17) ↦{fullShare} V' main_v17)
        ∗ (((c : Thread nD τ).loc main_v18) ↦{fullShare} V' main_v18)
        ∗ (((c : Thread nD τ).loc main_v19) ↦{fullShare} V' main_v19)
        ∗ (((c : Thread nD τ).loc main_v2) ↦{fullShare} V' main_v2)
        ∗ (((c : Thread nD τ).loc main_v20) ↦{fullShare} V' main_v20)
        ∗ (((c : Thread nD τ).loc main_v21) ↦{fullShare} V' main_v21)
        ∗ (((c : Thread nD τ).loc main_v22) ↦{fullShare} V' main_v22)
        ∗ (((c : Thread nD τ).loc main_v23) ↦{fullShare} V' main_v23)
        ∗ (((c : Thread nD τ).loc main_v4) ↦{fullShare} V' main_v4)
        ∗ (((c : Thread nD τ).loc main_v24) ↦{fullShare} V' main_v24)
        ∗ (((c : Thread nD τ).loc main_v5) ↦{fullShare} V' main_v5)
        ∗ (((c : Thread nD τ).loc main_v25) ↦{fullShare} V' main_v25)
        ∗ (((c : Thread nD τ).loc main_v26_0) ↦{fullShare} V' main_v26_0)
        ∗ (((c : Thread nD τ).loc main_v26_1) ↦{fullShare} V' main_v26_1)
        ∗ (((c : Thread nD τ).loc main_v26_2) ↦{fullShare} V' main_v26_2)) := rfl

/-- Each window's array conjunct is a points-to of its whole buffer, at the window's share. -/
theorem arrays0_eq (c : Dev nD) :
    (dats m 0 c).arrays ((dats m 0 c).arrAt · 0)
      = bigSep Finset.univ fun w : Fin 32 => ((((c : Thread nD τ).loc (Pipeline.arrRef spec0 w)) ↦{(dats m 0 c).share w} V m c (Pipeline.arrRef spec0 w) : sProp 𝕄)) := by
  unfold Dat.arrays
  exact bigSep_congr fun w _ => by rw [(arr_whole0 w).set_eq_univ]; rfl

set_option maxHeartbeats 1600000 in
/-- The buffers behind the arrays, each whole at its entry contents, dealt among the windows: the adjacency's halves to
    windows 0 and 1, every other buffer whole to its one window. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrays0_eq, bigSep_W0, arrBufs0_eq, arrBufs0_chain]
  iintro ⟨H_arg1, H_arg0, H_arg2, H_v6, H_arg4, H_v7, H_v8, H_v9, H_v10, H_v11, H_v12, H_v13, H_v14, H_v1, H_v15, H_v16, H_v17, H_v18, H_v19, H_v2, H_v20, H_v21, H_v22, H_v23, H_v4, H_v24, H_v5, H_v25, H_v26_0, H_v26_1, H_v26_2⟩
  ihave Hadj := (pointsTo_share (PosShare.mem_left_op_right fullShare)).1 $$ H_arg1
  icases Hadj with ⟨HadjL, HadjR⟩
  isplitl [HadjL]; · iexact HadjL
  isplitl [HadjR]; · iexact HadjR
  isplitl [H_arg0]; · iexact H_arg0
  isplitl [H_arg2]; · iexact H_arg2
  isplitl [H_v6]; · iexact H_v6
  isplitl [H_arg4]; · iexact H_arg4
  isplitl [H_v7]; · iexact H_v7
  isplitl [H_v8]; · iexact H_v8
  isplitl [H_v9]; · iexact H_v9
  isplitl [H_v10]; · iexact H_v10
  isplitl [H_v11]; · iexact H_v11
  isplitl [H_v12]; · iexact H_v12
  isplitl [H_v13]; · iexact H_v13
  isplitl [H_v14]; · iexact H_v14
  isplitl [H_v1]; · iexact H_v1
  isplitl [H_v15]; · iexact H_v15
  isplitl [H_v16]; · iexact H_v16
  isplitl [H_v17]; · iexact H_v17
  isplitl [H_v18]; · iexact H_v18
  isplitl [H_v19]; · iexact H_v19
  isplitl [H_v2]; · iexact H_v2
  isplitl [H_v20]; · iexact H_v20
  isplitl [H_v21]; · iexact H_v21
  isplitl [H_v22]; · iexact H_v22
  isplitl [H_v23]; · iexact H_v23
  isplitl [H_v4]; · iexact H_v4
  isplitl [H_v24]; · iexact H_v24
  isplitl [H_v5]; · iexact H_v5
  isplitl [H_v25]; · iexact H_v25
  isplitl [H_v26_0]; · iexact H_v26_0
  isplitl [H_v26_1]; · iexact H_v26_1
  iexact H_v26_2

/-! ## The run -/

set_option backward.isDefEq.respectTransparency.types false in
theorem run_main : θ_run defs (onTc (τ := τ) (main (F := F))) (s₀ m ρ) (Pipeline.FramePost cfgs (dats m) 0 (V m)) := by
  classical
  exact Pipeline.θ_run_region_pf (fun q => (cfgs q).toPCfg (Val := Elt F)) (fun q => (cfgs q).toPCfg_adm) (dats m) () cellOf_inj 0 winFacts₀0
    (Pipeline.OwnSemFacts.none spec0) (Pipeline.PreFacts.none _) emb₁ defs₀ Variants.none m ρ main
    (fun c => (body_obligation m c).loose) block_pos0 arr_whole0 stage_whole0 (fun _ _ => rfl)
    (G := fun _ => iprop(emp)) (u₀ := Rounds.initOf (Pipeline.cells cfgs cellOf_inj) (Pipeline.launchToks cfgs cellOf_inj))
    (hu₀ := by
      iintro Hu; imodintro
      isplitl [Hu]; · iapply (show (ownU _ : sProp 𝕄) ⊢ BI.own (emb₁ (Rounds.initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => by
      refine (show _ ⊢ Pipeline.ΦA spec0 c from ?_).trans ?_
      · unfold Pipeline.ΦA; iintro ⟨Hp, -, Hr⟩
        isplitl [Hr] <;> iassumption
      · rw [show (dats m 0 c).Φ 0 = PhiS m c 0 (Nat.zero_le _) from rfl, PhiS_zero m c 0 _ rfl])
    (hout := fun c => by
      refine (show (dats m 0 c).Φ (Fin.last cfg0.N) ⊢ Pipeline.ΦA spec0 c from ?_).trans ?_
      · rw [show (dats m 0 c).Φ (Fin.last cfg0.N) = PhiS m c (Fin.last cfg0.N).val (Nat.le_of_lt_succ (Fin.last cfg0.N).isLt) from rfl,
          PhiS_pos m c _ _ (by rw [Fin.val_last]; have : cfg0.N = 50 := N_0; omega),
          if_pos (show 25 ≤ (Fin.last cfg0.N).val - 1 by rw [Fin.val_last]; have : cfg0.N = 50 := N_0; omega), PhiA0_eq]
        iintro ⟨⟨HS0, ⟨%X, -, HS1⟩, HS2⟩, Hg⟩
        isplitr [Hg]
        · isplitl [HS0]; · iexists _; iexact HS0
          isplitl [HS1]; · iexists _; iexact HS1
          iexists _; iexact HS2
        iexact Hg
      · rw [Pipeline.ownSems0_none]; unfold Pipeline.ΦA
        iintro ⟨Hr, Hp⟩
        isplitl [Hp]; · iexact Hp
        isplitr; · iempintro
        iexact Hr)
    (QY := fun c s => ∀ b ∈ Pipeline.restRefsP sig Pipeline.Prefetch.none spec0, s.mem ((c : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (V m c) s')
      isplitl [HU] <;> iassumption)
    (hQ := fun s h c => ⟨fun w => (h c).1 w, Pipeline.rest_of_restP Pipeline.Prefetch.none spec0 (fun k => k.elim0) c (V m c) s (fun k => k.elim0) (h c).2.1 (h c).2.2⟩)

/-! ## The frame -/

/-- The host operations write only their own result buffers: an argument array is at entry what it was at launch. -/
theorem V_main_arg0 (c : Dev nD) : V m c main_arg0 = m ((c : Thread nD τ).loc main_arg0) := by
  dsimp only [V, V0, hostOps0]; after_results
theorem V_main_arg1 (c : Dev nD) : V m c main_arg1 = m ((c : Thread nD τ).loc main_arg1) := by
  dsimp only [V, V0, hostOps0]; after_results
theorem V_main_arg2 (c : Dev nD) : V m c main_arg2 = m ((c : Thread nD τ).loc main_arg2) := by
  dsimp only [V, V0, hostOps0]; after_results
theorem V_main_arg3 (c : Dev nD) : V m c main_arg3 = m ((c : Thread nD τ).loc main_arg3) := by
  dsimp only [V, V0, hostOps0]; after_results
theorem V_main_arg4 (c : Dev nD) : V m c main_arg4 = m ((c : Thread nD τ).loc main_arg4) := by
  dsimp only [V, V0, hostOps0]; after_results
theorem V_main_arg5 (c : Dev nD) : V m c main_arg5 = m ((c : Thread nD τ).loc main_arg5) := by
  dsimp only [V, V0, hostOps0]; after_results
theorem V_main_arg6 (c : Dev nD) : V m c main_arg6 = m ((c : Thread nD τ).loc main_arg6) := by
  dsimp only [V, V0, hostOps0]; after_results
theorem V_main_arg7 (c : Dev nD) : V m c main_arg7 = m ((c : Thread nD τ).loc main_arg7) := by
  dsimp only [V, V0, hostOps0]; after_results
theorem V_main_arg8 (c : Dev nD) : V m c main_arg8 = m ((c : Thread nD τ).loc main_arg8) := by
  dsimp only [V, V0, hostOps0]; after_results
theorem V_main_arg9 (c : Dev nD) : V m c main_arg9 = m ((c : Thread nD τ).loc main_arg9) := by
  dsimp only [V, V0, hostOps0]; after_results
theorem V_main_arg10 (c : Dev nD) : V m c main_arg10 = m ((c : Thread nD τ).loc main_arg10) := by
  dsimp only [V, V0, hostOps0]; after_results
theorem V_main_arg11 (c : Dev nD) : V m c main_arg11 = m ((c : Thread nD τ).loc main_arg11) := by
  dsimp only [V, V0, hostOps0]; after_results
theorem V_main_arg12 (c : Dev nD) : V m c main_arg12 = m ((c : Thread nD τ).loc main_arg12) := by
  dsimp only [V, V0, hostOps0]; after_results
theorem V_main_arg13 (c : Dev nD) : V m c main_arg13 = m ((c : Thread nD τ).loc main_arg13) := by
  dsimp only [V, V0, hostOps0]; after_results
theorem V_main_arg14 (c : Dev nD) : V m c main_arg14 = m ((c : Thread nD τ).loc main_arg14) := by
  dsimp only [V, V0, hostOps0]; after_results
theorem V_main_arg15 (c : Dev nD) : V m c main_arg15 = m ((c : Thread nD τ).loc main_arg15) := by
  dsimp only [V, V0, hostOps0]; after_results
theorem V_main_arg16 (c : Dev nD) : V m c main_arg16 = m ((c : Thread nD τ).loc main_arg16) := by
  dsimp only [V, V0, hostOps0]; after_results
theorem V_main_arg17 (c : Dev nD) : V m c main_arg17 = m ((c : Thread nD τ).loc main_arg17) := by
  dsimp only [V, V0, hostOps0]; after_results
theorem V_main_arg18 (c : Dev nD) : V m c main_arg18 = m ((c : Thread nD τ).loc main_arg18) := by
  dsimp only [V, V0, hostOps0]; after_results
theorem V_main_arg19 (c : Dev nD) : V m c main_arg19 = m ((c : Thread nD τ).loc main_arg19) := by
  dsimp only [V, V0, hostOps0]; after_results
theorem V_main_arg20 (c : Dev nD) : V m c main_arg20 = m ((c : Thread nD τ).loc main_arg20) := by
  dsimp only [V, V0, hostOps0]; after_results
theorem V_main_arg21 (c : Dev nD) : V m c main_arg21 = m ((c : Thread nD τ).loc main_arg21) := by
  dsimp only [V, V0, hostOps0]; after_results
theorem V_main_arg22 (c : Dev nD) : V m c main_arg22 = m ((c : Thread nD τ).loc main_arg22) := by
  dsimp only [V, V0, hostOps0]; after_results
theorem V_main_arg23 (c : Dev nD) : V m c main_arg23 = m ((c : Thread nD τ).loc main_arg23) := by
  dsimp only [V, V0, hostOps0]; after_results
theorem V_main_arg24 (c : Dev nD) : V m c main_arg24 = m ((c : Thread nD τ).loc main_arg24) := by
  dsimp only [V, V0, hostOps0]; after_results
theorem V_main_arg25 (c : Dev nD) : V m c main_arg25 = m ((c : Thread nD τ).loc main_arg25) := by
  dsimp only [V, V0, hostOps0]; after_results

/-- The run's results: each result array at what the second sweep's write-backs made of it, every argument array unchanged —
    a windowed one because an input window's array is never written, every other because it bypasses the region. -/
theorem run_results : θ_run defs (onTc (τ := τ) (main (F := F))) ⟨m, fun _ => 0, ρ⟩ (fun r => ∀ c : Dev nD,
      r.2.mem ((c.tc : Thread nD τ).loc main_v26_0) = (dats m 0 c).arrAt 29 cfg0.N
      ∧ r.2.mem ((c.tc : Thread nD τ).loc main_v26_1) = (dats m 0 c).arrAt 30 cfg0.N
      ∧ r.2.mem ((c.tc : Thread nD τ).loc main_v26_2) = (dats m 0 c).arrAt 31 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => ⟨(h c).1 29, (h c).1 30, (h c).1 31,
    ((h c).1 2).trans (((dats m 0 c).arrAt_in 2 rfl _).trans ((A_eq m c 2).trans (V_main_arg0 m c))),
    ((h c).1 0).trans (((dats m 0 c).arrAt_in 0 rfl _).trans ((A_eq m c 0).trans (V_main_arg1 m c))),
    ((h c).1 3).trans (((dats m 0 c).arrAt_in 3 rfl _).trans ((A_eq m c 3).trans (V_main_arg2 m c))),
    ((h c).2 main_arg3 (by decide)).trans (V_main_arg3 m c),
    ((h c).1 5).trans (((dats m 0 c).arrAt_in 5 rfl _).trans ((A_eq m c 5).trans (V_main_arg4 m c))),
    ((h c).2 main_arg5 (by decide)).trans (V_main_arg5 m c),
    ((h c).2 main_arg6 (by decide)).trans (V_main_arg6 m c),
    ((h c).2 main_arg7 (by decide)).trans (V_main_arg7 m c),
    ((h c).2 main_arg8 (by decide)).trans (V_main_arg8 m c),
    ((h c).2 main_arg9 (by decide)).trans (V_main_arg9 m c),
    ((h c).2 main_arg10 (by decide)).trans (V_main_arg10 m c),
    ((h c).2 main_arg11 (by decide)).trans (V_main_arg11 m c),
    ((h c).2 main_arg12 (by decide)).trans (V_main_arg12 m c),
    ((h c).2 main_arg13 (by decide)).trans (V_main_arg13 m c),
    ((h c).2 main_arg14 (by decide)).trans (V_main_arg14 m c),
    ((h c).2 main_arg15 (by decide)).trans (V_main_arg15 m c),
    ((h c).2 main_arg16 (by decide)).trans (V_main_arg16 m c),
    ((h c).2 main_arg17 (by decide)).trans (V_main_arg17 m c),
    ((h c).2 main_arg18 (by decide)).trans (V_main_arg18 m c),
    ((h c).2 main_arg19 (by decide)).trans (V_main_arg19 m c),
    ((h c).2 main_arg20 (by decide)).trans (V_main_arg20 m c),
    ((h c).2 main_arg21 (by decide)).trans (V_main_arg21 m c),
    ((h c).2 main_arg22 (by decide)).trans (V_main_arg22 m c),
    ((h c).2 main_arg23 (by decide)).trans (V_main_arg23 m c),
    ((h c).2 main_arg24 (by decide)).trans (V_main_arg24 m c),
    ((h c).2 main_arg25 (by decide)).trans (V_main_arg25 m c)⟩) (run_main m ρ)

/-- THE FRAME: every weakly fair execution terminates without a fault and every argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => (h c).2.2.2) (run_results m ρ)

end Cert.KernelIdeal.Hand

end
-- ==== Proof.Spec.lean ====
/-
  The network both programs compute, as functions on the extended reals, index by index, over literal shapes.

  Two graph-convolution layers over a dense adjacency A (10000 × 10000), from features X (10000 × 128):
      X₁ = tanh(A·(X·W₁) + b₁)        (10000 × 128)
      X₂ = tanh(A·(X₁·W₂) + b₂)       (10000 × 64)
      Z  = [X₁ | X₂]                   (10000 × 192)   — the third result
  a classifier head on Z: two stages "linear, batch-norm with running statistics, relu", a last linear map to 10 classes
  and a row-wise log-softmax — the first result; and a reconstruction head on Z: two stages "linear, relu" and a last
  linear map to 128 features — the second result. A linear map is v ↦ v·Wᵀ + b with W stored (outputs × inputs).
  Every sum is a finite sum on the extended reals, whose addition is commutative and associative, so a contraction
  over the 192 columns of Z is the contraction over its first 128 columns plus the contraction over its last 64
  (`lin_cat`): no finiteness of any entry is needed for it.
-/
import Idealize.ShloMosaic.PureOps.Ideal
import Idealize.ShloMosaic.Lib.ValueIdx

noncomputable section

open scoped BigOperators

namespace Cert.Spec

open Idealize.ShloMosaic Idealize.ShloMosaic.ValueIdx

/-- An n × k array of extended reals, indexed as the programs index theirs. -/
abbrev Mat (n k : Nat) : Type := (⟨2, ![n, k]⟩ : Shape).Idx → EReal
/-- A vector of n extended reals. -/
abbrev Row (n : Nat) : Type := (⟨1, ![n]⟩ : Shape).Idx → EReal

/-- The matrix product a·b. -/
def mm {n k p : Nat} (a : Mat n k) (b : Mat k p) : Mat n p :=
  fun i => ∑ l : Fin k, a (ix2 (i 0) l) * b (ix2 l (i 1))

/-- The product a·bᵀ: row i of a against row j of b. -/
def mmT {n k p : Nat} (a : Mat n k) (b : Mat p k) : Mat n p :=
  fun i => ∑ l : Fin k, a (ix2 (i 0) l) * b (ix2 (i 1) l)

/-- A linear map v ↦ v·Wᵀ + b, the bias added to every row. -/
def lin {n k p : Nat} (v : Mat n k) (W : Mat p k) (b : Row p) : Mat n p :=
  fun i => mmT v W i + b (ix1 (i 1))

/-- One graph-convolution layer on a support s: tanh(A·s + b); A may be a block of rows of the adjacency. -/
def gc {n k p : Nat} (adj : Mat n k) (s : Mat k p) (b : Row p) : Mat n p :=
  fun i => Ideal.tanh (mm adj s i + b (ix1 (i 1)))

/-- The variance offset of the batch normalisation: the single-precision number nearest 10⁻⁵, as both programs spell it. -/
def eps : EReal := Ideal.ofBits .f32 0x3727C5AC#32

/-- Batch normalisation with running statistics, column by column: (v − mean) / √(var + ε) · γ + β. -/
def bn {n p : Nat} (v : Mat n p) (g b rm rv : Row p) : Mat n p :=
  fun i => Ideal.div (v i - rm (ix1 (i 1))) (Ideal.sqrt (rv (ix1 (i 1)) + eps)) * g (ix1 (i 1)) + b (ix1 (i 1))

/-- max(v, 0), entry by entry. -/
def relu {n p : Nat} (v : Mat n p) : Mat n p := fun i => max (v i) 0

/-- Two blocks of columns side by side: 128 columns of a, then 64 of b. -/
def cat {n : Nat} (a : Mat n 128) (b : Mat n 64) : Mat n 192 :=
  fun i => if h : (i 1).val < 128 then a (ix2 (i 0) ⟨(i 1).val, h⟩)
           else b (ix2 (i 0) ⟨(i 1).val - 128, by have := (i 1).isLt; simp only [Matrix.cons_val_one, Matrix.cons_val_zero] at this ⊢; omega⟩)

/-- The largest entry of a row of ten (the maximum with −∞ of the ten entries). -/
def rowMax {n : Nat} (z : Mat n 10) (r : Fin n) : EReal :=
  (Finset.univ : Finset (Fin 10)).fold max ⊥ (fun k => z (ix2 r k))

/-- Row-wise log-softmax in its shifted form: (z − m) − log Σₖ exp(zₖ − m), m the row's maximum. -/
def logSoftmax {n : Nat} (z : Mat n 10) : Mat n 10 :=
  fun i => (z i - rowMax z (i 0)) - Ideal.log (∑ k : Fin 10, Ideal.exp (z (ix2 (i 0) k) - rowMax z (i 0)))

/-- The twenty-six argument arrays, in the programs' argument order. -/
structure Args where
  x : Mat 10000 128
  adj : Mat 10000 10000
  gc1W : Mat 128 128
  gc1b : Row 128
  gc2W : Mat 128 64
  gc2b : Row 64
  c1W : Mat 256 192
  c1b : Row 256
  bn1g : Row 256
  bn1b : Row 256
  bn1rm : Row 256
  bn1rv : Row 256
  c2W : Mat 128 256
  c2b : Row 128
  bn2g : Row 128
  bn2b : Row 128
  bn2rm : Row 128
  bn2rv : Row 128
  c3W : Mat 10 128
  c3b : Row 10
  r1W : Mat 256 192
  r1b : Row 256
  r2W : Mat 128 256
  r2b : Row 128
  r3W : Mat 128 128
  r3b : Row 128

/-- The first support X·W₁. -/
def s1 (a : Args) : Mat 10000 128 := mm a.x a.gc1W
/-- The first layer. -/
def x1 (a : Args) : Mat 10000 128 := gc a.adj (s1 a) a.gc1b
/-- The second support X₁·W₂. -/
def s2 (a : Args) : Mat 10000 64 := mm (x1 a) a.gc2W
/-- The second layer. -/
def x2 (a : Args) : Mat 10000 64 := gc a.adj (s2 a) a.gc2b
/-- The concatenated features: the third result. -/
def zn (a : Args) : Mat 10000 192 := cat (x1 a) (x2 a)
/-- Classifier head, first stage. -/
def xc3 (a : Args) : Mat 10000 256 := relu (bn (lin (zn a) a.c1W a.c1b) a.bn1g a.bn1b a.bn1rm a.bn1rv)
/-- Classifier head, second stage. -/
def xc4 (a : Args) : Mat 10000 128 := relu (bn (lin (xc3 a) a.c2W a.c2b) a.bn2g a.bn2b a.bn2rm a.bn2rv)
/-- The class log-probabilities: the first result. -/
def xc5 (a : Args) : Mat 10000 10 := logSoftmax (lin (xc4 a) a.c3W a.c3b)
/-- Reconstruction head, first stage. -/
def xr3 (a : Args) : Mat 10000 256 := relu (lin (zn a) a.r1W a.r1b)
/-- Reconstruction head, second stage. -/
def xr4 (a : Args) : Mat 10000 128 := relu (lin (xr3 a) a.r2W a.r2b)
/-- The reconstruction: the second result. -/
def xr5 (a : Args) : Mat 10000 128 := lin (xr4 a) a.r3W a.r3b

/-! ## A row tile as the kernel sees it

The kernel meets the adjacency 400 rows at a time, as two blocks of 200 rows; a bias as a 1 × p array; a weight
already transposed to (inputs × outputs). -/

/-- Two blocks of 200 rows, one above the other. -/
def stack2 {k : Nat} (a b : Mat 200 k) : Mat 400 k :=
  fun i => if h : (i 0).val < 200 then a (ix2 ⟨(i 0).val, h⟩ (i 1))
           else b (ix2 ⟨(i 0).val - 200, by have := (i 0).isLt; simp only [Matrix.cons_val_zero] at this ⊢; omega⟩ (i 1))

/-- A 1 × p array read as a vector of p. -/
def row1 {p : Nat} (b : Mat 1 p) : Row p := fun j => b (ix2 0 (j 0))

/-- The transpose. -/
def tr {n k : Nat} (W : Mat n k) : Mat k n := fun i => W (ix2 (i 1) (i 0))

/-- A linear map with the weight already transposed and the bias a 1 × p array: v·Wt + b. -/
def linM {n k p : Nat} (v : Mat n k) (Wt : Mat k p) (b : Mat 1 p) : Mat n p :=
  fun i => mm v Wt i + b (ix2 0 (i 1))

/-- The product with a transposed weight is the product against the weight's rows. -/
theorem mm_tr {n k p : Nat} (v : Mat n k) (W : Mat p k) : mm v (tr W) = mmT v W := rfl

/-- Rows r₀ … r₀+m−1 of an array, as an array of m rows (used with r₀ a multiple of the tile height). -/
def rows {n p : Nat} (m r0 : Nat) (h : r0 + m ≤ n) (v : Mat n p) : Mat m p :=
  fun i => v (ix2 ⟨r0 + (i 0).val, by have := (i 0).isLt; simp only [Matrix.cons_val_zero] at this; omega⟩ (i 1))

/-- A contraction over the 192 columns of two blocks side by side is the contraction over the first block's 128
    columns plus the contraction over the second block's 64: a finite sum split at 128. -/
theorem mmT_cat {n p : Nat} (u : Mat n 128) (v : Mat n 64) (W : Mat p 192) (i : (⟨2, ![n, p]⟩ : Shape).Idx) :
    mmT (cat u v) W i
      = (∑ l : Fin 128, u (ix2 (i 0) l) * W (ix2 (i 1) ⟨l.val, by omega⟩))
        + (∑ l : Fin 64, v (ix2 (i 0) l) * W (ix2 (i 1) ⟨128 + l.val, by omega⟩)) := by
  unfold mmT
  rw [show (∑ l : Fin 192, cat u v (ix2 (i 0) l) * W (ix2 (i 1) l))
        = ∑ l : Fin (128 + 64), cat u v (ix2 (i 0) (Fin.cast (by norm_num) l)) * W (ix2 (i 1) (Fin.cast (by norm_num) l)) from rfl,
    Fin.sum_univ_add]
  congr 1

end Cert.Spec

end
-- ==== Proof.SpecTile.lean ====
/-
  Tiling commutes with the network. Every stage after the two supports acts row by row, so rows 400j … 400j+399 of a
  result are the stage's formula applied to the same rows of its input: a graph-convolution layer's tile is the layer
  on the adjacency's row tile against the WHOLE support; the heads' tiles are the heads on the tile of Z, whose
  contraction over 192 columns splits into the tile of X₁ against the first 128 rows of the transposed weight plus the
  tile of X₂ against its last 64 (`mmT_cat`).
-/
import proofs.«124129_g73521250173546_cont_sun_c4_545_19_alg».proof.Proof.Spec

noncomputable section

open scoped BigOperators

namespace Cert.Spec

open Idealize.ShloMosaic Idealize.ShloMosaic.ValueIdx

/-- Rows 0 … 127 of the transpose of a 256 × 192 weight: (k, j) ↦ W (j, k). -/
def trTop (W : Mat 256 192) : Mat 128 256 :=
  fun i => W (ix2 (i 1) ⟨(i 0).val, by have := (i 0).isLt; simp only [Matrix.cons_val_zero] at this; omega⟩)
/-- Rows 128 … 191 of that transpose: (k, j) ↦ W (j, 128 + k). -/
def trBot (W : Mat 256 192) : Mat 64 256 :=
  fun i => W (ix2 (i 1) ⟨128 + (i 0).val, by have := (i 0).isLt; simp only [Matrix.cons_val_zero] at this; omega⟩)
/-- A vector as a 1 × p array. -/
def asRow1 {p : Nat} (b : Row p) : Mat 1 p := fun i => b (ix1 (i 1))

theorem row1_asRow1 {p : Nat} (b : Row p) : row1 (asRow1 b) = b := by
  funext j
  exact congrArg b (eq_ix1 j).symm

/-! ## Taking rows commutes with every row-wise stage

Entry (r, c) of rows r₀ … r₀+m−1 of a stage's result is entry (r₀ + r, c) of that result, which each stage computes
from row r₀ + r of its input alone; both sides unfold to the same expression. -/

theorem rows_relu {n p : Nat} (m r0 : Nat) (h : r0 + m ≤ n) (v : Mat n p) :
    rows m r0 h (relu v) = relu (rows m r0 h v) := rfl

theorem rows_bn {n p : Nat} (m r0 : Nat) (h : r0 + m ≤ n) (v : Mat n p) (g b rm rv : Row p) :
    rows m r0 h (bn v g b rm rv) = bn (rows m r0 h v) g b rm rv := rfl

/-- Rows of a linear map: the same rows of the input against the transposed weight, the bias as a 1 × p array. -/
theorem rows_lin {n k p : Nat} (m r0 : Nat) (h : r0 + m ≤ n) (v : Mat n k) (W : Mat p k) (b : Row p) :
    rows m r0 h (lin v W b) = linM (rows m r0 h v) (tr W) (asRow1 b) := rfl

/-- The row maximum and the row sum of the log-softmax read one row only. -/
theorem rows_logSoftmax {n : Nat} (m r0 : Nat) (h : r0 + m ≤ n) (z : Mat n 10) :
    rows m r0 h (logSoftmax z) = logSoftmax (rows m r0 h z) := rfl

theorem rows_cat {n : Nat} (m r0 : Nat) (h : r0 + m ≤ n) (u : Mat n 128) (v : Mat n 64) :
    rows m r0 h (cat u v) = cat (rows m r0 h u) (rows m r0 h v) := rfl

/-- Rows of a graph-convolution layer: the same rows of the adjacency against the whole support. -/
theorem rows_gc {n k p : Nat} (m r0 : Nat) (h : r0 + m ≤ n) (adj : Mat n k) (s : Mat k p) (b : Row p) :
    rows m r0 h (gc adj s b) = gc (rows m r0 h adj) s b := rfl

/-- Rows of a linear map on two blocks side by side: the contraction over 192 columns splits at 128 (`mmT_cat`) into
    the first block's rows against the first 128 rows of the transposed weight plus the second block's rows against
    its last 64. -/
theorem rows_lin_cat {n : Nat} (m r0 : Nat) (h : r0 + m ≤ n) (u : Mat n 128) (v : Mat n 64) (W : Mat 256 192)
    (b : Row 256) :
    rows m r0 h (lin (cat u v) W b)
      = fun i => (mm (rows m r0 h u) (trTop W) i + mm (rows m r0 h v) (trBot W) i) + b (ix1 (i 1)) := by
  funext i
  show mmT (cat u v) W _ + _ = _
  rw [mmT_cat]
  rfl

/-- Row tile j (of 25) of the adjacency: rows 400j … 400j+399, all columns. -/
def adjTile (a : Args) (j : Fin 25) : Mat 400 10000 := rows 400 (400 * j.val) (by have := j.isLt; omega) a.adj
/-- Row tile j of the first layer. -/
def x1Tile (a : Args) (j : Fin 25) : Mat 400 128 := rows 400 (400 * j.val) (by have := j.isLt; omega) (x1 a)
/-- Row tile j of the second layer. -/
def x2Tile (a : Args) (j : Fin 25) : Mat 400 64 := rows 400 (400 * j.val) (by have := j.isLt; omega) (x2 a)

theorem x1_tile (a : Args) (j : Fin 25) : gc (adjTile a j) (s1 a) a.gc1b = x1Tile a j := by
  exact (rows_gc 400 (400 * j.val) (by have := j.isLt; omega) a.adj (s1 a) a.gc1b).symm

theorem x2_tile (a : Args) (j : Fin 25) : gc (adjTile a j) (s2 a) a.gc2b = x2Tile a j := by
  exact (rows_gc 400 (400 * j.val) (by have := j.isLt; omega) a.adj (s2 a) a.gc2b).symm

theorem zn_tile (a : Args) (j : Fin 25) :
    rows 400 (400 * j.val) (by have := j.isLt; omega) (zn a) = cat (x1Tile a j) (x2Tile a j) := by
  exact rows_cat 400 (400 * j.val) (by have := j.isLt; omega) (x1 a) (x2 a)

theorem xc5_tile (a : Args) (j : Fin 25) :
    logSoftmax (linM (relu (bn (linM (relu (bn
        (fun i => (mm (x1Tile a j) (trTop a.c1W) i + mm (x2Tile a j) (trBot a.c1W) i) + a.c1b (ix1 (i 1)))
        a.bn1g a.bn1b a.bn1rm a.bn1rv)) (tr a.c2W) (asRow1 a.c2b)) a.bn2g a.bn2b a.bn2rm a.bn2rv)) (tr a.c3W) (asRow1 a.c3b))
      = rows 400 (400 * j.val) (by have := j.isLt; omega) (xc5 a) := by
  rw [xc5, rows_logSoftmax, rows_lin, xc4, rows_relu, rows_bn, rows_lin, xc3, rows_relu, rows_bn, zn, rows_lin_cat]
  rfl

theorem xr5_tile (a : Args) (j : Fin 25) :
    linM (relu (linM (relu
        (fun i => (mm (x1Tile a j) (trTop a.r1W) i + mm (x2Tile a j) (trBot a.r1W) i) + a.r1b (ix1 (i 1))))
        (tr a.r2W) (asRow1 a.r2b))) (tr a.r3W) (asRow1 a.r3b)
      = rows 400 (400 * j.val) (by have := j.isLt; omega) (xr5 a) := by
  rw [xr5, rows_lin, xr4, rows_relu, rows_lin, xr3, rows_relu, zn, rows_lin_cat]
  rfl

end Cert.Spec

end
-- ==== Proof.KBlocks.lean ====
/-
  What the kernel's windows see, in the specification's terms. The 26 argument arrays of the kernel's program are the
  specification's arguments. The host operations before the region hand the kernel each weight TRANSPOSED (and the two
  192-input weights cut into their first 128 and last 64 rows) and each vector as a 1 × p array; a window whose block is
  the whole array sees exactly that at every grid point. The adjacency's two windows see, at grid point t, the two
  200-row halves of row tile t mod 25. A result window's block at point t ≥ 25 is rows 400(t − 25) … of its array, and
  these 25 blocks cover the array.
-/
import proofs.«124129_g73521250173546_cont_sun_c4_545_19_alg».proof.Proof.Ideal.Base
import proofs.«124129_g73521250173546_cont_sun_c4_545_19_alg».proof.Proof.SpecTile
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KValue

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The kernel program's twenty-six argument arrays on core c, as the specification's arguments. -/
def argsK (c : Dev nD) : Cert.Spec.Args where
  x := m ((c.tc : Thread nD τ).loc main_arg0)
  adj := m ((c.tc : Thread nD τ).loc main_arg1)
  gc1W := m ((c.tc : Thread nD τ).loc main_arg2)
  gc1b := m ((c.tc : Thread nD τ).loc main_arg3)
  gc2W := m ((c.tc : Thread nD τ).loc main_arg4)
  gc2b := m ((c.tc : Thread nD τ).loc main_arg5)
  c1W := m ((c.tc : Thread nD τ).loc main_arg6)
  c1b := m ((c.tc : Thread nD τ).loc main_arg7)
  bn1g := m ((c.tc : Thread nD τ).loc main_arg8)
  bn1b := m ((c.tc : Thread nD τ).loc main_arg9)
  bn1rm := m ((c.tc : Thread nD τ).loc main_arg10)
  bn1rv := m ((c.tc : Thread nD τ).loc main_arg11)
  c2W := m ((c.tc : Thread nD τ).loc main_arg12)
  c2b := m ((c.tc : Thread nD τ).loc main_arg13)
  bn2g := m ((c.tc : Thread nD τ).loc main_arg14)
  bn2b := m ((c.tc : Thread nD τ).loc main_arg15)
  bn2rm := m ((c.tc : Thread nD τ).loc main_arg16)
  bn2rv := m ((c.tc : Thread nD τ).loc main_arg17)
  c3W := m ((c.tc : Thread nD τ).loc main_arg18)
  c3b := m ((c.tc : Thread nD τ).loc main_arg19)
  r1W := m ((c.tc : Thread nD τ).loc main_arg20)
  r1b := m ((c.tc : Thread nD τ).loc main_arg21)
  r2W := m ((c.tc : Thread nD τ).loc main_arg22)
  r2b := m ((c.tc : Thread nD τ).loc main_arg23)
  r3W := m ((c.tc : Thread nD τ).loc main_arg24)
  r3b := m ((c.tc : Thread nD τ).loc main_arg25)

/-! ## The host operations read at an index -/

/-- A vector broadcast to a 1 × p array is the vector as a row. -/
theorem bcast_asRow1 {p : Nat} (h : (⟨1, ![p]⟩ : Shape).BroadcastsInDim ⟨2, ![1, p]⟩ ![1]) (v : Row p) :
    broadcastInDim ⟨2, ![1, p]⟩ ![1] h v = asRow1 v := by
  funext j
  refine broadcastInDim_apply _ h v j (ix1 (j 1)) (fun a => ?_)
  match a with
  | ⟨0, _⟩ =>
    show (j 1).val = if p = 1 then 0 else (j 1).val
    split
    · have := idx2_lt1 j; omega
    · rfl

/-- The host's transpose is the specification's. -/
theorem transpose_tr {n k : Nat} (h : (⟨2, ![n, k]⟩ : Shape).Transposes [1, 0] ⟨2, ![k, n]⟩) (W : Mat n k) :
    transpose ⟨2, ![k, n]⟩ [1, 0] W h = tr W := by
  funext j
  refine transpose_apply [1, 0] W h j (ix2 (j 1) (j 0)) (fun b => ?_)
  match b with
  | ⟨0, _⟩ => rfl
  | ⟨1, _⟩ => rfl

/-- Rows 0 … 127 of the transposed 256 × 192 weight. -/
theorem slice_trTop (W : Mat 256 192) (ht : S256x192.Transposes [1, 0] S192x256) (hs : S192x256.Slices ![0, 0] S128x256) :
    extractStridedSlice S128x256 ![0, 0] (transpose S192x256 [1, 0] W ht) hs = trTop W := by
  funext j
  refine (extractStridedSlice_apply ![0, 0] _ hs j (ix2 (⟨(j 0).val, by have := idx2_lt0 j; omega⟩ : Fin 192) (j 1))
    (fun a => by match a with | ⟨0, _⟩ => exact (Nat.zero_add _).symm | ⟨1, _⟩ => exact (Nat.zero_add _).symm)).trans ?_
  rw [transpose_tr]
  rfl

/-- Rows 128 … 191 of it. -/
theorem slice_trBot (W : Mat 256 192) (ht : S256x192.Transposes [1, 0] S192x256) (hs : S192x256.Slices ![128, 0] S64x256) :
    extractStridedSlice S64x256 ![128, 0] (transpose S192x256 [1, 0] W ht) hs = trBot W := by
  funext j
  refine (extractStridedSlice_apply ![128, 0] _ hs j (ix2 (⟨128 + (j 0).val, by have := idx2_lt0 j; omega⟩ : Fin 192) (j 1))
    (fun a => by match a with | ⟨0, _⟩ => rfl | ⟨1, _⟩ => exact (Nat.zero_add _).symm)).trans ?_
  rw [transpose_tr]
  rfl

/-! ## What the region finds in each window's array -/

theorem V_adj (c : Dev nD) : (V m c main_arg1 : S10000x10000.Idx → EReal) = m ((c.tc : Thread nD τ).loc main_arg1) := by
  dsimp only [V, V0, hostOps0]
  simp only [StableHlo.after_cons, StableHlo.after_nil]
  repeat (first | rw [StableHlo.unary_result] | (rw [StableHlo.unary_result_ne]; rotate_left; decide))

theorem V_w2 (c : Dev nD) : (V m c main_arg0 : S10000x128.Idx → EReal) = (m ((c.tc : Thread nD τ).loc main_arg0)) := by
  dsimp only [V, V0, hostOps0]
  simp only [StableHlo.after_cons, StableHlo.after_nil]
  repeat (first | rw [StableHlo.unary_result] | (rw [StableHlo.unary_result_ne]; rotate_left; decide))

theorem V_w3 (c : Dev nD) : (V m c main_arg2 : S128x128.Idx → EReal) = (m ((c.tc : Thread nD τ).loc main_arg2)) := by
  dsimp only [V, V0, hostOps0]
  simp only [StableHlo.after_cons, StableHlo.after_nil]
  repeat (first | rw [StableHlo.unary_result] | (rw [StableHlo.unary_result_ne]; rotate_left; decide))

theorem V_w4 (c : Dev nD) : (V m c main_v6 : S1x128.Idx → EReal) = broadcastInDim S1x128 ![1] bcast_S128_S1x128_1 (m ((c.tc : Thread nD τ).loc main_arg3)) := by
  dsimp only [V, V0, hostOps0]
  simp only [StableHlo.after_cons, StableHlo.after_nil]
  repeat (first | rw [StableHlo.unary_result] | (rw [StableHlo.unary_result_ne]; rotate_left; decide))

theorem V_w5 (c : Dev nD) : (V m c main_arg4 : S128x64.Idx → EReal) = (m ((c.tc : Thread nD τ).loc main_arg4)) := by
  dsimp only [V, V0, hostOps0]
  simp only [StableHlo.after_cons, StableHlo.after_nil]
  repeat (first | rw [StableHlo.unary_result] | (rw [StableHlo.unary_result_ne]; rotate_left; decide))

theorem V_w6 (c : Dev nD) : (V m c main_v7 : S1x64.Idx → EReal) = broadcastInDim S1x64 ![1] bcast_S64_S1x64_1 (m ((c.tc : Thread nD τ).loc main_arg5)) := by
  dsimp only [V, V0, hostOps0]
  simp only [StableHlo.after_cons, StableHlo.after_nil]
  repeat (first | rw [StableHlo.unary_result] | (rw [StableHlo.unary_result_ne]; rotate_left; decide))

theorem V_w7 (c : Dev nD) : (V m c main_v8 : S128x256.Idx → EReal) = extractStridedSlice S128x256 ![0, 0] (transpose S192x256 [1, 0] (m ((c.tc : Thread nD τ).loc main_arg6)) transposes_S256x192_S192x256_1_0) slices_S192x256_S128x256_0_0 := by
  dsimp only [V, V0, hostOps0]
  simp only [StableHlo.after_cons, StableHlo.after_nil]
  repeat (first | rw [StableHlo.unary_result] | (rw [StableHlo.unary_result_ne]; rotate_left; decide))

theorem V_w8 (c : Dev nD) : (V m c main_v9 : S64x256.Idx → EReal) = extractStridedSlice S64x256 ![128, 0] (transpose S192x256 [1, 0] (m ((c.tc : Thread nD τ).loc main_arg6)) transposes_S256x192_S192x256_1_0) slices_S192x256_S64x256_128_0 := by
  dsimp only [V, V0, hostOps0]
  simp only [StableHlo.after_cons, StableHlo.after_nil]
  repeat (first | rw [StableHlo.unary_result] | (rw [StableHlo.unary_result_ne]; rotate_left; decide))

theorem V_w9 (c : Dev nD) : (V m c main_v10 : S1x256.Idx → EReal) = broadcastInDim S1x256 ![1] bcast_S256_S1x256_1 (m ((c.tc : Thread nD τ).loc main_arg7)) := by
  dsimp only [V, V0, hostOps0]
  simp only [StableHlo.after_cons, StableHlo.after_nil]
  repeat (first | rw [StableHlo.unary_result] | (rw [StableHlo.unary_result_ne]; rotate_left; decide))

theorem V_w10 (c : Dev nD) : (V m c main_v11 : S1x256.Idx → EReal) = broadcastInDim S1x256 ![1] bcast_S256_S1x256_1 (m ((c.tc : Thread nD τ).loc main_arg8)) := by
  dsimp only [V, V0, hostOps0]
  simp only [StableHlo.after_cons, StableHlo.after_nil]
  repeat (first | rw [StableHlo.unary_result] | (rw [StableHlo.unary_result_ne]; rotate_left; decide))

theorem V_w11 (c : Dev nD) : (V m c main_v12 : S1x256.Idx → EReal) = broadcastInDim S1x256 ![1] bcast_S256_S1x256_1 (m ((c.tc : Thread nD τ).loc main_arg9)) := by
  dsimp only [V, V0, hostOps0]
  simp only [StableHlo.after_cons, StableHlo.after_nil]
  repeat (first | rw [StableHlo.unary_result] | (rw [StableHlo.unary_result_ne]; rotate_left; decide))

theorem V_w12 (c : Dev nD) : (V m c main_v13 : S1x256.Idx → EReal) = broadcastInDim S1x256 ![1] bcast_S256_S1x256_1 (m ((c.tc : Thread nD τ).loc main_arg10)) := by
  dsimp only [V, V0, hostOps0]
  simp only [StableHlo.after_cons, StableHlo.after_nil]
  repeat (first | rw [StableHlo.unary_result] | (rw [StableHlo.unary_result_ne]; rotate_left; decide))

theorem V_w13 (c : Dev nD) : (V m c main_v14 : S1x256.Idx → EReal) = broadcastInDim S1x256 ![1] bcast_S256_S1x256_1 (m ((c.tc : Thread nD τ).loc main_arg11)) := by
  dsimp only [V, V0, hostOps0]
  simp only [StableHlo.after_cons, StableHlo.after_nil]
  repeat (first | rw [StableHlo.unary_result] | (rw [StableHlo.unary_result_ne]; rotate_left; decide))

theorem V_w14 (c : Dev nD) : (V m c main_v1 : S256x128.Idx → EReal) = transpose S256x128 [1, 0] (m ((c.tc : Thread nD τ).loc main_arg12)) transposes_S128x256_S256x128_1_0 := by
  dsimp only [V, V0, hostOps0]
  simp only [StableHlo.after_cons, StableHlo.after_nil]
  repeat (first | rw [StableHlo.unary_result] | (rw [StableHlo.unary_result_ne]; rotate_left; decide))

theorem V_w15 (c : Dev nD) : (V m c main_v15 : S1x128.Idx → EReal) = broadcastInDim S1x128 ![1] bcast_S128_S1x128_1 (m ((c.tc : Thread nD τ).loc main_arg13)) := by
  dsimp only [V, V0, hostOps0]
  simp only [StableHlo.after_cons, StableHlo.after_nil]
  repeat (first | rw [StableHlo.unary_result] | (rw [StableHlo.unary_result_ne]; rotate_left; decide))

theorem V_w16 (c : Dev nD) : (V m c main_v16 : S1x128.Idx → EReal) = broadcastInDim S1x128 ![1] bcast_S128_S1x128_1 (m ((c.tc : Thread nD τ).loc main_arg14)) := by
  dsimp only [V, V0, hostOps0]
  simp only [StableHlo.after_cons, StableHlo.after_nil]
  repeat (first | rw [StableHlo.unary_result] | (rw [StableHlo.unary_result_ne]; rotate_left; decide))

theorem V_w17 (c : Dev nD) : (V m c main_v17 : S1x128.Idx → EReal) = broadcastInDim S1x128 ![1] bcast_S128_S1x128_1 (m ((c.tc : Thread nD τ).loc main_arg15)) := by
  dsimp only [V, V0, hostOps0]
  simp only [StableHlo.after_cons, StableHlo.after_nil]
  repeat (first | rw [StableHlo.unary_result] | (rw [StableHlo.unary_result_ne]; rotate_left; decide))

theorem V_w18 (c : Dev nD) : (V m c main_v18 : S1x128.Idx → EReal) = broadcastInDim S1x128 ![1] bcast_S128_S1x128_1 (m ((c.tc : Thread nD τ).loc main_arg16)) := by
  dsimp only [V, V0, hostOps0]
  simp only [StableHlo.after_cons, StableHlo.after_nil]
  repeat (first | rw [StableHlo.unary_result] | (rw [StableHlo.unary_result_ne]; rotate_left; decide))

theorem V_w19 (c : Dev nD) : (V m c main_v19 : S1x128.Idx → EReal) = broadcastInDim S1x128 ![1] bcast_S128_S1x128_1 (m ((c.tc : Thread nD τ).loc main_arg17)) := by
  dsimp only [V, V0, hostOps0]
  simp only [StableHlo.after_cons, StableHlo.after_nil]
  repeat (first | rw [StableHlo.unary_result] | (rw [StableHlo.unary_result_ne]; rotate_left; decide))

theorem V_w20 (c : Dev nD) : (V m c main_v2 : S128x10.Idx → EReal) = transpose S128x10 [1, 0] (m ((c.tc : Thread nD τ).loc main_arg18)) transposes_S10x128_S128x10_1_0 := by
  dsimp only [V, V0, hostOps0]
  simp only [StableHlo.after_cons, StableHlo.after_nil]
  repeat (first | rw [StableHlo.unary_result] | (rw [StableHlo.unary_result_ne]; rotate_left; decide))

theorem V_w21 (c : Dev nD) : (V m c main_v20 : S1x10.Idx → EReal) = broadcastInDim S1x10 ![1] bcast_S10_S1x10_1 (m ((c.tc : Thread nD τ).loc main_arg19)) := by
  dsimp only [V, V0, hostOps0]
  simp only [StableHlo.after_cons, StableHlo.after_nil]
  repeat (first | rw [StableHlo.unary_result] | (rw [StableHlo.unary_result_ne]; rotate_left; decide))

theorem V_w22 (c : Dev nD) : (V m c main_v21 : S128x256.Idx → EReal) = extractStridedSlice S128x256 ![0, 0] (transpose S192x256 [1, 0] (m ((c.tc : Thread nD τ).loc main_arg20)) transposes_S256x192_S192x256_1_0) slices_S192x256_S128x256_0_0 := by
  dsimp only [V, V0, hostOps0]
  simp only [StableHlo.after_cons, StableHlo.after_nil]
  repeat (first | rw [StableHlo.unary_result] | (rw [StableHlo.unary_result_ne]; rotate_left; decide))

theorem V_w23 (c : Dev nD) : (V m c main_v22 : S64x256.Idx → EReal) = extractStridedSlice S64x256 ![128, 0] (transpose S192x256 [1, 0] (m ((c.tc : Thread nD τ).loc main_arg20)) transposes_S256x192_S192x256_1_0) slices_S192x256_S64x256_128_0 := by
  dsimp only [V, V0, hostOps0]
  simp only [StableHlo.after_cons, StableHlo.after_nil]
  repeat (first | rw [StableHlo.unary_result] | (rw [StableHlo.unary_result_ne]; rotate_left; decide))

theorem V_w24 (c : Dev nD) : (V m c main_v23 : S1x256.Idx → EReal) = broadcastInDim S1x256 ![1] bcast_S256_S1x256_1 (m ((c.tc : Thread nD τ).loc main_arg21)) := by
  dsimp only [V, V0, hostOps0]
  simp only [StableHlo.after_cons, StableHlo.after_nil]
  repeat (first | rw [StableHlo.unary_result] | (rw [StableHlo.unary_result_ne]; rotate_left; decide))

theorem V_w25 (c : Dev nD) : (V m c main_v4 : S256x128.Idx → EReal) = transpose S256x128 [1, 0] (m ((c.tc : Thread nD τ).loc main_arg22)) transposes_S128x256_S256x128_1_0 := by
  dsimp only [V, V0, hostOps0]
  simp only [StableHlo.after_cons, StableHlo.after_nil]
  repeat (first | rw [StableHlo.unary_result] | (rw [StableHlo.unary_result_ne]; rotate_left; decide))

theorem V_w26 (c : Dev nD) : (V m c main_v24 : S1x128.Idx → EReal) = broadcastInDim S1x128 ![1] bcast_S128_S1x128_1 (m ((c.tc : Thread nD τ).loc main_arg23)) := by
  dsimp only [V, V0, hostOps0]
  simp only [StableHlo.after_cons, StableHlo.after_nil]
  repeat (first | rw [StableHlo.unary_result] | (rw [StableHlo.unary_result_ne]; rotate_left; decide))

theorem V_w27 (c : Dev nD) : (V m c main_v5 : S128x128.Idx → EReal) = transpose S128x128 [1, 0] (m ((c.tc : Thread nD τ).loc main_arg24)) transposes_S128x128_S128x128_1_0 := by
  dsimp only [V, V0, hostOps0]
  simp only [StableHlo.after_cons, StableHlo.after_nil]
  repeat (first | rw [StableHlo.unary_result] | (rw [StableHlo.unary_result_ne]; rotate_left; decide))

theorem V_w28 (c : Dev nD) : (V m c main_v25 : S1x128.Idx → EReal) = broadcastInDim S1x128 ![1] bcast_S128_S1x128_1 (m ((c.tc : Thread nD τ).loc main_arg25)) := by
  dsimp only [V, V0, hostOps0]
  simp only [StableHlo.after_cons, StableHlo.after_nil]
  repeat (first | rw [StableHlo.unary_result] | (rw [StableHlo.unary_result_ne]; rotate_left; decide))

/-! ## A window whose block is the whole array sees the array -/

theorem iblkW_2 (c : Dev nD) (t : Fin cfg0.N) : iblk m c 2 t = (V m c main_arg0 : S10000x128.Idx → EReal) := by
  funext x
  unfold iblk
  rw [View.read_apply]
  show V m c main_arg0 _ = V m c main_arg0 x
  refine congrArg (V m c main_arg0) (funext fun a => Fin.ext ?_)
  match a with
  | ⟨0, _⟩ => show win0_2.index t 0 * _ + 1 * (x 0).val = (x 0).val; rw [show win0_2.index t 0 = 0 from rfl]; omega
  | ⟨1, _⟩ => show win0_2.index t 1 * _ + 1 * (x 1).val = (x 1).val; rw [show win0_2.index t 1 = 0 from rfl]; omega

theorem iblkW_3 (c : Dev nD) (t : Fin cfg0.N) : iblk m c 3 t = (V m c main_arg2 : S128x128.Idx → EReal) := by
  funext x
  unfold iblk
  rw [View.read_apply]
  show V m c main_arg2 _ = V m c main_arg2 x
  refine congrArg (V m c main_arg2) (funext fun a => Fin.ext ?_)
  match a with
  | ⟨0, _⟩ => show win0_3.index t 0 * _ + 1 * (x 0).val = (x 0).val; rw [show win0_3.index t 0 = 0 from rfl]; omega
  | ⟨1, _⟩ => show win0_3.index t 1 * _ + 1 * (x 1).val = (x 1).val; rw [show win0_3.index t 1 = 0 from rfl]; omega

theorem iblkW_4 (c : Dev nD) (t : Fin cfg0.N) : iblk m c 4 t = (V m c main_v6 : S1x128.Idx → EReal) := by
  funext x
  unfold iblk
  rw [View.read_apply]
  show V m c main_v6 _ = V m c main_v6 x
  refine congrArg (V m c main_v6) (funext fun a => Fin.ext ?_)
  match a with
  | ⟨0, _⟩ => show win0_4.index t 0 * _ + 1 * (x 0).val = (x 0).val; rw [show win0_4.index t 0 = 0 from rfl]; omega
  | ⟨1, _⟩ => show win0_4.index t 1 * _ + 1 * (x 1).val = (x 1).val; rw [show win0_4.index t 1 = 0 from rfl]; omega

theorem iblkW_5 (c : Dev nD) (t : Fin cfg0.N) : iblk m c 5 t = (V m c main_arg4 : S128x64.Idx → EReal) := by
  funext x
  unfold iblk
  rw [View.read_apply]
  show V m c main_arg4 _ = V m c main_arg4 x
  refine congrArg (V m c main_arg4) (funext fun a => Fin.ext ?_)
  match a with
  | ⟨0, _⟩ => show win0_5.index t 0 * _ + 1 * (x 0).val = (x 0).val; rw [show win0_5.index t 0 = 0 from rfl]; omega
  | ⟨1, _⟩ => show win0_5.index t 1 * _ + 1 * (x 1).val = (x 1).val; rw [show win0_5.index t 1 = 0 from rfl]; omega

theorem iblkW_6 (c : Dev nD) (t : Fin cfg0.N) : iblk m c 6 t = (V m c main_v7 : S1x64.Idx → EReal) := by
  funext x
  unfold iblk
  rw [View.read_apply]
  show V m c main_v7 _ = V m c main_v7 x
  refine congrArg (V m c main_v7) (funext fun a => Fin.ext ?_)
  match a with
  | ⟨0, _⟩ => show win0_6.index t 0 * _ + 1 * (x 0).val = (x 0).val; rw [show win0_6.index t 0 = 0 from rfl]; omega
  | ⟨1, _⟩ => show win0_6.index t 1 * _ + 1 * (x 1).val = (x 1).val; rw [show win0_6.index t 1 = 0 from rfl]; omega

theorem iblkW_7 (c : Dev nD) (t : Fin cfg0.N) : iblk m c 7 t = (V m c main_v8 : S128x256.Idx → EReal) := by
  funext x
  unfold iblk
  rw [View.read_apply]
  show V m c main_v8 _ = V m c main_v8 x
  refine congrArg (V m c main_v8) (funext fun a => Fin.ext ?_)
  match a with
  | ⟨0, _⟩ => show win0_7.index t 0 * _ + 1 * (x 0).val = (x 0).val; rw [show win0_7.index t 0 = 0 from rfl]; omega
  | ⟨1, _⟩ => show win0_7.index t 1 * _ + 1 * (x 1).val = (x 1).val; rw [show win0_7.index t 1 = 0 from rfl]; omega

theorem iblkW_8 (c : Dev nD) (t : Fin cfg0.N) : iblk m c 8 t = (V m c main_v9 : S64x256.Idx → EReal) := by
  funext x
  unfold iblk
  rw [View.read_apply]
  show V m c main_v9 _ = V m c main_v9 x
  refine congrArg (V m c main_v9) (funext fun a => Fin.ext ?_)
  match a with
  | ⟨0, _⟩ => show win0_8.index t 0 * _ + 1 * (x 0).val = (x 0).val; rw [show win0_8.index t 0 = 0 from rfl]; omega
  | ⟨1, _⟩ => show win0_8.index t 1 * _ + 1 * (x 1).val = (x 1).val; rw [show win0_8.index t 1 = 0 from rfl]; omega

theorem iblkW_9 (c : Dev nD) (t : Fin cfg0.N) : iblk m c 9 t = (V m c main_v10 : S1x256.Idx → EReal) := by
  funext x
  unfold iblk
  rw [View.read_apply]
  show V m c main_v10 _ = V m c main_v10 x
  refine congrArg (V m c main_v10) (funext fun a => Fin.ext ?_)
  match a with
  | ⟨0, _⟩ => show win0_9.index t 0 * _ + 1 * (x 0).val = (x 0).val; rw [show win0_9.index t 0 = 0 from rfl]; omega
  | ⟨1, _⟩ => show win0_9.index t 1 * _ + 1 * (x 1).val = (x 1).val; rw [show win0_9.index t 1 = 0 from rfl]; omega

theorem iblkW_10 (c : Dev nD) (t : Fin cfg0.N) : iblk m c 10 t = (V m c main_v11 : S1x256.Idx → EReal) := by
  funext x
  unfold iblk
  rw [View.read_apply]
  show V m c main_v11 _ = V m c main_v11 x
  refine congrArg (V m c main_v11) (funext fun a => Fin.ext ?_)
  match a with
  | ⟨0, _⟩ => show win0_10.index t 0 * _ + 1 * (x 0).val = (x 0).val; rw [show win0_10.index t 0 = 0 from rfl]; omega
  | ⟨1, _⟩ => show win0_10.index t 1 * _ + 1 * (x 1).val = (x 1).val; rw [show win0_10.index t 1 = 0 from rfl]; omega

theorem iblkW_11 (c : Dev nD) (t : Fin cfg0.N) : iblk m c 11 t = (V m c main_v12 : S1x256.Idx → EReal) := by
  funext x
  unfold iblk
  rw [View.read_apply]
  show V m c main_v12 _ = V m c main_v12 x
  refine congrArg (V m c main_v12) (funext fun a => Fin.ext ?_)
  match a with
  | ⟨0, _⟩ => show win0_11.index t 0 * _ + 1 * (x 0).val = (x 0).val; rw [show win0_11.index t 0 = 0 from rfl]; omega
  | ⟨1, _⟩ => show win0_11.index t 1 * _ + 1 * (x 1).val = (x 1).val; rw [show win0_11.index t 1 = 0 from rfl]; omega

theorem iblkW_12 (c : Dev nD) (t : Fin cfg0.N) : iblk m c 12 t = (V m c main_v13 : S1x256.Idx → EReal) := by
  funext x
  unfold iblk
  rw [View.read_apply]
  show V m c main_v13 _ = V m c main_v13 x
  refine congrArg (V m c main_v13) (funext fun a => Fin.ext ?_)
  match a with
  | ⟨0, _⟩ => show win0_12.index t 0 * _ + 1 * (x 0).val = (x 0).val; rw [show win0_12.index t 0 = 0 from rfl]; omega
  | ⟨1, _⟩ => show win0_12.index t 1 * _ + 1 * (x 1).val = (x 1).val; rw [show win0_12.index t 1 = 0 from rfl]; omega

theorem iblkW_13 (c : Dev nD) (t : Fin cfg0.N) : iblk m c 13 t = (V m c main_v14 : S1x256.Idx → EReal) := by
  funext x
  unfold iblk
  rw [View.read_apply]
  show V m c main_v14 _ = V m c main_v14 x
  refine congrArg (V m c main_v14) (funext fun a => Fin.ext ?_)
  match a with
  | ⟨0, _⟩ => show win0_13.index t 0 * _ + 1 * (x 0).val = (x 0).val; rw [show win0_13.index t 0 = 0 from rfl]; omega
  | ⟨1, _⟩ => show win0_13.index t 1 * _ + 1 * (x 1).val = (x 1).val; rw [show win0_13.index t 1 = 0 from rfl]; omega

theorem iblkW_14 (c : Dev nD) (t : Fin cfg0.N) : iblk m c 14 t = (V m c main_v1 : S256x128.Idx → EReal) := by
  funext x
  unfold iblk
  rw [View.read_apply]
  show V m c main_v1 _ = V m c main_v1 x
  refine congrArg (V m c main_v1) (funext fun a => Fin.ext ?_)
  match a with
  | ⟨0, _⟩ => show win0_14.index t 0 * _ + 1 * (x 0).val = (x 0).val; rw [show win0_14.index t 0 = 0 from rfl]; omega
  | ⟨1, _⟩ => show win0_14.index t 1 * _ + 1 * (x 1).val = (x 1).val; rw [show win0_14.index t 1 = 0 from rfl]; omega

theorem iblkW_15 (c : Dev nD) (t : Fin cfg0.N) : iblk m c 15 t = (V m c main_v15 : S1x128.Idx → EReal) := by
  funext x
  unfold iblk
  rw [View.read_apply]
  show V m c main_v15 _ = V m c main_v15 x
  refine congrArg (V m c main_v15) (funext fun a => Fin.ext ?_)
  match a with
  | ⟨0, _⟩ => show win0_15.index t 0 * _ + 1 * (x 0).val = (x 0).val; rw [show win0_15.index t 0 = 0 from rfl]; omega
  | ⟨1, _⟩ => show win0_15.index t 1 * _ + 1 * (x 1).val = (x 1).val; rw [show win0_15.index t 1 = 0 from rfl]; omega

theorem iblkW_16 (c : Dev nD) (t : Fin cfg0.N) : iblk m c 16 t = (V m c main_v16 : S1x128.Idx → EReal) := by
  funext x
  unfold iblk
  rw [View.read_apply]
  show V m c main_v16 _ = V m c main_v16 x
  refine congrArg (V m c main_v16) (funext fun a => Fin.ext ?_)
  match a with
  | ⟨0, _⟩ => show win0_16.index t 0 * _ + 1 * (x 0).val = (x 0).val; rw [show win0_16.index t 0 = 0 from rfl]; omega
  | ⟨1, _⟩ => show win0_16.index t 1 * _ + 1 * (x 1).val = (x 1).val; rw [show win0_16.index t 1 = 0 from rfl]; omega

theorem iblkW_17 (c : Dev nD) (t : Fin cfg0.N) : iblk m c 17 t = (V m c main_v17 : S1x128.Idx → EReal) := by
  funext x
  unfold iblk
  rw [View.read_apply]
  show V m c main_v17 _ = V m c main_v17 x
  refine congrArg (V m c main_v17) (funext fun a => Fin.ext ?_)
  match a with
  | ⟨0, _⟩ => show win0_17.index t 0 * _ + 1 * (x 0).val = (x 0).val; rw [show win0_17.index t 0 = 0 from rfl]; omega
  | ⟨1, _⟩ => show win0_17.index t 1 * _ + 1 * (x 1).val = (x 1).val; rw [show win0_17.index t 1 = 0 from rfl]; omega

theorem iblkW_18 (c : Dev nD) (t : Fin cfg0.N) : iblk m c 18 t = (V m c main_v18 : S1x128.Idx → EReal) := by
  funext x
  unfold iblk
  rw [View.read_apply]
  show V m c main_v18 _ = V m c main_v18 x
  refine congrArg (V m c main_v18) (funext fun a => Fin.ext ?_)
  match a with
  | ⟨0, _⟩ => show win0_18.index t 0 * _ + 1 * (x 0).val = (x 0).val; rw [show win0_18.index t 0 = 0 from rfl]; omega
  | ⟨1, _⟩ => show win0_18.index t 1 * _ + 1 * (x 1).val = (x 1).val; rw [show win0_18.index t 1 = 0 from rfl]; omega

theorem iblkW_19 (c : Dev nD) (t : Fin cfg0.N) : iblk m c 19 t = (V m c main_v19 : S1x128.Idx → EReal) := by
  funext x
  unfold iblk
  rw [View.read_apply]
  show V m c main_v19 _ = V m c main_v19 x
  refine congrArg (V m c main_v19) (funext fun a => Fin.ext ?_)
  match a with
  | ⟨0, _⟩ => show win0_19.index t 0 * _ + 1 * (x 0).val = (x 0).val; rw [show win0_19.index t 0 = 0 from rfl]; omega
  | ⟨1, _⟩ => show win0_19.index t 1 * _ + 1 * (x 1).val = (x 1).val; rw [show win0_19.index t 1 = 0 from rfl]; omega

theorem iblkW_20 (c : Dev nD) (t : Fin cfg0.N) : iblk m c 20 t = (V m c main_v2 : S128x10.Idx → EReal) := by
  funext x
  unfold iblk
  rw [View.read_apply]
  show V m c main_v2 _ = V m c main_v2 x
  refine congrArg (V m c main_v2) (funext fun a => Fin.ext ?_)
  match a with
  | ⟨0, _⟩ => show win0_20.index t 0 * _ + 1 * (x 0).val = (x 0).val; rw [show win0_20.index t 0 = 0 from rfl]; omega
  | ⟨1, _⟩ => show win0_20.index t 1 * _ + 1 * (x 1).val = (x 1).val; rw [show win0_20.index t 1 = 0 from rfl]; omega

theorem iblkW_21 (c : Dev nD) (t : Fin cfg0.N) : iblk m c 21 t = (V m c main_v20 : S1x10.Idx → EReal) := by
  funext x
  unfold iblk
  rw [View.read_apply]
  show V m c main_v20 _ = V m c main_v20 x
  refine congrArg (V m c main_v20) (funext fun a => Fin.ext ?_)
  match a with
  | ⟨0, _⟩ => show win0_21.index t 0 * _ + 1 * (x 0).val = (x 0).val; rw [show win0_21.index t 0 = 0 from rfl]; omega
  | ⟨1, _⟩ => show win0_21.index t 1 * _ + 1 * (x 1).val = (x 1).val; rw [show win0_21.index t 1 = 0 from rfl]; omega

theorem iblkW_22 (c : Dev nD) (t : Fin cfg0.N) : iblk m c 22 t = (V m c main_v21 : S128x256.Idx → EReal) := by
  funext x
  unfold iblk
  rw [View.read_apply]
  show V m c main_v21 _ = V m c main_v21 x
  refine congrArg (V m c main_v21) (funext fun a => Fin.ext ?_)
  match a with
  | ⟨0, _⟩ => show win0_22.index t 0 * _ + 1 * (x 0).val = (x 0).val; rw [show win0_22.index t 0 = 0 from rfl]; omega
  | ⟨1, _⟩ => show win0_22.index t 1 * _ + 1 * (x 1).val = (x 1).val; rw [show win0_22.index t 1 = 0 from rfl]; omega

theorem iblkW_23 (c : Dev nD) (t : Fin cfg0.N) : iblk m c 23 t = (V m c main_v22 : S64x256.Idx → EReal) := by
  funext x
  unfold iblk
  rw [View.read_apply]
  show V m c main_v22 _ = V m c main_v22 x
  refine congrArg (V m c main_v22) (funext fun a => Fin.ext ?_)
  match a with
  | ⟨0, _⟩ => show win0_23.index t 0 * _ + 1 * (x 0).val = (x 0).val; rw [show win0_23.index t 0 = 0 from rfl]; omega
  | ⟨1, _⟩ => show win0_23.index t 1 * _ + 1 * (x 1).val = (x 1).val; rw [show win0_23.index t 1 = 0 from rfl]; omega

theorem iblkW_24 (c : Dev nD) (t : Fin cfg0.N) : iblk m c 24 t = (V m c main_v23 : S1x256.Idx → EReal) := by
  funext x
  unfold iblk
  rw [View.read_apply]
  show V m c main_v23 _ = V m c main_v23 x
  refine congrArg (V m c main_v23) (funext fun a => Fin.ext ?_)
  match a with
  | ⟨0, _⟩ => show win0_24.index t 0 * _ + 1 * (x 0).val = (x 0).val; rw [show win0_24.index t 0 = 0 from rfl]; omega
  | ⟨1, _⟩ => show win0_24.index t 1 * _ + 1 * (x 1).val = (x 1).val; rw [show win0_24.index t 1 = 0 from rfl]; omega

theorem iblkW_25 (c : Dev nD) (t : Fin cfg0.N) : iblk m c 25 t = (V m c main_v4 : S256x128.Idx → EReal) := by
  funext x
  unfold iblk
  rw [View.read_apply]
  show V m c main_v4 _ = V m c main_v4 x
  refine congrArg (V m c main_v4) (funext fun a => Fin.ext ?_)
  match a with
  | ⟨0, _⟩ => show win0_25.index t 0 * _ + 1 * (x 0).val = (x 0).val; rw [show win0_25.index t 0 = 0 from rfl]; omega
  | ⟨1, _⟩ => show win0_25.index t 1 * _ + 1 * (x 1).val = (x 1).val; rw [show win0_25.index t 1 = 0 from rfl]; omega

theorem iblkW_26 (c : Dev nD) (t : Fin cfg0.N) : iblk m c 26 t = (V m c main_v24 : S1x128.Idx → EReal) := by
  funext x
  unfold iblk
  rw [View.read_apply]
  show V m c main_v24 _ = V m c main_v24 x
  refine congrArg (V m c main_v24) (funext fun a => Fin.ext ?_)
  match a with
  | ⟨0, _⟩ => show win0_26.index t 0 * _ + 1 * (x 0).val = (x 0).val; rw [show win0_26.index t 0 = 0 from rfl]; omega
  | ⟨1, _⟩ => show win0_26.index t 1 * _ + 1 * (x 1).val = (x 1).val; rw [show win0_26.index t 1 = 0 from rfl]; omega

theorem iblkW_27 (c : Dev nD) (t : Fin cfg0.N) : iblk m c 27 t = (V m c main_v5 : S128x128.Idx → EReal) := by
  funext x
  unfold iblk
  rw [View.read_apply]
  show V m c main_v5 _ = V m c main_v5 x
  refine congrArg (V m c main_v5) (funext fun a => Fin.ext ?_)
  match a with
  | ⟨0, _⟩ => show win0_27.index t 0 * _ + 1 * (x 0).val = (x 0).val; rw [show win0_27.index t 0 = 0 from rfl]; omega
  | ⟨1, _⟩ => show win0_27.index t 1 * _ + 1 * (x 1).val = (x 1).val; rw [show win0_27.index t 1 = 0 from rfl]; omega

theorem iblkW_28 (c : Dev nD) (t : Fin cfg0.N) : iblk m c 28 t = (V m c main_v25 : S1x128.Idx → EReal) := by
  funext x
  unfold iblk
  rw [View.read_apply]
  show V m c main_v25 _ = V m c main_v25 x
  refine congrArg (V m c main_v25) (funext fun a => Fin.ext ?_)
  match a with
  | ⟨0, _⟩ => show win0_28.index t 0 * _ + 1 * (x 0).val = (x 0).val; rw [show win0_28.index t 0 = 0 from rfl]; omega
  | ⟨1, _⟩ => show win0_28.index t 1 * _ + 1 * (x 1).val = (x 1).val; rw [show win0_28.index t 1 = 0 from rfl]; omega

/-! ## The adjacency's two windows -/

/-- The two windows' block indices over the grid: rows 2(t mod 25) and 2(t mod 25) + 1 of 200, all columns. -/
theorem idx_adj : ∀ t : Fin cfg0.N, win0_0.index t (0 : Fin 2) = 2 * (t.val % 25) ∧ win0_0.index t (1 : Fin 2) = 0
    ∧ win0_1.index t (0 : Fin 2) = 2 * (t.val % 25) + 1 ∧ win0_1.index t (1 : Fin 2) = 0 :=
  (by decide +kernel : ∀ t : Fin grid0.N, _)

theorem iblk0_apply (c : Dev nD) (t : Fin cfg0.N) (x : S200x10000.Idx) (k : S10000x10000.Idx)
    (hk0 : (k 0).val = 400 * (t.val % 25) + (x 0).val) (hk1 : (k 1).val = (x 1).val) :
    (iblk m c 0 t : S200x10000.Idx → EReal) x = (m ((c.tc : Thread nD τ).loc main_arg1) : S10000x10000.Idx → EReal) k := by
  obtain ⟨e0, e1, -, -⟩ := idx_adj t
  unfold iblk
  rw [View.read_apply]
  show V m c main_arg1 _ = _
  rw [V_adj]
  refine congrArg (m ((c.tc : Thread nD τ).loc main_arg1)) (funext fun a => Fin.ext ?_)
  match a with
  | ⟨0, _⟩ => show win0_0.index t (0 : Fin 2) * 200 + 1 * (x 0).val = (k 0).val; omega
  | ⟨1, _⟩ => show win0_0.index t (1 : Fin 2) * 10000 + 1 * (x 1).val = (k 1).val; omega

theorem iblk1_apply (c : Dev nD) (t : Fin cfg0.N) (x : S200x10000.Idx) (k : S10000x10000.Idx)
    (hk0 : (k 0).val = 400 * (t.val % 25) + 200 + (x 0).val) (hk1 : (k 1).val = (x 1).val) :
    (iblk m c 1 t : S200x10000.Idx → EReal) x = (m ((c.tc : Thread nD τ).loc main_arg1) : S10000x10000.Idx → EReal) k := by
  obtain ⟨-, -, e0, e1⟩ := idx_adj t
  unfold iblk
  rw [View.read_apply]
  show V m c main_arg1 _ = _
  rw [V_adj]
  refine congrArg (m ((c.tc : Thread nD τ).loc main_arg1)) (funext fun a => Fin.ext ?_)
  match a with
  | ⟨0, _⟩ => show win0_1.index t (0 : Fin 2) * 200 + 1 * (x 0).val = (k 0).val; omega
  | ⟨1, _⟩ => show win0_1.index t (1 : Fin 2) * 10000 + 1 * (x 1).val = (k 1).val; omega

/-- The adjacency's two half-tiles at grid point t, stacked, are row tile t mod 25. -/
theorem iblk_adj (c : Dev nD) (t : Fin cfg0.N) :
    stack2 (iblk m c 0 t) (iblk m c 1 t) = adjTile (argsK m c) ⟨t.val % 25, Nat.mod_lt _ (by norm_num)⟩ := by
  funext i
  obtain ⟨r, q, rfl⟩ : ∃ (r : Fin 400) (q : Fin 10000), i = ix2 r q := ⟨i 0, i 1, eq_ix2 i⟩
  by_cases hr : r.val < 200
  · refine (dif_pos hr).trans ?_
    exact iblk0_apply m c t _ _ (by show 400 * (t.val % 25) + r.val = 400 * (t.val % 25) + r.val; rfl) rfl
  · refine (dif_neg hr).trans ?_
    exact iblk1_apply m c t _ _ (by show 400 * (t.val % 25) + r.val = 400 * (t.val % 25) + 200 + (r.val - 200); omega) rfl

/-! ## The other input windows -/

theorem iblk_2 (c : Dev nD) (t : Fin cfg0.N) : iblk m c 2 t = (let a := argsK m c; a.x) := by
  rw [iblkW_2, V_w2]
  rfl
theorem iblk_3 (c : Dev nD) (t : Fin cfg0.N) : iblk m c 3 t = (let a := argsK m c; a.gc1W) := by
  rw [iblkW_3, V_w3]
  rfl
theorem iblk_4 (c : Dev nD) (t : Fin cfg0.N) : iblk m c 4 t = (let a := argsK m c; asRow1 a.gc1b) := by
  rw [iblkW_4, V_w4]
  exact bcast_asRow1 _ _
theorem iblk_5 (c : Dev nD) (t : Fin cfg0.N) : iblk m c 5 t = (let a := argsK m c; a.gc2W) := by
  rw [iblkW_5, V_w5]
  rfl
theorem iblk_6 (c : Dev nD) (t : Fin cfg0.N) : iblk m c 6 t = (let a := argsK m c; asRow1 a.gc2b) := by
  rw [iblkW_6, V_w6]
  exact bcast_asRow1 _ _
theorem iblk_7 (c : Dev nD) (t : Fin cfg0.N) : iblk m c 7 t = (let a := argsK m c; trTop a.c1W) := by
  rw [iblkW_7, V_w7]
  exact slice_trTop _ _ _
theorem iblk_8 (c : Dev nD) (t : Fin cfg0.N) : iblk m c 8 t = (let a := argsK m c; trBot a.c1W) := by
  rw [iblkW_8, V_w8]
  exact slice_trBot _ _ _
theorem iblk_9 (c : Dev nD) (t : Fin cfg0.N) : iblk m c 9 t = (let a := argsK m c; asRow1 a.c1b) := by
  rw [iblkW_9, V_w9]
  exact bcast_asRow1 _ _
theorem iblk_10 (c : Dev nD) (t : Fin cfg0.N) : iblk m c 10 t = (let a := argsK m c; asRow1 a.bn1g) := by
  rw [iblkW_10, V_w10]
  exact bcast_asRow1 _ _
theorem iblk_11 (c : Dev nD) (t : Fin cfg0.N) : iblk m c 11 t = (let a := argsK m c; asRow1 a.bn1b) := by
  rw [iblkW_11, V_w11]
  exact bcast_asRow1 _ _
theorem iblk_12 (c : Dev nD) (t : Fin cfg0.N) : iblk m c 12 t = (let a := argsK m c; asRow1 a.bn1rm) := by
  rw [iblkW_12, V_w12]
  exact bcast_asRow1 _ _
theorem iblk_13 (c : Dev nD) (t : Fin cfg0.N) : iblk m c 13 t = (let a := argsK m c; asRow1 a.bn1rv) := by
  rw [iblkW_13, V_w13]
  exact bcast_asRow1 _ _
theorem iblk_14 (c : Dev nD) (t : Fin cfg0.N) : iblk m c 14 t = (let a := argsK m c; tr a.c2W) := by
  rw [iblkW_14, V_w14]
  exact transpose_tr _ _
theorem iblk_15 (c : Dev nD) (t : Fin cfg0.N) : iblk m c 15 t = (let a := argsK m c; asRow1 a.c2b) := by
  rw [iblkW_15, V_w15]
  exact bcast_asRow1 _ _
theorem iblk_16 (c : Dev nD) (t : Fin cfg0.N) : iblk m c 16 t = (let a := argsK m c; asRow1 a.bn2g) := by
  rw [iblkW_16, V_w16]
  exact bcast_asRow1 _ _
theorem iblk_17 (c : Dev nD) (t : Fin cfg0.N) : iblk m c 17 t = (let a := argsK m c; asRow1 a.bn2b) := by
  rw [iblkW_17, V_w17]
  exact bcast_asRow1 _ _
theorem iblk_18 (c : Dev nD) (t : Fin cfg0.N) : iblk m c 18 t = (let a := argsK m c; asRow1 a.bn2rm) := by
  rw [iblkW_18, V_w18]
  exact bcast_asRow1 _ _
theorem iblk_19 (c : Dev nD) (t : Fin cfg0.N) : iblk m c 19 t = (let a := argsK m c; asRow1 a.bn2rv) := by
  rw [iblkW_19, V_w19]
  exact bcast_asRow1 _ _
theorem iblk_20 (c : Dev nD) (t : Fin cfg0.N) : iblk m c 20 t = (let a := argsK m c; tr a.c3W) := by
  rw [iblkW_20, V_w20]
  exact transpose_tr _ _
theorem iblk_21 (c : Dev nD) (t : Fin cfg0.N) : iblk m c 21 t = (let a := argsK m c; asRow1 a.c3b) := by
  rw [iblkW_21, V_w21]
  exact bcast_asRow1 _ _
theorem iblk_22 (c : Dev nD) (t : Fin cfg0.N) : iblk m c 22 t = (let a := argsK m c; trTop a.r1W) := by
  rw [iblkW_22, V_w22]
  exact slice_trTop _ _ _
theorem iblk_23 (c : Dev nD) (t : Fin cfg0.N) : iblk m c 23 t = (let a := argsK m c; trBot a.r1W) := by
  rw [iblkW_23, V_w23]
  exact slice_trBot _ _ _
theorem iblk_24 (c : Dev nD) (t : Fin cfg0.N) : iblk m c 24 t = (let a := argsK m c; asRow1 a.r1b) := by
  rw [iblkW_24, V_w24]
  exact bcast_asRow1 _ _
theorem iblk_25 (c : Dev nD) (t : Fin cfg0.N) : iblk m c 25 t = (let a := argsK m c; tr a.r2W) := by
  rw [iblkW_25, V_w25]
  exact transpose_tr _ _
theorem iblk_26 (c : Dev nD) (t : Fin cfg0.N) : iblk m c 26 t = (let a := argsK m c; asRow1 a.r2b) := by
  rw [iblkW_26, V_w26]
  exact bcast_asRow1 _ _
theorem iblk_27 (c : Dev nD) (t : Fin cfg0.N) : iblk m c 27 t = (let a := argsK m c; tr a.r3W) := by
  rw [iblkW_27, V_w27]
  exact transpose_tr _ _
theorem iblk_28 (c : Dev nD) (t : Fin cfg0.N) : iblk m c 28 t = (let a := argsK m c; asRow1 a.r3b) := by
  rw [iblkW_28, V_w28]
  exact bcast_asRow1 _ _

/-! ## The result windows' blocks -/

/-- A result window is written back exactly at the points of the second sweep. -/
theorem flush29_iff : ∀ t : Fin cfg0.N, (cfg0.win 29).flush t = true ↔ 25 ≤ t.val :=
  (by decide +kernel : ∀ t : Fin grid0.N, win0_29.flush t = true ↔ 25 ≤ t.val)
theorem flush30_iff : ∀ t : Fin cfg0.N, (cfg0.win 30).flush t = true ↔ 25 ≤ t.val :=
  (by decide +kernel : ∀ t : Fin grid0.N, win0_30.flush t = true ↔ 25 ≤ t.val)
theorem flush31_iff : ∀ t : Fin cfg0.N, (cfg0.win 31).flush t = true ↔ 25 ≤ t.val :=
  (by decide +kernel : ∀ t : Fin grid0.N, win0_31.flush t = true ↔ 25 ≤ t.val)

/-- Result window 29's block index over the grid: row block max(t − 25, 0) of 400, all columns. -/
theorem idx_29 : ∀ t : Fin cfg0.N, win0_29.index t (0 : Fin 2) = t.val - 25 ∧ win0_29.index t (1 : Fin 2) = 0 :=
  (by decide +kernel : ∀ t : Fin grid0.N, _)

theorem mem_blk29 (t : Fin cfg0.N) (i : S10000x10.Idx) :
    i ∈ ((cfg0.win 29).blk t).view.set ↔ ∀ a : Fin 2, win0_29.index t a * S400x10.size a ≤ (i a).val ∧ (i a).val < win0_29.index t a * S400x10.size a + S400x10.size a := by
  show i ∈ ((View.whole main_v26_0).slice (win0_29.rect t)).set ↔ _
  rw [View.set_slice_whole, Rect.mem_set_unit]
  exact Iff.rfl

theorem cover29_aux (i : S10000x10.Idx) :
    ∃ t : Fin cfg0.N, (cfg0.win 29).flush t = true ∧ i ∈ ((cfg0.win 29).blk t).view.set := by
  have hi0 : (i 0).val < 10000 := (i 0).isLt
  have hi1 : (i 1).val < 10 := (i 1).isLt
  have hN : cfg0.N = 50 := N_0
  refine ⟨⟨25 + (i 0).val / 400, by omega⟩, (flush29_iff _).mpr (by show 25 ≤ 25 + (i 0).val / 400; omega), ?_⟩
  rw [mem_blk29]
  obtain ⟨e0, e1⟩ := idx_29 ⟨25 + (i 0).val / 400, by omega⟩
  intro a
  match a with
  | ⟨0, _⟩ =>
    show win0_29.index _ (0 : Fin 2) * 400 ≤ (i 0).val ∧ (i 0).val < win0_29.index _ (0 : Fin 2) * 400 + 400
    rw [e0]; show (25 + (i 0).val / 400 - 25) * 400 ≤ (i 0).val ∧ (i 0).val < (25 + (i 0).val / 400 - 25) * 400 + 400
    omega
  | ⟨1, _⟩ =>
    show win0_29.index _ (1 : Fin 2) * 10 ≤ (i 1).val ∧ (i 1).val < win0_29.index _ (1 : Fin 2) * 10 + 10
    rw [e1]; omega

/-- Result window 30's block index over the grid: row block max(t − 25, 0) of 400, all columns. -/
theorem idx_30 : ∀ t : Fin cfg0.N, win0_30.index t (0 : Fin 2) = t.val - 25 ∧ win0_30.index t (1 : Fin 2) = 0 :=
  (by decide +kernel : ∀ t : Fin grid0.N, _)

theorem mem_blk30 (t : Fin cfg0.N) (i : S10000x128.Idx) :
    i ∈ ((cfg0.win 30).blk t).view.set ↔ ∀ a : Fin 2, win0_30.index t a * S400x128.size a ≤ (i a).val ∧ (i a).val < win0_30.index t a * S400x128.size a + S400x128.size a := by
  show i ∈ ((View.whole main_v26_1).slice (win0_30.rect t)).set ↔ _
  rw [View.set_slice_whole, Rect.mem_set_unit]
  exact Iff.rfl

theorem cover30_aux (i : S10000x128.Idx) :
    ∃ t : Fin cfg0.N, (cfg0.win 30).flush t = true ∧ i ∈ ((cfg0.win 30).blk t).view.set := by
  have hi0 : (i 0).val < 10000 := (i 0).isLt
  have hi1 : (i 1).val < 128 := (i 1).isLt
  have hN : cfg0.N = 50 := N_0
  refine ⟨⟨25 + (i 0).val / 400, by omega⟩, (flush30_iff _).mpr (by show 25 ≤ 25 + (i 0).val / 400; omega), ?_⟩
  rw [mem_blk30]
  obtain ⟨e0, e1⟩ := idx_30 ⟨25 + (i 0).val / 400, by omega⟩
  intro a
  match a with
  | ⟨0, _⟩ =>
    show win0_30.index _ (0 : Fin 2) * 400 ≤ (i 0).val ∧ (i 0).val < win0_30.index _ (0 : Fin 2) * 400 + 400
    rw [e0]; show (25 + (i 0).val / 400 - 25) * 400 ≤ (i 0).val ∧ (i 0).val < (25 + (i 0).val / 400 - 25) * 400 + 400
    omega
  | ⟨1, _⟩ =>
    show win0_30.index _ (1 : Fin 2) * 128 ≤ (i 1).val ∧ (i 1).val < win0_30.index _ (1 : Fin 2) * 128 + 128
    rw [e1]; omega

/-- Result window 31's block index over the grid: row block max(t − 25, 0) of 400, all columns. -/
theorem idx_31 : ∀ t : Fin cfg0.N, win0_31.index t (0 : Fin 2) = t.val - 25 ∧ win0_31.index t (1 : Fin 2) = 0 :=
  (by decide +kernel : ∀ t : Fin grid0.N, _)

theorem mem_blk31 (t : Fin cfg0.N) (i : S10000x192.Idx) :
    i ∈ ((cfg0.win 31).blk t).view.set ↔ ∀ a : Fin 2, win0_31.index t a * S400x192.size a ≤ (i a).val ∧ (i a).val < win0_31.index t a * S400x192.size a + S400x192.size a := by
  show i ∈ ((View.whole main_v26_2).slice (win0_31.rect t)).set ↔ _
  rw [View.set_slice_whole, Rect.mem_set_unit]
  exact Iff.rfl

theorem cover31_aux (i : S10000x192.Idx) :
    ∃ t : Fin cfg0.N, (cfg0.win 31).flush t = true ∧ i ∈ ((cfg0.win 31).blk t).view.set := by
  have hi0 : (i 0).val < 10000 := (i 0).isLt
  have hi1 : (i 1).val < 192 := (i 1).isLt
  have hN : cfg0.N = 50 := N_0
  refine ⟨⟨25 + (i 0).val / 400, by omega⟩, (flush31_iff _).mpr (by show 25 ≤ 25 + (i 0).val / 400; omega), ?_⟩
  rw [mem_blk31]
  obtain ⟨e0, e1⟩ := idx_31 ⟨25 + (i 0).val / 400, by omega⟩
  intro a
  match a with
  | ⟨0, _⟩ =>
    show win0_31.index _ (0 : Fin 2) * 400 ≤ (i 0).val ∧ (i 0).val < win0_31.index _ (0 : Fin 2) * 400 + 400
    rw [e0]; show (25 + (i 0).val / 400 - 25) * 400 ≤ (i 0).val ∧ (i 0).val < (25 + (i 0).val / 400 - 25) * 400 + 400
    omega
  | ⟨1, _⟩ =>
    show win0_31.index _ (1 : Fin 2) * 192 ≤ (i 1).val ∧ (i 1).val < win0_31.index _ (1 : Fin 2) * 192 + 192
    rw [e1]; omega

/-- Reading block t ≥ 25 of a 10000 × p array G through a result window: rows 400(t − 25) … 400(t − 25) + 399 of G. -/
theorem blk29_read (c : Dev nD) (t : Fin cfg0.N) (ht : 25 ≤ t.val) (G : Mat 10000 10) :
    ((cfg0.win 29).blk t).view.read (Elt Ideal) (G : Buf (Elt Ideal) ((cfg0.win 29).arr.view.loc (c.tc : Thread nD τ)))
      = rows 400 (400 * (t.val - 25)) (by have := lt_of_lt_of_eq t.isLt N_0; omega) G := by
  obtain ⟨e0, e1⟩ := idx_29 t
  funext x
  rw [View.read_apply]
  show G _ = G _
  refine congrArg G (funext fun a => Fin.ext ?_)
  match a with
  | ⟨0, _⟩ => show win0_29.index t (0 : Fin 2) * 400 + 1 * (x 0).val = 400 * (t.val - 25) + (x 0).val; omega
  | ⟨1, _⟩ => show win0_29.index t (1 : Fin 2) * 10 + 1 * (x 1).val = (x 1).val; omega
theorem blk30_read (c : Dev nD) (t : Fin cfg0.N) (ht : 25 ≤ t.val) (G : Mat 10000 128) :
    ((cfg0.win 30).blk t).view.read (Elt Ideal) (G : Buf (Elt Ideal) ((cfg0.win 30).arr.view.loc (c.tc : Thread nD τ)))
      = rows 400 (400 * (t.val - 25)) (by have := lt_of_lt_of_eq t.isLt N_0; omega) G := by
  obtain ⟨e0, e1⟩ := idx_30 t
  funext x
  rw [View.read_apply]
  show G _ = G _
  refine congrArg G (funext fun a => Fin.ext ?_)
  match a with
  | ⟨0, _⟩ => show win0_30.index t (0 : Fin 2) * 400 + 1 * (x 0).val = 400 * (t.val - 25) + (x 0).val; omega
  | ⟨1, _⟩ => show win0_30.index t (1 : Fin 2) * 128 + 1 * (x 1).val = (x 1).val; omega
theorem blk31_read (c : Dev nD) (t : Fin cfg0.N) (ht : 25 ≤ t.val) (G : Mat 10000 192) :
    ((cfg0.win 31).blk t).view.read (Elt Ideal) (G : Buf (Elt Ideal) ((cfg0.win 31).arr.view.loc (c.tc : Thread nD τ)))
      = rows 400 (400 * (t.val - 25)) (by have := lt_of_lt_of_eq t.isLt N_0; omega) G := by
  obtain ⟨e0, e1⟩ := idx_31 t
  funext x
  rw [View.read_apply]
  show G _ = G _
  refine congrArg G (funext fun a => Fin.ext ?_)
  match a with
  | ⟨0, _⟩ => show win0_31.index t (0 : Fin 2) * 400 + 1 * (x 0).val = 400 * (t.val - 25) + (x 0).val; omega
  | ⟨1, _⟩ => show win0_31.index t (1 : Fin 2) * 192 + 1 * (x 1).val = (x 1).val; omega

/-- Every index of a result array lies in the block of some point at which the window is written back. -/
theorem cover29 (c : Dev nD) (i : ((cfg0.win 29).arr.view.loc (c.tc : Thread nD τ)).2.ty.Idx) :
    ∃ t : Fin cfg0.N, (cfg0.win 29).flush t = true ∧ i ∈ ((cfg0.win 29).blk t).view.set :=
  cover29_aux i
theorem cover30 (c : Dev nD) (i : ((cfg0.win 30).arr.view.loc (c.tc : Thread nD τ)).2.ty.Idx) :
    ∃ t : Fin cfg0.N, (cfg0.win 30).flush t = true ∧ i ∈ ((cfg0.win 30).blk t).view.set :=
  cover30_aux i
theorem cover31 (c : Dev nD) (i : ((cfg0.win 31).arr.view.loc (c.tc : Thread nD τ)).2.ty.Idx) :
    ∃ t : Fin cfg0.N, (cfg0.win 31).flush t = true ∧ i ∈ ((cfg0.win 31).blk t).view.set :=
  cover31_aux i

end Cert.KValue

end
-- ==== Proof.KPiecesRun.lean ====
/-
  The store pieces the four case runs found, on arbitrary whole buffers and loaded contents: each buffer a case stores
  into whole ends holding one payload of what was loaded (the third result block two column blocks); a load of a scratch
  after the store that covers it reads that store's payload back; the first layer's slab store is one piece at the
  point's row offset. Then the canonical contents of unit-stride pieces read at an index, the two row offsets over the
  grid (rows 400·(t mod 25) …), and the load at a point's row offset as rows of the contents.
-/
import proofs.«124129_g73521250173546_cont_sun_c4_545_19_alg».proof.Proof.Ideal.RunA
import proofs.«124129_g73521250173546_cont_sun_c4_545_19_alg».proof.Proof.Ideal.RunB
import proofs.«124129_g73521250173546_cont_sun_c4_545_19_alg».proof.Proof.Ideal.RunC
import proofs.«124129_g73521250173546_cont_sun_c4_545_19_alg».proof.Proof.Ideal.RunD
import Idealize.ShloMosaic.Lib.Pipeline.Value
import Idealize.ShloMosaic.Lib.ValueIdx
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]

/-- The zero offsets, as the stores spell them. -/
theorem hz2 : (![0, 0] : Fin 2 → ℕ) = fun _ => 0 := by
  funext a; match a with | ⟨0, _⟩ => rfl | ⟨1, _⟩ => rfl

/-- What a load of the first layer's scratch at a point's row offset reads of contents X: 400 rows of X. -/
def x1ld (i : grid0.Coords) (hc4 : cond4 i) (X : Vec F S10000x128 .f32) : Vec F S400x128 .f32 :=
  View.ld X (Rect.unit (s := S10000x128) (k0_off2 i) S400x128.size (k0_off2_inb i hc4))

/-! ### The pieces of each case -/

theorem pieceA_33 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : cond1 i) (hc2 : cond2 i) (hc3 : ¬cond3 i) (hc4 : ¬cond4 i)
    (y3 : Vec F S10000x128 .f32) (y4 : Vec F S128x128 .f32) (y1 : Vec F S200x10000 .f32) (y2 : Vec F S200x10000 .f32) (y5 : Vec F S1x128 .f32) :
    View.canon (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y3 y4 y1 y2 y5).1 = k0_pay1 y3 y4 := by
  unfold kernelRun0_A
  dsimp only
  sl_unfold_words
  rw [View.canon_unit_zero hz2]
  simp only [View.readAt_eq_ld, Memref.IsWhole.read_unread, View.ld_unit_zero (S := S10000x128) hz2, View.ld_unit_zero (S := S128x128) hz2]

theorem pieceA_34 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : cond1 i) (hc2 : cond2 i) (hc3 : ¬cond3 i) (hc4 : ¬cond4 i)
    (y3 : Vec F S10000x128 .f32) (y4 : Vec F S128x128 .f32) (y1 : Vec F S200x10000 .f32) (y2 : Vec F S200x10000 .f32) (y5 : Vec F S1x128 .f32) :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y3 y4 y1 y2 y5).2.1 = [⟨Rect.unit (s := S10000x128) (k0_off1 i) S400x128.size (k0_off1_inb i hc2), k0_pay2 y1 (k0_pay1 y3 y4) y2 (k0_pay1 y3 y4) y5⟩] := by
  unfold kernelRun0_A
  dsimp only
  sl_unfold_words
  simp only [View.readAt_eq_ld, Memref.IsWhole.read_unread, View.readCov_unit_zero (S := S10000x128) _ hz2,
    View.ld_unit_zero (S := S10000x128) hz2, View.ld_unit_zero (S := S128x128) hz2, View.ld_unit_zero (S := S200x10000) hz2, View.ld_unit_zero (S := S1x128) hz2]

theorem pieceB_34 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : cond2 i) (hc3 : ¬cond3 i) (hc4 : ¬cond4 i)
    (y1 : Vec F S200x10000 .f32) (y2 : Vec F S200x10000 .f32) (y5 : Vec F S1x128 .f32) (y33 : Vec F S10000x128 .bf16) :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y1 y2 y5 y33).1 = [⟨Rect.unit (s := S10000x128) (k0_off1 i) S400x128.size (k0_off1_inb i hc2), k0_pay2 y1 y33 y2 y33 y5⟩] := by
  unfold kernelRun0_B
  dsimp only
  sl_unfold_words
  simp only [View.readAt_eq_ld, Memref.IsWhole.read_unread,
    View.ld_unit_zero (S := S10000x128) hz2, View.ld_unit_zero (S := S200x10000) hz2, View.ld_unit_zero (S := S1x128) hz2]

theorem pieceC_35 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : ¬cond2 i) (hc3 : cond3 i) (hc4 : cond4 i)
    (y34 : Vec F S10000x128 .f32) (y6 : Vec F S128x64 .f32) (y1 : Vec F S200x10000 .f32) (y2 : Vec F S200x10000 .f32) (y7 : Vec F S1x64 .f32) (y8 : Vec F S128x256 .f32) (y9 : Vec F S64x256 .f32) (y10 : Vec F S1x256 .f32) (y11 : Vec F S1x256 .f32) (y12 : Vec F S1x256 .f32) (y13 : Vec F S1x256 .f32) (y14 : Vec F S1x256 .f32) (y15 : Vec F S256x128 .f32) (y16 : Vec F S1x128 .f32) (y17 : Vec F S1x128 .f32) (y18 : Vec F S1x128 .f32) (y19 : Vec F S1x128 .f32) (y20 : Vec F S1x128 .f32) (y21 : Vec F S128x10 .f32) (y22 : Vec F S1x10 .f32) (y23 : Vec F S128x256 .f32) (y24 : Vec F S64x256 .f32) (y25 : Vec F S1x256 .f32) (y26 : Vec F S256x128 .f32) (y27 : Vec F S1x128 .f32) (y28 : Vec F S128x128 .f32) (y29 : Vec F S1x128 .f32) :
    View.canon (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y6 y1 y2 y7 y8 y9 y10 y11 y12 y13 y14 y15 y16 y17 y18 y19 y20 y21 y22 y23 y24 y25 y26 y27 y28 y29).1 = k0_pay3 y34 y6 := by
  unfold kernelRun0_C
  dsimp only
  sl_unfold_words
  rw [View.canon_unit_zero hz2]
  simp only [View.readAt_eq_ld, Memref.IsWhole.read_unread, View.ld_unit_zero (S := S10000x128) hz2, View.ld_unit_zero (S := S128x64) hz2]

theorem pieceC_30 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : ¬cond2 i) (hc3 : cond3 i) (hc4 : cond4 i)
    (y34 : Vec F S10000x128 .f32) (y6 : Vec F S128x64 .f32) (y1 : Vec F S200x10000 .f32) (y2 : Vec F S200x10000 .f32) (y7 : Vec F S1x64 .f32) (y8 : Vec F S128x256 .f32) (y9 : Vec F S64x256 .f32) (y10 : Vec F S1x256 .f32) (y11 : Vec F S1x256 .f32) (y12 : Vec F S1x256 .f32) (y13 : Vec F S1x256 .f32) (y14 : Vec F S1x256 .f32) (y15 : Vec F S256x128 .f32) (y16 : Vec F S1x128 .f32) (y17 : Vec F S1x128 .f32) (y18 : Vec F S1x128 .f32) (y19 : Vec F S1x128 .f32) (y20 : Vec F S1x128 .f32) (y21 : Vec F S128x10 .f32) (y22 : Vec F S1x10 .f32) (y23 : Vec F S128x256 .f32) (y24 : Vec F S64x256 .f32) (y25 : Vec F S1x256 .f32) (y26 : Vec F S256x128 .f32) (y27 : Vec F S1x128 .f32) (y28 : Vec F S128x128 .f32) (y29 : Vec F S1x128 .f32) :
    View.canon (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y6 y1 y2 y7 y8 y9 y10 y11 y12 y13 y14 y15 y16 y17 y18 y19 y20 y21 y22 y23 y24 y25 y26 y27 y28 y29).2.1 = k0_pay12
        (k0_pay8 (k0_pay6 (x1ld i hc4 y34) y1 (k0_pay3 y34 y6) y2 (k0_pay3 y34 y6) y7 y8 y9) (k0_pay7 y10) y11 y12 y13 y14 y15 y16)
        (k0_pay9 y17) (k0_pay10 y18) (k0_pay11 y19) y20 y21 y22 := by
  unfold kernelRun0_C x1ld
  dsimp only
  sl_unfold_words
  rw [View.canon_unit_zero hz2]
  simp only [View.readAt_eq_ld, Memref.IsWhole.read_unread, View.readCov_unit_zero (S := S10000x64) _ hz2,
    View.ld_unit_zero (S := S10000x128) hz2, View.ld_unit_zero (S := S200x10000) hz2, View.ld_unit_zero (S := S128x64) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2]

theorem pieceC_31 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : ¬cond2 i) (hc3 : cond3 i) (hc4 : cond4 i)
    (y34 : Vec F S10000x128 .f32) (y6 : Vec F S128x64 .f32) (y1 : Vec F S200x10000 .f32) (y2 : Vec F S200x10000 .f32) (y7 : Vec F S1x64 .f32) (y8 : Vec F S128x256 .f32) (y9 : Vec F S64x256 .f32) (y10 : Vec F S1x256 .f32) (y11 : Vec F S1x256 .f32) (y12 : Vec F S1x256 .f32) (y13 : Vec F S1x256 .f32) (y14 : Vec F S1x256 .f32) (y15 : Vec F S256x128 .f32) (y16 : Vec F S1x128 .f32) (y17 : Vec F S1x128 .f32) (y18 : Vec F S1x128 .f32) (y19 : Vec F S1x128 .f32) (y20 : Vec F S1x128 .f32) (y21 : Vec F S128x10 .f32) (y22 : Vec F S1x10 .f32) (y23 : Vec F S128x256 .f32) (y24 : Vec F S64x256 .f32) (y25 : Vec F S1x256 .f32) (y26 : Vec F S256x128 .f32) (y27 : Vec F S1x128 .f32) (y28 : Vec F S128x128 .f32) (y29 : Vec F S1x128 .f32) :
    View.canon (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y6 y1 y2 y7 y8 y9 y10 y11 y12 y13 y14 y15 y16 y17 y18 y19 y20 y21 y22 y23 y24 y25 y26 y27 y28 y29).2.2.1 = k0_pay4 (k0_pay5 y1 (k0_pay3 y34 y6) y2 (k0_pay3 y34 y6) y7) (k0_pay13 (x1ld i hc4 y34) y23) y24 y25 y26 y27 y28 y29 := by
  unfold kernelRun0_C x1ld
  dsimp only
  sl_unfold_words
  rw [View.canon_unit_zero hz2]
  simp only [View.readAt_eq_ld, Memref.IsWhole.read_unread, View.readCov_unit_zero (S := S10000x64) _ hz2,
    View.ld_unit_zero (S := S10000x128) hz2, View.ld_unit_zero (S := S200x10000) hz2, View.ld_unit_zero (S := S128x64) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2]

theorem pieceC_32 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : ¬cond2 i) (hc3 : cond3 i) (hc4 : cond4 i)
    (y34 : Vec F S10000x128 .f32) (y6 : Vec F S128x64 .f32) (y1 : Vec F S200x10000 .f32) (y2 : Vec F S200x10000 .f32) (y7 : Vec F S1x64 .f32) (y8 : Vec F S128x256 .f32) (y9 : Vec F S64x256 .f32) (y10 : Vec F S1x256 .f32) (y11 : Vec F S1x256 .f32) (y12 : Vec F S1x256 .f32) (y13 : Vec F S1x256 .f32) (y14 : Vec F S1x256 .f32) (y15 : Vec F S256x128 .f32) (y16 : Vec F S1x128 .f32) (y17 : Vec F S1x128 .f32) (y18 : Vec F S1x128 .f32) (y19 : Vec F S1x128 .f32) (y20 : Vec F S1x128 .f32) (y21 : Vec F S128x10 .f32) (y22 : Vec F S1x10 .f32) (y23 : Vec F S128x256 .f32) (y24 : Vec F S64x256 .f32) (y25 : Vec F S1x256 .f32) (y26 : Vec F S256x128 .f32) (y27 : Vec F S1x128 .f32) (y28 : Vec F S128x128 .f32) (y29 : Vec F S1x128 .f32) :
    (kernelRun0_C (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y6 y1 y2 y7 y8 y9 y10 y11 y12 y13 y14 y15 y16 y17 y18 y19 y20 y21 y22 y23 y24 y25 y26 y27 y28 y29).2.2.2.1 = [⟨Rect.unit (s := S400x192) ![0, 128] S400x64.size inb_S400x192_S400x64_0_128, k0_pay5 y1 (k0_pay3 y34 y6) y2 (k0_pay3 y34 y6) y7⟩,
         ⟨Rect.unit (s := S400x192) ![0, 0] S400x128.size inb_S400x192_S400x128_0_0, x1ld i hc4 y34⟩] := by
  unfold kernelRun0_C x1ld
  dsimp only
  sl_unfold_words
  simp only [View.readAt_eq_ld, Memref.IsWhole.read_unread, View.readCov_unit_zero (S := S10000x64) _ hz2,
    View.ld_unit_zero (S := S10000x128) hz2, View.ld_unit_zero (S := S200x10000) hz2, View.ld_unit_zero (S := S128x64) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2]

theorem pieceD_30 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : ¬cond2 i) (hc3 : ¬cond3 i) (hc4 : cond4 i)
    (y34 : Vec F S10000x128 .f32) (y35 : Vec F S10000x64 .bf16) (y1 : Vec F S200x10000 .f32) (y2 : Vec F S200x10000 .f32) (y7 : Vec F S1x64 .f32) (y8 : Vec F S128x256 .f32) (y9 : Vec F S64x256 .f32) (y10 : Vec F S1x256 .f32) (y11 : Vec F S1x256 .f32) (y12 : Vec F S1x256 .f32) (y13 : Vec F S1x256 .f32) (y14 : Vec F S1x256 .f32) (y15 : Vec F S256x128 .f32) (y16 : Vec F S1x128 .f32) (y17 : Vec F S1x128 .f32) (y18 : Vec F S1x128 .f32) (y19 : Vec F S1x128 .f32) (y20 : Vec F S1x128 .f32) (y21 : Vec F S128x10 .f32) (y22 : Vec F S1x10 .f32) (y23 : Vec F S128x256 .f32) (y24 : Vec F S64x256 .f32) (y25 : Vec F S1x256 .f32) (y26 : Vec F S256x128 .f32) (y27 : Vec F S1x128 .f32) (y28 : Vec F S128x128 .f32) (y29 : Vec F S1x128 .f32) :
    View.canon (kernelRun0_D (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y35 y1 y2 y7 y8 y9 y10 y11 y12 y13 y14 y15 y16 y17 y18 y19 y20 y21 y22 y23 y24 y25 y26 y27 y28 y29).1 = k0_pay12
        (k0_pay8 (k0_pay6 (x1ld i hc4 y34) y1 y35 y2 y35 y7 y8 y9) (k0_pay7 y10) y11 y12 y13 y14 y15 y16)
        (k0_pay9 y17) (k0_pay10 y18) (k0_pay11 y19) y20 y21 y22 := by
  unfold kernelRun0_D x1ld
  dsimp only
  sl_unfold_words
  rw [View.canon_unit_zero hz2]
  simp only [View.readAt_eq_ld, Memref.IsWhole.read_unread, View.readCov_unit_zero (S := S10000x64) _ hz2,
    View.ld_unit_zero (S := S10000x128) hz2, View.ld_unit_zero (S := S200x10000) hz2, View.ld_unit_zero (S := S128x64) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2]

theorem pieceD_31 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : ¬cond2 i) (hc3 : ¬cond3 i) (hc4 : cond4 i)
    (y34 : Vec F S10000x128 .f32) (y35 : Vec F S10000x64 .bf16) (y1 : Vec F S200x10000 .f32) (y2 : Vec F S200x10000 .f32) (y7 : Vec F S1x64 .f32) (y8 : Vec F S128x256 .f32) (y9 : Vec F S64x256 .f32) (y10 : Vec F S1x256 .f32) (y11 : Vec F S1x256 .f32) (y12 : Vec F S1x256 .f32) (y13 : Vec F S1x256 .f32) (y14 : Vec F S1x256 .f32) (y15 : Vec F S256x128 .f32) (y16 : Vec F S1x128 .f32) (y17 : Vec F S1x128 .f32) (y18 : Vec F S1x128 .f32) (y19 : Vec F S1x128 .f32) (y20 : Vec F S1x128 .f32) (y21 : Vec F S128x10 .f32) (y22 : Vec F S1x10 .f32) (y23 : Vec F S128x256 .f32) (y24 : Vec F S64x256 .f32) (y25 : Vec F S1x256 .f32) (y26 : Vec F S256x128 .f32) (y27 : Vec F S1x128 .f32) (y28 : Vec F S128x128 .f32) (y29 : Vec F S1x128 .f32) :
    View.canon (kernelRun0_D (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y35 y1 y2 y7 y8 y9 y10 y11 y12 y13 y14 y15 y16 y17 y18 y19 y20 y21 y22 y23 y24 y25 y26 y27 y28 y29).2.1 = k0_pay4 (k0_pay5 y1 y35 y2 y35 y7) (k0_pay13 (x1ld i hc4 y34) y23) y24 y25 y26 y27 y28 y29 := by
  unfold kernelRun0_D x1ld
  dsimp only
  sl_unfold_words
  rw [View.canon_unit_zero hz2]
  simp only [View.readAt_eq_ld, Memref.IsWhole.read_unread, View.readCov_unit_zero (S := S10000x64) _ hz2,
    View.ld_unit_zero (S := S10000x128) hz2, View.ld_unit_zero (S := S200x10000) hz2, View.ld_unit_zero (S := S128x64) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2]

theorem pieceD_32 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x256 .f32) (harg8 : arg8.IsWhole) (arg9 : Memref sig .tc .vmem S64x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S256x128 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S1x128 .f32) (harg20 : arg20.IsWhole) (arg21 : Memref sig .tc .vmem S128x10 .f32) (harg21 : arg21.IsWhole) (arg22 : Memref sig .tc .vmem S1x10 .f32) (harg22 : arg22.IsWhole) (arg23 : Memref sig .tc .vmem S128x256 .f32) (harg23 : arg23.IsWhole) (arg24 : Memref sig .tc .vmem S64x256 .f32) (harg24 : arg24.IsWhole) (arg25 : Memref sig .tc .vmem S1x256 .f32) (harg25 : arg25.IsWhole) (arg26 : Memref sig .tc .vmem S256x128 .f32) (harg26 : arg26.IsWhole) (arg27 : Memref sig .tc .vmem S1x128 .f32) (harg27 : arg27.IsWhole) (arg28 : Memref sig .tc .vmem S128x128 .f32) (harg28 : arg28.IsWhole) (arg29 : Memref sig .tc .vmem S1x128 .f32) (harg29 : arg29.IsWhole) (arg30 : Memref sig .tc .vmem S400x10 .f32) (harg30 : arg30.IsWhole) (arg31 : Memref sig .tc .vmem S400x128 .f32) (harg31 : arg31.IsWhole) (arg32 : Memref sig .tc .vmem S400x192 .f32) (harg32 : arg32.IsWhole) (arg33 : Memref sig .tc .vmem S10000x128 .bf16) (harg33 : arg33.IsWhole) (arg34 : Memref sig .tc .vmem S10000x128 .f32) (harg34 : arg34.IsWhole) (arg35 : Memref sig .tc .vmem S10000x64 .bf16) (harg35 : arg35.IsWhole)
    (hc1 : ¬cond1 i) (hc2 : ¬cond2 i) (hc3 : ¬cond3 i) (hc4 : cond4 i)
    (y34 : Vec F S10000x128 .f32) (y35 : Vec F S10000x64 .bf16) (y1 : Vec F S200x10000 .f32) (y2 : Vec F S200x10000 .f32) (y7 : Vec F S1x64 .f32) (y8 : Vec F S128x256 .f32) (y9 : Vec F S64x256 .f32) (y10 : Vec F S1x256 .f32) (y11 : Vec F S1x256 .f32) (y12 : Vec F S1x256 .f32) (y13 : Vec F S1x256 .f32) (y14 : Vec F S1x256 .f32) (y15 : Vec F S256x128 .f32) (y16 : Vec F S1x128 .f32) (y17 : Vec F S1x128 .f32) (y18 : Vec F S1x128 .f32) (y19 : Vec F S1x128 .f32) (y20 : Vec F S1x128 .f32) (y21 : Vec F S128x10 .f32) (y22 : Vec F S1x10 .f32) (y23 : Vec F S128x256 .f32) (y24 : Vec F S64x256 .f32) (y25 : Vec F S1x256 .f32) (y26 : Vec F S256x128 .f32) (y27 : Vec F S1x128 .f32) (y28 : Vec F S128x128 .f32) (y29 : Vec F S1x128 .f32) :
    (kernelRun0_D (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 hc1 hc2 hc3 hc4 y34 y35 y1 y2 y7 y8 y9 y10 y11 y12 y13 y14 y15 y16 y17 y18 y19 y20 y21 y22 y23 y24 y25 y26 y27 y28 y29).2.2.1 = [⟨Rect.unit (s := S400x192) ![0, 128] S400x64.size inb_S400x192_S400x64_0_128, k0_pay5 y1 y35 y2 y35 y7⟩,
         ⟨Rect.unit (s := S400x192) ![0, 0] S400x128.size inb_S400x192_S400x128_0_0, x1ld i hc4 y34⟩] := by
  unfold kernelRun0_D x1ld
  dsimp only
  sl_unfold_words
  simp only [View.readAt_eq_ld, Memref.IsWhole.read_unread, View.readCov_unit_zero (S := S10000x64) _ hz2,
    View.ld_unit_zero (S := S10000x128) hz2, View.ld_unit_zero (S := S200x10000) hz2, View.ld_unit_zero (S := S128x64) hz2, View.ld_unit_zero (S := S1x64) hz2, View.ld_unit_zero (S := S128x256) hz2, View.ld_unit_zero (S := S64x256) hz2, View.ld_unit_zero (S := S1x256) hz2, View.ld_unit_zero (S := S256x128) hz2, View.ld_unit_zero (S := S1x128) hz2, View.ld_unit_zero (S := S128x10) hz2, View.ld_unit_zero (S := S1x10) hz2, View.ld_unit_zero (S := S128x128) hz2, View.ld_unit_zero (S := S10000x64) hz2]

/-! ### The canonical contents under unit-stride pieces, read at an index -/

/-- Under the last piece, at the index whose coordinates are the piece's offsets plus x's: its payload at x. -/
theorem canon_cons_unit_of_mem {Val : EltTy → Type} [∀ e, Nonempty (Val e)] {s : Shape} {e : EltTy}
    {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

/-- Off the last piece on some axis: the canonical contents of the earlier pieces. -/
theorem canon_cons_unit_of_not_mem {Val : EltTy → Type} [∀ e, Nonempty (Val e)] {s : Shape} {e : EltTy}
    {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem (⟨Rect.unit off size inb, w⟩ : View.Piece Val s e) L (fun hm => ?_)
  have hm' : y ∈ (Rect.unit off size inb).set := hm
  have := (Rect.mem_set_unit.mp hm') a
  omega

/-! ### The two row offsets over the grid -/

theorem off1_eq : ∀ t : Fin cfg0.N, k0_off1 (grid0.coords t) = ![400 * (t.val % 25), 0] :=
  (by decide +kernel : ∀ t : Fin grid0.N, k0_off1 (grid0.coords t) = ![400 * (t.val % 25), 0])
theorem off2_eq : ∀ t : Fin cfg0.N, k0_off2 (grid0.coords t) = ![400 * (t.val % 25), 0] :=
  (by decide +kernel : ∀ t : Fin grid0.N, k0_off2 (grid0.coords t) = ![400 * (t.val % 25), 0])

/-- The load at a point's row offset reads rows 400·(t mod 25) … of the contents. -/
theorem x1ld_apply (t : Fin cfg0.N) (hc4 : cond4 (grid0.coords t)) (X : Vec F S10000x128 .f32) (y : S400x128.Idx)
    (h : 400 * (t.val % 25) + (y 0).val < 10000) :
    x1ld (grid0.coords t) hc4 X y = X (ix2 (⟨400 * (t.val % 25) + (y 0).val, h⟩ : Fin 10000) (y 1)) := by
  unfold x1ld
  refine congrArg X (funext fun a => Fin.ext ?_)
  match a with
  | ⟨0, _⟩ =>
    show k0_off2 (grid0.coords t) 0 + 1 * (y 0).val = 400 * (t.val % 25) + (y 0).val
    rw [off2_eq t, Nat.one_mul]; rfl
  | ⟨1, _⟩ =>
    show k0_off2 (grid0.coords t) 1 + 1 * (y 1).val = (y 1).val
    rw [off2_eq t, Nat.one_mul]; exact Nat.zero_add _

/-- Two column blocks side by side, read at an index: columns 0 … 127 from the earlier store, 128 … 191 from the later. -/
theorem canon_two (x2 : FVec F S400x64 .f32) (x1 : Vec F S400x128 .f32) (y : S400x192.Idx) :
    View.canon [(⟨Rect.unit (s := S400x192) ![0, 128] S400x64.size inb_S400x192_S400x64_0_128, x2⟩ : View.Piece (Elt F) S400x192 .f32),
        ⟨Rect.unit (s := S400x192) ![0, 0] S400x128.size inb_S400x192_S400x128_0_0, x1⟩] y
      = if h : (y 1).val < 128 then x1 (ix2 (y 0) (⟨(y 1).val, h⟩ : Fin 128))
        else x2 (ix2 (y 0) (⟨(y 1).val - 128, by have := (y 1).isLt; simp only [Matrix.cons_val_one, Matrix.cons_val_zero] at this; omega⟩ : Fin 64)) := by
  by_cases h : (y 1).val < 128
  · rw [dif_pos h, canon_cons_unit_of_not_mem _ _ _ y 1 (Or.inl h)]
    exact canon_cons_unit_of_mem _ _ [] y (ix2 (y 0) (⟨(y 1).val, h⟩ : Fin 128)) (fun a => by
      match a with
      | ⟨0, _⟩ => exact (Nat.zero_add _).symm
      | ⟨1, _⟩ => exact (Nat.zero_add _).symm)
  · rw [dif_neg h]
    exact canon_cons_unit_of_mem _ _ _ y (ix2 (y 0) (⟨(y 1).val - 128, by have := (y 1).isLt; simp only [Matrix.cons_val_one, Matrix.cons_val_zero] at this; omega⟩ : Fin 64)) (fun a => by
      match a with
      | ⟨0, _⟩ => exact (Nat.zero_add _).symm
      | ⟨1, _⟩ => show (y 1).val = 128 + ((y 1).val - 128); omega)

end Cert.KernelIdeal.Hand

end
-- ==== Proof.KPieces.lean ====
/-
  The store pieces the symbolic runs found, as the body's payload functions of what was loaded. Every buffer a case
  stores into whole ends holding one payload (the third result block two: the first layer's tile in columns 0 … 127, the
  second layer's in columns 128 … 191); a load of a buffer after a store that covers it reads that store's payload back
  (the supports at points 0 and 25); the loads of the first layer's scratch at a row slab read the slab of `X1full`.
-/
import proofs.«124129_g73521250173546_cont_sun_c4_545_19_alg».proof.Proof.Ideal.Inv
import proofs.«124129_g73521250173546_cont_sun_c4_545_19_alg».proof.Proof.KPiecesRun
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-! ### The pieces at a grid point -/

theorem runA_33 (c : Dev nD) (t : Fin cfg0.N) (h : t.val = 0) :
    View.canon (runA m c t h).1 = k0_pay1 (iblk m c 2 t) (iblk m c 3 t) := by
  unfold runA
  exact pieceA_33 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0 (Memref.isWhole_whole _) scM1 (Memref.isWhole_whole _) scM2 (Memref.isWhole_whole _) _ _ _ _ (iblk m c 2 t) (iblk m c 3 t) (iblk m c 0 t) (iblk m c 1 t) (iblk m c 4 t)

theorem runA_34 (c : Dev nD) (t : Fin cfg0.N) (h : t.val = 0) :
    (runA m c t h).2.1 = [⟨Rect.unit (s := S10000x128) (k0_off1 (grid0.coords t)) S400x128.size (k0_off1_inb (grid0.coords t) ((hcond2 t).mpr (by omega))),
        k0_pay2 (iblk m c 0 t) (k0_pay1 (iblk m c 2 t) (iblk m c 3 t)) (iblk m c 1 t) (k0_pay1 (iblk m c 2 t) (iblk m c 3 t)) (iblk m c 4 t)⟩] := by
  unfold runA
  exact pieceA_34 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0 (Memref.isWhole_whole _) scM1 (Memref.isWhole_whole _) scM2 (Memref.isWhole_whole _) _ _ _ _ (iblk m c 2 t) (iblk m c 3 t) (iblk m c 0 t) (iblk m c 1 t) (iblk m c 4 t)

theorem runB_34 (c : Dev nD) (t : Fin cfg0.N) (h0 : t.val ≠ 0) (h1 : t.val < 25) :
    (runB m c t h0 h1).1 = [⟨Rect.unit (s := S10000x128) (k0_off1 (grid0.coords t)) S400x128.size (k0_off1_inb (grid0.coords t) ((hcond2 t).mpr h1)),
        k0_pay2 (iblk m c 0 t) (S1v m c) (iblk m c 1 t) (S1v m c) (iblk m c 4 t)⟩] := by
  unfold runB
  exact pieceB_34 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0 (Memref.isWhole_whole _) scM1 (Memref.isWhole_whole _) scM2 (Memref.isWhole_whole _) _ _ _ _ (iblk m c 0 t) (iblk m c 1 t) (iblk m c 4 t) (S1v m c)

theorem runC_35 (c : Dev nD) (t : Fin cfg0.N) (h : t.val = 25) :
    View.canon (runC m c t h).1 = k0_pay3 (X1full m c) (iblk m c 5 t) := by
  unfold runC
  exact pieceC_35 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0 (Memref.isWhole_whole _) scM1 (Memref.isWhole_whole _) scM2 (Memref.isWhole_whole _) _ _ _ _ (X1full m c) (iblk m c 5 t) (iblk m c 0 t) (iblk m c 1 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)

theorem runC_30 (c : Dev nD) (t : Fin cfg0.N) (h : t.val = 25) :
    View.canon (runC m c t h).2.1 = k0_pay12
        (k0_pay8 (k0_pay6 (x1ld (grid0.coords t) ((hcond4 t).mpr (le_of_eq h.symm)) (X1full m c)) (iblk m c 0 t) (k0_pay3 (X1full m c) (iblk m c 5 t)) (iblk m c 1 t) (k0_pay3 (X1full m c) (iblk m c 5 t)) (iblk m c 6 t) (iblk m c 7 t) (iblk m c 8 t)) (k0_pay7 (iblk m c 9 t))
          (iblk m c 10 t) (iblk m c 11 t) (iblk m c 12 t) (iblk m c 13 t) (iblk m c 14 t) (iblk m c 15 t))
        (k0_pay9 (iblk m c 16 t)) (k0_pay10 (iblk m c 17 t)) (k0_pay11 (iblk m c 18 t)) (iblk m c 19 t) (iblk m c 20 t) (iblk m c 21 t) := by
  unfold runC
  exact pieceC_30 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0 (Memref.isWhole_whole _) scM1 (Memref.isWhole_whole _) scM2 (Memref.isWhole_whole _) _ _ _ _ (X1full m c) (iblk m c 5 t) (iblk m c 0 t) (iblk m c 1 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)

theorem runC_31 (c : Dev nD) (t : Fin cfg0.N) (h : t.val = 25) :
    View.canon (runC m c t h).2.2.1 = k0_pay4 (k0_pay5 (iblk m c 0 t) (k0_pay3 (X1full m c) (iblk m c 5 t)) (iblk m c 1 t) (k0_pay3 (X1full m c) (iblk m c 5 t)) (iblk m c 6 t)) (k0_pay13 (x1ld (grid0.coords t) ((hcond4 t).mpr (le_of_eq h.symm)) (X1full m c)) (iblk m c 22 t))
        (iblk m c 23 t) (iblk m c 24 t) (iblk m c 25 t) (iblk m c 26 t) (iblk m c 27 t) (iblk m c 28 t) := by
  unfold runC
  exact pieceC_31 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0 (Memref.isWhole_whole _) scM1 (Memref.isWhole_whole _) scM2 (Memref.isWhole_whole _) _ _ _ _ (X1full m c) (iblk m c 5 t) (iblk m c 0 t) (iblk m c 1 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)

theorem runC_32 (c : Dev nD) (t : Fin cfg0.N) (h : t.val = 25) :
    (runC m c t h).2.2.2.1 = [⟨Rect.unit (s := S400x192) ![0, 128] S400x64.size inb_S400x192_S400x64_0_128, k0_pay5 (iblk m c 0 t) (k0_pay3 (X1full m c) (iblk m c 5 t)) (iblk m c 1 t) (k0_pay3 (X1full m c) (iblk m c 5 t)) (iblk m c 6 t)⟩,
         ⟨Rect.unit (s := S400x192) ![0, 0] S400x128.size inb_S400x192_S400x128_0_0, x1ld (grid0.coords t) ((hcond4 t).mpr (le_of_eq h.symm)) (X1full m c)⟩] := by
  unfold runC
  exact pieceC_32 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0 (Memref.isWhole_whole _) scM1 (Memref.isWhole_whole _) scM2 (Memref.isWhole_whole _) _ _ _ _ (X1full m c) (iblk m c 5 t) (iblk m c 0 t) (iblk m c 1 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)

theorem runD_30 (c : Dev nD) (t : Fin cfg0.N) (h : 25 < t.val) :
    View.canon (runD m c t h).1 = k0_pay12
        (k0_pay8 (k0_pay6 (x1ld (grid0.coords t) ((hcond4 t).mpr (le_of_lt h)) (X1full m c)) (iblk m c 0 t) (S2v m c) (iblk m c 1 t) (S2v m c) (iblk m c 6 t) (iblk m c 7 t) (iblk m c 8 t)) (k0_pay7 (iblk m c 9 t))
          (iblk m c 10 t) (iblk m c 11 t) (iblk m c 12 t) (iblk m c 13 t) (iblk m c 14 t) (iblk m c 15 t))
        (k0_pay9 (iblk m c 16 t)) (k0_pay10 (iblk m c 17 t)) (k0_pay11 (iblk m c 18 t)) (iblk m c 19 t) (iblk m c 20 t) (iblk m c 21 t) := by
  unfold runD
  exact pieceD_30 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0 (Memref.isWhole_whole _) scM1 (Memref.isWhole_whole _) scM2 (Memref.isWhole_whole _) _ _ _ _ (X1full m c) (S2v m c) (iblk m c 0 t) (iblk m c 1 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)

theorem runD_31 (c : Dev nD) (t : Fin cfg0.N) (h : 25 < t.val) :
    View.canon (runD m c t h).2.1 = k0_pay4 (k0_pay5 (iblk m c 0 t) (S2v m c) (iblk m c 1 t) (S2v m c) (iblk m c 6 t)) (k0_pay13 (x1ld (grid0.coords t) ((hcond4 t).mpr (le_of_lt h)) (X1full m c)) (iblk m c 22 t))
        (iblk m c 23 t) (iblk m c 24 t) (iblk m c 25 t) (iblk m c 26 t) (iblk m c 27 t) (iblk m c 28 t) := by
  unfold runD
  exact pieceD_31 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0 (Memref.isWhole_whole _) scM1 (Memref.isWhole_whole _) scM2 (Memref.isWhole_whole _) _ _ _ _ (X1full m c) (S2v m c) (iblk m c 0 t) (iblk m c 1 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)

theorem runD_32 (c : Dev nD) (t : Fin cfg0.N) (h : 25 < t.val) :
    (runD m c t h).2.2.1 = [⟨Rect.unit (s := S400x192) ![0, 128] S400x64.size inb_S400x192_S400x64_0_128, k0_pay5 (iblk m c 0 t) (S2v m c) (iblk m c 1 t) (S2v m c) (iblk m c 6 t)⟩,
         ⟨Rect.unit (s := S400x192) ![0, 0] S400x128.size inb_S400x192_S400x128_0_0, x1ld (grid0.coords t) ((hcond4 t).mpr (le_of_lt h)) (X1full m c)⟩] := by
  unfold runD
  exact pieceD_32 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) scM0 (Memref.isWhole_whole _) scM1 (Memref.isWhole_whole _) scM2 (Memref.isWhole_whole _) _ _ _ _ (X1full m c) (S2v m c) (iblk m c 0 t) (iblk m c 1 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t)

/-! ### What the buffers hold -/

/-- The first support is the first payload of the point-0 blocks of x and W₁. -/
theorem S1v_eq (c : Dev nD) : S1v m c = k0_pay1 (iblk m c 2 t0) (iblk m c 3 t0) := by
  unfold S1v
  rw [View.read_writes_junk_eq_canon]
  exact runA_33 m c t0 rfl

/-- The slab a point t < 25 wrote, read at a row r with r / 400 = t: row r mod 400 of the point's payload. -/
theorem x1Pieces_canon (c : Dev nD) (t : Fin cfg0.N) (h1 : t.val < 25) (idx : S10000x128.Idx) (hq : (idx 0).val / 400 = t.val) :
    View.canon (x1Pieces m c t) idx
      = k0_pay2 (iblk m c 0 t) (S1v m c) (iblk m c 1 t) (S1v m c) (iblk m c 4 t)
          (ix2 (⟨(idx 0).val % 400, Nat.mod_lt _ (by norm_num)⟩ : Fin 400) (idx 1)) := by
  have hx : ∀ a, (idx a).val = k0_off1 (grid0.coords t) a
      + ((ix2 (⟨(idx 0).val % 400, Nat.mod_lt _ (by norm_num)⟩ : Fin 400) (idx 1) : S400x128.Idx) a).val := fun a => by
    rw [off1_eq t]
    match a with
    | ⟨0, _⟩ => show (idx 0).val = 400 * (t.val % 25) + (idx 0).val % 400; omega
    | ⟨1, _⟩ => show (idx 1).val = 0 + (idx 1).val; omega
  unfold x1Pieces
  by_cases h0 : t.val = 0
  · rw [dif_pos h0, runA_34 m c t h0, S1v_eq m c]
    obtain rfl : t = t0 := Fin.ext h0
    exact canon_cons_unit_of_mem _ _ [] idx _ hx
  · rw [dif_neg h0, dif_pos h1, runB_34 m c t h0 h1]
    exact canon_cons_unit_of_mem _ _ [] idx _ hx

/-- Row r of the first layer's scratch was written at point t = r / 400, as row r mod 400 of that point's payload. -/
theorem X1full_eq (c : Dev nD) (idx : S10000x128.Idx) :
    X1full m c idx
      = (let t : Fin cfg0.N := ⟨(idx 0).val / 400, by have := (idx 0).isLt; have h50 : cfg0.N = 50 := N_0; simp only [Matrix.cons_val_zero] at this; omega⟩
         k0_pay2 (iblk m c 0 t) (S1v m c) (iblk m c 1 t) (S1v m c) (iblk m c 4 t)
           (ix2 (⟨(idx 0).val % 400, Nat.mod_lt _ (by norm_num)⟩ : Fin 400) (idx 1))) := by
  have hlt : (idx 0).val / 400 < 25 := by
    have := (idx 0).isLt; simp only [Matrix.cons_val_zero] at this; omega
  have hN : (idx 0).val / 400 < cfg0.N := by have h50 : cfg0.N = 50 := N_0; omega
  unfold X1full
  exact x1Pieces_canon m c ⟨(idx 0).val / 400, hN⟩ hlt idx rfl

/-- The second support is the third payload of the whole first layer and the point-25 block of W₂. -/
theorem S2v_eq (c : Dev nD) : S2v m c = k0_pay3 (X1full m c) (iblk m c 5 t25) := by
  unfold S2v
  rw [View.read_writes_junk_eq_canon]
  exact runC_35 m c t25 rfl

/-- The first layer's row tile a point t ≥ 25 loads: rows 400(t − 25) … of `X1full`. -/
def x1slab (c : Dev nD) (t : Fin cfg0.N) : Vec F S400x128 .f32 :=
  fun y => X1full m c (ix2 (⟨400 * (t.val % 25) + (y 0).val, by have := (y 0).isLt; have := Nat.mod_lt t.val (by norm_num : 0 < 25); simp only [Matrix.cons_val_zero] at *; omega⟩ : Fin 10000) (y 1))

/-- The second layer's row tile at a point of the second sweep. -/
def x2tile (c : Dev nD) (t : Fin cfg0.N) : FVec F S400x64 .f32 :=
  k0_pay5 (iblk m c 0 t) (S2v m c) (iblk m c 1 t) (S2v m c) (iblk m c 6 t)

/-- The load of the first layer's scratch at a point's row offset, of the contents `X1full`, is the point's tile. -/
theorem x1ld_slab (c : Dev nD) (t : Fin cfg0.N) (hc4 : cond4 (grid0.coords t)) :
    x1ld (grid0.coords t) hc4 (X1full m c) = x1slab m c t :=
  funext fun y => x1ld_apply t hc4 (X1full m c) y _

/-- The first result block after a point of the second sweep. -/
theorem out29_pay (c : Dev nD) (t : Fin cfg0.N) (ht : 25 ≤ t.val) :
    out29 m c t = k0_pay12
      (k0_pay8 (k0_pay6 (x1slab m c t) (iblk m c 0 t) (S2v m c) (iblk m c 1 t) (S2v m c) (iblk m c 6 t) (iblk m c 7 t) (iblk m c 8 t)) (k0_pay7 (iblk m c 9 t))
        (iblk m c 10 t) (iblk m c 11 t) (iblk m c 12 t) (iblk m c 13 t) (iblk m c 14 t) (iblk m c 15 t))
      (k0_pay9 (iblk m c 16 t)) (k0_pay10 (iblk m c 17 t)) (k0_pay11 (iblk m c 18 t)) (iblk m c 19 t) (iblk m c 20 t) (iblk m c 21 t) := by
  unfold out29
  by_cases h : t.val = 25
  · rw [dif_pos h, View.read_writes_junk_eq_canon, runC_30 m c t h, x1ld_slab m c t]
    obtain rfl : t = t25 := Fin.ext h
    rw [← S2v_eq m c]
  · have h' : 25 < t.val := by omega
    rw [dif_neg h, dif_pos h', View.read_writes_junk_eq_canon, runD_30 m c t h', x1ld_slab m c t]

/-- The second result block. -/
theorem out30_pay (c : Dev nD) (t : Fin cfg0.N) (ht : 25 ≤ t.val) :
    out30 m c t = k0_pay4 (x2tile m c t) (k0_pay13 (x1slab m c t) (iblk m c 22 t)) (iblk m c 23 t) (iblk m c 24 t) (iblk m c 25 t) (iblk m c 26 t) (iblk m c 27 t) (iblk m c 28 t) := by
  unfold out30 x2tile
  by_cases h : t.val = 25
  · rw [dif_pos h, View.read_writes_junk_eq_canon, runC_31 m c t h, x1ld_slab m c t]
    obtain rfl : t = t25 := Fin.ext h
    rw [← S2v_eq m c]
  · have h' : 25 < t.val := by omega
    rw [dif_neg h, dif_pos h', View.read_writes_junk_eq_canon, runD_31 m c t h', x1ld_slab m c t]

/-- The third result block: the first layer's tile beside the second layer's. -/
theorem out31_pay (c : Dev nD) (t : Fin cfg0.N) (ht : 25 ≤ t.val) (y : S400x192.Idx) :
    out31 m c t y
      = if h : (y 1).val < 128 then x1slab m c t (ix2 (y 0) (⟨(y 1).val, h⟩ : Fin 128))
        else x2tile m c t (ix2 (y 0) (⟨(y 1).val - 128, by have := (y 1).isLt; simp only [Matrix.cons_val_one, Matrix.cons_val_zero] at this; omega⟩ : Fin 64)) := by
  have key : out31 m c t = View.canon
      [(⟨Rect.unit (s := S400x192) ![0, 128] S400x64.size inb_S400x192_S400x64_0_128, x2tile m c t⟩ : View.Piece (Elt F) S400x192 .f32),
        ⟨Rect.unit (s := S400x192) ![0, 0] S400x128.size inb_S400x192_S400x128_0_0, x1slab m c t⟩] := by
    unfold out31 x2tile
    by_cases h : t.val = 25
    · rw [dif_pos h, View.read_writes_junk_eq_canon, runC_32 m c t h, x1ld_slab m c t]
      obtain rfl : t = t25 := Fin.ext h
      rw [← S2v_eq m c]
    · have h' : 25 < t.val := by omega
      rw [dif_neg h, dif_pos h', View.read_writes_junk_eq_canon, runD_32 m c t h', x1ld_slab m c t]
  rw [key]
  exact canon_two (x2tile m c t) (x1slab m c t) y

end Cert.KernelIdeal.Hand

end
-- ==== Proof.KPayA.lean ====
/-
  The kernel body's matrix-product payloads at the exact instance, as the specification's functions of their operands:
  a product into a zero accumulator is the textbook product (a change of float format being the identity), and the
  two 200-row halves of an adjacency tile, each multiplied with the support and stacked, are the 400-row tile's product.
-/
import proofs.«124129_g73521250173546_cont_sun_c4_545_19_alg».proof.Proof.Gen.KernelIdeal.Skeleton
import proofs.«124129_g73521250173546_cont_sun_c4_545_19_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KPay

open Idealize.ShloMosaic Idealize.ShloMosaic.ValueIdx Cert.KernelIdeal Cert.KernelIdeal.Gen Cert.Spec

/-! ## The plain rows-by-columns contraction -/

section Plain
variable {n k p : Nat}

theorem plain_lhs0 (i : (⟨2, ![n, p]⟩ : Shape).Idx) (q : (DotDims.plain n k p).contr.Idx) :
    ((DotDims.plain n k p).lhsIdx i q 0).val = (i 0).val := rfl
theorem plain_lhs1 (i : (⟨2, ![n, p]⟩ : Shape).Idx) (q : (DotDims.plain n k p).contr.Idx) :
    ((DotDims.plain n k p).lhsIdx i q 1).val = (q ⟨0, Nat.one_pos⟩).val := rfl
theorem plain_rhs0 (i : (⟨2, ![n, p]⟩ : Shape).Idx) (q : (DotDims.plain n k p).contr.Idx) :
    ((DotDims.plain n k p).rhsIdx i q 0).val = (q ⟨0, Nat.one_pos⟩).val := rfl
theorem plain_rhs1 (i : (⟨2, ![n, p]⟩ : Shape).Idx) (q : (DotDims.plain n k p).contr.Idx) :
    ((DotDims.plain n k p).rhsIdx i q 1).val = (i 1).val := rfl

/-- A product into a zero accumulator, over the plain rows-by-columns contraction, is the textbook product. -/
theorem matmul_plain {φ₁ φ₂ : FTy} (lhs : FVec Ideal ⟨2, ![n, k]⟩ φ₁) (rhs : FVec Ideal ⟨2, ![k, p]⟩ φ₂) :
    matmul (F := Ideal) (DotDims.plain n k p) none lhs rhs (constant (F := Ideal) ⟨2, ![n, p]⟩ .f32 0x00000000#32)
      = mm lhs rhs := by
  funext i
  simp only [matmul]
  rw [Ideal.matmul_constant_zero_apply, ← Equiv.sum_comp (contrEquiv1 (DotDims.plain n k p) k rfl rfl).symm]
  unfold mm
  refine Finset.sum_congr rfl fun l _ => ?_
  have hk := contrEquiv1_symm_val (DotDims.plain n k p) k rfl rfl l
  have el : (DotDims.plain n k p).lhsIdx i ((contrEquiv1 (DotDims.plain n k p) k rfl rfl).symm l) = ix2 (i 0) l :=
    funext fun a => Fin.ext (by
      match a with
      | ⟨0, _⟩ => exact plain_lhs0 _ _
      | ⟨1, _⟩ => exact (plain_lhs1 _ _).trans hk)
  have er : (DotDims.plain n k p).rhsIdx i ((contrEquiv1 (DotDims.plain n k p) k rfl rfl).symm l) = ix2 l (i 1) :=
    funext fun a => Fin.ext (by
      match a with
      | ⟨0, _⟩ => exact (plain_rhs0 _ _).trans hk
      | ⟨1, _⟩ => exact plain_rhs1 _ _)
  rw [el, er]
  rfl

end Plain

/-! ## Two blocks of rows stacked -/

theorem stack2_lt {k : Nat} (a b : Mat 200 k) (r : Fin 400) (c : Fin k) (h : r.val < 200) :
    stack2 a b (ix2 r c) = a (ix2 ⟨r.val, h⟩ c) := dif_pos h

theorem stack2_ge {k : Nat} (a b : Mat 200 k) (r : Fin 400) (c : Fin k) (h : ¬ r.val < 200) :
    stack2 a b (ix2 r c) = b (ix2 ⟨r.val - 200, by have := r.isLt; omega⟩ c) := dif_neg h

/-- Two 200-row arrays joined along the rows are the stacked array. -/
theorem concat_stack2 {p : Nat} (x₁ x₂ : Mat 200 p)
    (h : Shape.Concatenates [(⟨2, ![200, p]⟩ : Shape), ⟨2, ![200, p]⟩] ⟨2, ![400, p]⟩ 0) :
    concatenate ⟨2, ![400, p]⟩ 0 [⟨⟨2, ![200, p]⟩, x₁⟩, ⟨⟨2, ![200, p]⟩, x₂⟩] h = stack2 x₁ x₂ := by
  funext i
  obtain ⟨r, c, rfl⟩ : ∃ (r : Fin 400) (c : Fin p), i = ix2 r c := ⟨i 0, i 1, eq_ix2 i⟩
  by_cases hr : r.val < 200
  · rw [stack2_lt _ _ r c hr]
    exact concatenate_pair_apply_left 0 x₁ x₂ h (ix2 r c) rfl (ix2 ⟨r.val, hr⟩ c)
      (fun b => by match b with | ⟨0, _⟩ => rfl | ⟨1, _⟩ => rfl)
  · rw [stack2_ge _ _ r c hr]
    exact concatenate_pair_apply_right 0 x₁ x₂ h (ix2 r c) rfl rfl (ix2 ⟨r.val - 200, by have := r.isLt; omega⟩ c)
      (fun b hb => by match b with | ⟨0, _⟩ => exact absurd rfl hb | ⟨1, _⟩ => rfl)
      (by show r.val - 200 + 200 = r.val; omega)

/-- Each block of rows multiplied with one support, then stacked, is the stacked rows' product with it. -/
theorem stack2_mm {k p : Nat} (a0 a1 : Mat 200 k) (s : Mat k p) :
    stack2 (mm a0 s) (mm a1 s) = mm (stack2 a0 a1) s := by
  funext i
  obtain ⟨r, c, rfl⟩ : ∃ (r : Fin 400) (c : Fin p), i = ix2 r c := ⟨i 0, i 1, eq_ix2 i⟩
  by_cases hr : r.val < 200
  · rw [stack2_lt _ _ r c hr]
    show ∑ l : Fin k, a0 (ix2 ⟨r.val, hr⟩ l) * s (ix2 l c) = ∑ l : Fin k, stack2 a0 a1 (ix2 r l) * s (ix2 l c)
    refine Finset.sum_congr rfl fun l _ => ?_
    rw [stack2_lt a0 a1 r l hr]
  · rw [stack2_ge _ _ r c hr]
    show ∑ l : Fin k, a1 (ix2 ⟨r.val - 200, _⟩ l) * s (ix2 l c) = ∑ l : Fin k, stack2 a0 a1 (ix2 r l) * s (ix2 l c)
    refine Finset.sum_congr rfl fun l _ => ?_
    rw [stack2_ge a0 a1 r l hr]

/-- One 400-row tile of a graph-convolution layer, as the kernel forms it: the two halves' products joined, the bias
    row added to every row, the hyperbolic tangent taken. -/
theorem tile_eq {p : Nat} (a0 a1 : Mat 200 10000) (s : Mat 10000 p) (b : Mat 1 p)
    (hc : Shape.Concatenates [(⟨2, ![200, p]⟩ : Shape), ⟨2, ![200, p]⟩] ⟨2, ![400, p]⟩ 0)
    (hb : (⟨2, ![1, p]⟩ : Shape).Broadcasts ⟨2, ![400, p]⟩) :
    (fun i => Ideal.tanh (concatenate ⟨2, ![400, p]⟩ 0 [⟨⟨2, ![200, p]⟩, mm a0 s⟩, ⟨⟨2, ![200, p]⟩, mm a1 s⟩] hc i
        + broadcastTo ⟨2, ![400, p]⟩ b hb i))
      = gc (stack2 a0 a1) s (row1 b) := by
  funext i
  obtain ⟨r, c, rfl⟩ : ∃ (r : Fin 400) (c : Fin p), i = ix2 r c := ⟨i 0, i 1, eq_ix2 i⟩
  show Ideal.tanh (_ + _) = _
  rw [concat_stack2, stack2_mm, broadcastTo_1b_ab_apply]
  rfl

/-! ## The payloads -/

theorem pay1_eq (x : Vec Ideal S10000x128 .f32) (W : Vec Ideal S128x128 .f32) :
    k0_pay1 (F := Ideal) x W = mm x W := by
  unfold k0_pay1
  dsimp only
  rw [shapeCast_self]
  exact matmul_plain (n := 10000) (k := 128) (p := 128) (φ₁ := .bf16) (φ₂ := .bf16) x W

theorem pay3_eq (x1 : Vec Ideal S10000x128 .f32) (W : Vec Ideal S128x64 .f32) :
    k0_pay3 (F := Ideal) x1 W = mm x1 W := by
  unfold k0_pay3
  dsimp only
  rw [shapeCast_self]
  exact matmul_plain (n := 10000) (k := 128) (p := 64) (φ₁ := .bf16) (φ₂ := .bf16) x1 W

theorem pay13_eq (v : Vec Ideal S400x128 .f32) (W : Vec Ideal S128x256 .f32) :
    k0_pay13 (F := Ideal) v W = mm v W := by
  unfold k0_pay13
  dsimp only
  rw [shapeCast_self]
  exact matmul_plain (n := 400) (k := 128) (p := 256) (φ₁ := .bf16) (φ₂ := .bf16) v W

theorem pay2_eq (a0 : Vec Ideal S200x10000 .f32) (s : Vec Ideal S10000x128 .bf16) (a1 : Vec Ideal S200x10000 .f32)
    (b : Vec Ideal S1x128 .f32) :
    k0_pay2 (F := Ideal) a0 s a1 s b = gc (stack2 a0 a1) s (row1 b) := by
  unfold k0_pay2
  dsimp only
  rw [shapeCast_self, shapeCast_self]
  have h0 : matmul (F := Ideal) dot_S200x10000_S10000x128_S200x128_1_0_0_1_n_n none a0 (extf .f32 s bitsLt_bf16_f32)
      (constant (F := Ideal) S200x128 .f32 0x00000000#32) = mm a0 s :=
    matmul_plain (n := 200) (k := 10000) (p := 128) (φ₁ := .f32) (φ₂ := .f32) a0 s
  have h1 : matmul (F := Ideal) dot_S200x10000_S10000x128_S200x128_1_0_0_1_n_n none a1 (extf .f32 s bitsLt_bf16_f32)
      (constant (F := Ideal) S200x128 .f32 0x00000000#32) = mm a1 s :=
    matmul_plain (n := 200) (k := 10000) (p := 128) (φ₁ := .f32) (φ₂ := .f32) a1 s
  rw [h0, h1]
  exact tile_eq a0 a1 s b concatenates_S200x128_S200x128_S400x128_d0 broadcasts_S1x128_S400x128

theorem pay5_eq (a0 : Vec Ideal S200x10000 .f32) (s : Vec Ideal S10000x64 .bf16) (a1 : Vec Ideal S200x10000 .f32)
    (b : Vec Ideal S1x64 .f32) :
    k0_pay5 (F := Ideal) a0 s a1 s b = gc (stack2 a0 a1) s (row1 b) := by
  unfold k0_pay5
  dsimp only
  rw [shapeCast_self]
  have h0 : matmul (F := Ideal) dot_S200x10000_S10000x64_S200x64_1_0_0_1_n_n none a0 (extf .f32 s bitsLt_bf16_f32)
      (constant (F := Ideal) S200x64 .f32 0x00000000#32) = mm a0 s :=
    matmul_plain (n := 200) (k := 10000) (p := 64) (φ₁ := .f32) (φ₂ := .f32) a0 s
  have h1 : matmul (F := Ideal) dot_S200x10000_S10000x64_S200x64_1_0_0_1_n_n none a1 (extf .f32 s bitsLt_bf16_f32)
      (constant (F := Ideal) S200x64 .f32 0x00000000#32) = mm a1 s :=
    matmul_plain (n := 200) (k := 10000) (p := 64) (φ₁ := .f32) (φ₂ := .f32) a1 s
  rw [h0, h1]
  exact tile_eq a0 a1 s b concatenates_S200x64_S200x64_S400x64_d0 broadcasts_S1x64_S400x64

theorem pay6_eq (v15 : Vec Ideal S400x128 .f32) (a0 : Vec Ideal S200x10000 .f32) (s : Vec Ideal S10000x64 .bf16)
    (a1 : Vec Ideal S200x10000 .f32) (b : Vec Ideal S1x64 .f32) (Wa : Vec Ideal S128x256 .f32) (Wb : Vec Ideal S64x256 .f32) :
    k0_pay6 (F := Ideal) v15 a0 s a1 s b Wa Wb = fun i => mm v15 Wa i + mm (gc (stack2 a0 a1) s (row1 b)) Wb i := by
  unfold k0_pay6
  dsimp only
  rw [shapeCast_self, shapeCast_self, pay5_eq]
  have h0 : matmul (F := Ideal) dot_S400x128_S128x256_S400x256_1_0_0_1_n_n none (truncf .bf16 v15 bitsLt_bf16_f32)
      (truncf .bf16 Wa bitsLt_bf16_f32) (constant (F := Ideal) S400x256 .f32 0x00000000#32) = mm v15 Wa :=
    matmul_plain (n := 400) (k := 128) (p := 256) (φ₁ := .bf16) (φ₂ := .bf16) v15 Wa
  have h1 : matmul (F := Ideal) dot_S400x64_S64x256_S400x256_1_0_0_1_n_n none
      (truncf .bf16 (gc (stack2 a0 a1) s (row1 b)) bitsLt_bf16_f32) (truncf .bf16 Wb bitsLt_bf16_f32)
      (constant (F := Ideal) S400x256 .f32 0x00000000#32) = mm (gc (stack2 a0 a1) s (row1 b)) Wb :=
    matmul_plain (n := 400) (k := 64) (p := 256) (φ₁ := .bf16) (φ₂ := .bf16) (gc (stack2 a0 a1) s (row1 b)) Wb
  rw [h0, h1]
  rfl

end Cert.KPay

end
-- ==== Proof.KPayB.lean ====
/-
  The kernel body's head payloads at the exact instance: a reshape to the same shape is the identity; a stage
  "add the bias, normalise with running statistics, relu, multiply by the next weight, add its bias" and the
  reconstruction head's three linear stages, as the specification's functions of their operands.
-/
import proofs.«124129_g73521250173546_cont_sun_c4_545_19_alg».proof.Proof.Gen.KernelIdeal.Skeleton
import proofs.«124129_g73521250173546_cont_sun_c4_545_19_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KPay

open Idealize.ShloMosaic Idealize.ShloMosaic.ValueIdx Cert.KernelIdeal Cert.KernelIdeal.Gen Cert.Spec

/-! ### The product of a 400 × 64 array and a 64 × 256 array -/

theorem lhs_64_256_0 (i : S400x256.Idx) (q : dot_S400x64_S64x256_S400x256_1_0_0_1_n_n.contr.Idx) :
    (dot_S400x64_S64x256_S400x256_1_0_0_1_n_n.lhsIdx i q 0).val = (i 0).val := by
  unfold DotDims.lhsIdx
  rw [dif_neg (show ¬(0 : Fin S400x64.rank) ∈ dot_S400x64_S64x256_S400x256_1_0_0_1_n_n.lhsBatch by decide), dif_pos (show (0 : Fin S400x64.rank) ∈ dot_S400x64_S64x256_S400x256_1_0_0_1_n_n.lhsNonContracting by decide)]
  rfl
theorem lhs_64_256_1 (i : S400x256.Idx) (q : dot_S400x64_S64x256_S400x256_1_0_0_1_n_n.contr.Idx) :
    (dot_S400x64_S64x256_S400x256_1_0_0_1_n_n.lhsIdx i q 1).val = (q ⟨0, by decide⟩).val :=
  dot_S400x64_S64x256_S400x256_1_0_0_1_n_n.lhsIdx_val_of_single rfl i q
theorem rhs_64_256_0 (i : S400x256.Idx) (q : dot_S400x64_S64x256_S400x256_1_0_0_1_n_n.contr.Idx) :
    (dot_S400x64_S64x256_S400x256_1_0_0_1_n_n.rhsIdx i q 0).val = (q ⟨0, by decide⟩).val :=
  dot_S400x64_S64x256_S400x256_1_0_0_1_n_n.rhsIdx_val_of_single rfl i q
theorem rhs_64_256_1 (i : S400x256.Idx) (q : dot_S400x64_S64x256_S400x256_1_0_0_1_n_n.contr.Idx) :
    (dot_S400x64_S64x256_S400x256_1_0_0_1_n_n.rhsIdx i q 1).val = (i 1).val := by
  unfold DotDims.rhsIdx
  rw [dif_neg (show ¬(1 : Fin S64x256.rank) ∈ dot_S400x64_S64x256_S400x256_1_0_0_1_n_n.rhsBatch by decide), dif_pos (show (1 : Fin S64x256.rank) ∈ dot_S400x64_S64x256_S400x256_1_0_0_1_n_n.rhsNonContracting by decide)]
  rfl

/-- The kernel's product into a zero accumulator, read at an index, is the sum over the 64 shared coordinates. -/
theorem matmul_64_256 (a : FVec Ideal S400x64 .bf16) (w : FVec Ideal S64x256 .bf16) (i : S400x256.Idx) :
    matmul dot_S400x64_S64x256_S400x256_1_0_0_1_n_n none a w (constant (F := Ideal) S400x256 .f32 0x00000000#32) i = mm a w i := by
  simp only [matmul]
  rw [Ideal.matmul_constant_zero_apply, ← Equiv.sum_comp (contrEquiv1 dot_S400x64_S64x256_S400x256_1_0_0_1_n_n 64 rfl rfl).symm]
  unfold mm
  refine Finset.sum_congr rfl fun k _ => ?_
  have hk := contrEquiv1_symm_val dot_S400x64_S64x256_S400x256_1_0_0_1_n_n 64 rfl rfl k
  have el : dot_S400x64_S64x256_S400x256_1_0_0_1_n_n.lhsIdx i ((contrEquiv1 dot_S400x64_S64x256_S400x256_1_0_0_1_n_n 64 rfl rfl).symm k) = ix2 (i 0) k := funext fun a => Fin.ext (by
    match a with
    | ⟨0, _⟩ => exact lhs_64_256_0 _ _
    | ⟨1, _⟩ => exact (lhs_64_256_1 _ _).trans hk)
  have er : dot_S400x64_S64x256_S400x256_1_0_0_1_n_n.rhsIdx i ((contrEquiv1 dot_S400x64_S64x256_S400x256_1_0_0_1_n_n 64 rfl rfl).symm k) = ix2 k (i 1) := funext fun a => Fin.ext (by
    match a with
    | ⟨0, _⟩ => exact (rhs_64_256_0 _ _).trans hk
    | ⟨1, _⟩ => exact rhs_64_256_1 _ _)
  rw [el, er]
  rfl

theorem mm_64_256 (a : FVec Ideal S400x64 .bf16) (w : FVec Ideal S64x256 .bf16) :
    matmul dot_S400x64_S64x256_S400x256_1_0_0_1_n_n none a w (constant (F := Ideal) S400x256 .f32 0x00000000#32) = mm a w :=
  funext (matmul_64_256 a w)

/-! ### The product of a 400 × 256 array and a 256 × 128 array -/

theorem lhs_256_128_0 (i : S400x128.Idx) (q : dot_S400x256_S256x128_S400x128_1_0_0_1_n_n.contr.Idx) :
    (dot_S400x256_S256x128_S400x128_1_0_0_1_n_n.lhsIdx i q 0).val = (i 0).val := by
  unfold DotDims.lhsIdx
  rw [dif_neg (show ¬(0 : Fin S400x256.rank) ∈ dot_S400x256_S256x128_S400x128_1_0_0_1_n_n.lhsBatch by decide), dif_pos (show (0 : Fin S400x256.rank) ∈ dot_S400x256_S256x128_S400x128_1_0_0_1_n_n.lhsNonContracting by decide)]
  rfl
theorem lhs_256_128_1 (i : S400x128.Idx) (q : dot_S400x256_S256x128_S400x128_1_0_0_1_n_n.contr.Idx) :
    (dot_S400x256_S256x128_S400x128_1_0_0_1_n_n.lhsIdx i q 1).val = (q ⟨0, by decide⟩).val :=
  dot_S400x256_S256x128_S400x128_1_0_0_1_n_n.lhsIdx_val_of_single rfl i q
theorem rhs_256_128_0 (i : S400x128.Idx) (q : dot_S400x256_S256x128_S400x128_1_0_0_1_n_n.contr.Idx) :
    (dot_S400x256_S256x128_S400x128_1_0_0_1_n_n.rhsIdx i q 0).val = (q ⟨0, by decide⟩).val :=
  dot_S400x256_S256x128_S400x128_1_0_0_1_n_n.rhsIdx_val_of_single rfl i q
theorem rhs_256_128_1 (i : S400x128.Idx) (q : dot_S400x256_S256x128_S400x128_1_0_0_1_n_n.contr.Idx) :
    (dot_S400x256_S256x128_S400x128_1_0_0_1_n_n.rhsIdx i q 1).val = (i 1).val := by
  unfold DotDims.rhsIdx
  rw [dif_neg (show ¬(1 : Fin S256x128.rank) ∈ dot_S400x256_S256x128_S400x128_1_0_0_1_n_n.rhsBatch by decide), dif_pos (show (1 : Fin S256x128.rank) ∈ dot_S400x256_S256x128_S400x128_1_0_0_1_n_n.rhsNonContracting by decide)]
  rfl

/-- The kernel's product into a zero accumulator, read at an index, is the sum over the 256 shared coordinates. -/
theorem matmul_256_128 (a : FVec Ideal S400x256 .bf16) (w : FVec Ideal S256x128 .bf16) (i : S400x128.Idx) :
    matmul dot_S400x256_S256x128_S400x128_1_0_0_1_n_n none a w (constant (F := Ideal) S400x128 .f32 0x00000000#32) i = mm a w i := by
  simp only [matmul]
  rw [Ideal.matmul_constant_zero_apply, ← Equiv.sum_comp (contrEquiv1 dot_S400x256_S256x128_S400x128_1_0_0_1_n_n 256 rfl rfl).symm]
  unfold mm
  refine Finset.sum_congr rfl fun k _ => ?_
  have hk := contrEquiv1_symm_val dot_S400x256_S256x128_S400x128_1_0_0_1_n_n 256 rfl rfl k
  have el : dot_S400x256_S256x128_S400x128_1_0_0_1_n_n.lhsIdx i ((contrEquiv1 dot_S400x256_S256x128_S400x128_1_0_0_1_n_n 256 rfl rfl).symm k) = ix2 (i 0) k := funext fun a => Fin.ext (by
    match a with
    | ⟨0, _⟩ => exact lhs_256_128_0 _ _
    | ⟨1, _⟩ => exact (lhs_256_128_1 _ _).trans hk)
  have er : dot_S400x256_S256x128_S400x128_1_0_0_1_n_n.rhsIdx i ((contrEquiv1 dot_S400x256_S256x128_S400x128_1_0_0_1_n_n 256 rfl rfl).symm k) = ix2 k (i 1) := funext fun a => Fin.ext (by
    match a with
    | ⟨0, _⟩ => exact (rhs_256_128_0 _ _).trans hk
    | ⟨1, _⟩ => exact rhs_256_128_1 _ _)
  rw [el, er]
  rfl

theorem mm_256_128 (a : FVec Ideal S400x256 .bf16) (w : FVec Ideal S256x128 .bf16) :
    matmul dot_S400x256_S256x128_S400x128_1_0_0_1_n_n none a w (constant (F := Ideal) S400x128 .f32 0x00000000#32) = mm a w :=
  funext (matmul_256_128 a w)

/-! ### The product of a 400 × 128 array and a 128 × 128 array -/

theorem lhs_128_128_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhs_128_128_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhs_128_128_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhs_128_128_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The kernel's product into a zero accumulator, read at an index, is the sum over the 128 shared coordinates. -/
theorem matmul_128_128 (a : FVec Ideal S400x128 .bf16) (w : FVec Ideal S128x128 .bf16) (i : S400x128.Idx) :
    matmul dot_S400x128_S128x128_S400x128_1_0_0_1_n_n none a w (constant (F := Ideal) S400x128 .f32 0x00000000#32) i = mm a w i := by
  simp only [matmul]
  rw [Ideal.matmul_constant_zero_apply, ← Equiv.sum_comp (contrEquiv1 dot_S400x128_S128x128_S400x128_1_0_0_1_n_n 128 rfl rfl).symm]
  unfold mm
  refine Finset.sum_congr rfl fun k _ => ?_
  have hk := contrEquiv1_symm_val dot_S400x128_S128x128_S400x128_1_0_0_1_n_n 128 rfl rfl k
  have el : dot_S400x128_S128x128_S400x128_1_0_0_1_n_n.lhsIdx i ((contrEquiv1 dot_S400x128_S128x128_S400x128_1_0_0_1_n_n 128 rfl rfl).symm k) = ix2 (i 0) k := funext fun a => Fin.ext (by
    match a with
    | ⟨0, _⟩ => exact lhs_128_128_0 _ _
    | ⟨1, _⟩ => exact (lhs_128_128_1 _ _).trans hk)
  have er : dot_S400x128_S128x128_S400x128_1_0_0_1_n_n.rhsIdx i ((contrEquiv1 dot_S400x128_S128x128_S400x128_1_0_0_1_n_n 128 rfl rfl).symm k) = ix2 k (i 1) := funext fun a => Fin.ext (by
    match a with
    | ⟨0, _⟩ => exact (rhs_128_128_0 _ _).trans hk
    | ⟨1, _⟩ => exact rhs_128_128_1 _ _)
  rw [el, er]
  rfl

theorem mm_128_128 (a : FVec Ideal S400x128 .bf16) (w : FVec Ideal S128x128 .bf16) :
    matmul dot_S400x128_S128x128_S400x128_1_0_0_1_n_n none a w (constant (F := Ideal) S400x128 .f32 0x00000000#32) = mm a w :=
  funext (matmul_128_128 a w)

/-! ### The pointwise and layout operations, as functions -/

/-- A change of float format is the identity. -/
theorem truncf_bf16 {s : Shape} (X : FVec Ideal s .f32) (h : FTy.bits .bf16 < FTy.bits .f32) :
    (truncf .bf16 X h : FVec Ideal s .bf16) = X := rfl

/-- A 1 × p array broadcast over n rows reads its one row at the column. -/
theorem bias_rows {n p : Nat} (b : FVec Ideal ⟨2, ![1, p]⟩ .f32) (h : (⟨2, ![1, p]⟩ : Shape).Broadcasts ⟨2, ![n, p]⟩) :
    broadcastTo ⟨2, ![n, p]⟩ b h = fun i => b (ix2 0 (i 1)) := by
  funext i
  obtain ⟨r, c, rfl⟩ : ∃ (r : Fin n) (c : Fin p), i = ix2 r c := ⟨i 0, i 1, eq_ix2 i⟩
  exact broadcastTo_1b_ab_apply b h r c

/-- The maximum with the zero word, entry by entry, is the specification's relu. -/
theorem maximumf_zero {n p : Nat} (X : FVec Ideal ⟨2, ![n, p]⟩ .f32) :
    maximumf X (broadcast ⟨2, ![n, p]⟩ (Scalar.ofBits (F := Ideal) .f32 0x00000000#32)) = relu X := by
  funext i
  simp only [maximumf_apply, broadcast_apply, Ideal.ofBits_def, Ideal.ofBits_zero_f32]
  rfl

/-! ### The payloads -/

theorem pay7_eq (v : Vec Ideal S1x256 .f32) : k0_pay7 (F := Ideal) v = v := by
  unfold k0_pay7
  exact shapeCast_self v _
theorem pay9_eq (v : Vec Ideal S1x128 .f32) : k0_pay9 (F := Ideal) v = v := by
  unfold k0_pay9
  exact shapeCast_self v _
theorem pay10_eq (v : Vec Ideal S1x128 .f32) : k0_pay10 (F := Ideal) v = v := by
  unfold k0_pay10
  exact shapeCast_self v _
theorem pay11_eq (v : Vec Ideal S1x128 .f32) : k0_pay11 (F := Ideal) v = v := by
  unfold k0_pay11
  exact shapeCast_self v _

theorem pay8_eq (v42 : FVec Ideal S400x256 .f32) (c1b : FVec Ideal S1x256 .f32) (g b rm rv : Vec Ideal S1x256 .f32)
    (W : Vec Ideal S256x128 .f32) (bias : Vec Ideal S1x128 .f32) :
    k0_pay8 (F := Ideal) v42 c1b g b rm rv W bias
      = linM (relu (bn (fun i => v42 i + c1b (ix2 0 (i 1))) (row1 g) (row1 b) (row1 rm) (row1 rv))) W bias := by
  unfold k0_pay8
  simp only [shapeCast_self, truncf_bf16, mm_256_128, bias_rows, maximumf_zero]
  rfl

theorem pay4_eq (x2 : FVec Ideal S400x64 .f32) (v124 : FVec Ideal S400x256 .f32) (Wb : Vec Ideal S64x256 .f32)
    (b1 : Vec Ideal S1x256 .f32) (W2 : Vec Ideal S256x128 .f32) (b2 : Vec Ideal S1x128 .f32)
    (W3 : Vec Ideal S128x128 .f32) (b3 : Vec Ideal S1x128 .f32) :
    k0_pay4 (F := Ideal) x2 v124 Wb b1 W2 b2 W3 b3
      = linM (relu (linM (relu (fun i => (v124 i + mm x2 Wb i) + b1 (ix2 0 (i 1)))) W2 b2)) W3 b3 := by
  unfold k0_pay4
  simp only [shapeCast_self, truncf_bf16, mm_64_256, mm_256_128, mm_128_128, bias_rows, maximumf_zero]
  rfl

end Cert.KPay

end
-- ==== Proof.KPayC.lean ====
/-
  The classifier's last payload at the exact instance: normalise with running statistics, relu, the last linear map,
  and the row-wise log-softmax in its shifted form — the row maximum a fold of max from −∞ over the ten classes, the
  normaliser a sum of ten exponentials — as the specification's functions of its operands.
-/
import proofs.«124129_g73521250173546_cont_sun_c4_545_19_alg».proof.Proof.Gen.KernelIdeal.Skeleton
import proofs.«124129_g73521250173546_cont_sun_c4_545_19_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KPay

open Idealize.ShloMosaic Idealize.ShloMosaic.ValueIdx Cert.KernelIdeal Cert.KernelIdeal.Gen Cert.Spec

/-! ## The pointwise functions at an index -/

/-- The square root of an array reads, at an index, the square root of the entry. -/
theorem sqrt_apply {s : Shape} (a : FVec Ideal s .f32) (i : s.Idx) : sqrt a i = Ideal.sqrt (a i) := rfl
/-- The exponential of an array reads, at an index, the exponential of the entry. -/
theorem exp_apply {s : Shape} (a : FVec Ideal s .f32) (i : s.Idx) : exp a i = Ideal.exp (a i) := rfl
/-- The logarithm of an array reads, at an index, the logarithm of the entry. -/
theorem log_apply {s : Shape} (a : FVec Ideal s .f32) (i : s.Idx) : log a i = Ideal.log (a i) := rfl

/-! ## A column kept as a unit axis -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of 400 kept as a 400 × 1 column and spread over ten columns reads, at (p, q), the vector at p. -/
theorem column_apply (m : FVec Ideal S400 .f32) (hc : S400.ShapeCasts S400x1) (hb : S400x1.Broadcasts S400x10)
    (p : Fin 400) (q : Fin 10) :
    broadcastTo S400x10 (shapeCast S400x1 m hc) hb (ix2 p q) = m (ix1 p) := by
  rw [broadcastTo_a1_ab_apply, shapeCast_a_a1_apply]

/-! ## The two row reductions -/

/-- The single-precision word of −∞ is the bottom of the extended reals. -/
theorem ofBits_neg_inf_f32 : Ideal.ofBits .f32 0xFF800000#32 = ⊥ := by
  simp [Ideal.ofBits, Ideal.ieee]

/-- The index the row reduction inserts: row p, column k. -/
theorem lift_row (hr : S400x10.Reduces [1] S400) (p : Fin 400) (k : Fin 10) :
    hr.lift (ix1 p) k = ix2 p k :=
  funext fun a => Fin.ext (by match a with | ⟨0, _⟩ => rfl | ⟨1, _⟩ => rfl)

/-- The row maximum from −∞ over the ten columns. -/
theorem rowmax_apply (z : FVec Ideal S400x10 .f32) (hr : S400x10.Reduces [1] S400)
    (hφ : FTy.f32 = FTy.f32 ∨ FTy.f32 = FTy.bf16) (hacc : (0xFF800000#32 : BitVec 32) = 0xFF800000#32) (p : Fin 400) :
    multiReduction (F := Ideal) .maximumf [1] S400 z 0xFF800000#32 hr hφ hacc (ix1 p)
      = (Finset.univ : Finset (Fin 10)).fold max ⊥ (fun k => z (ix2 p k)) := by
  refine (Ideal.multiReduction_maximumf_single z 0xFF800000#32 hr hφ hacc (ix1 p)).trans ?_
  show (Finset.univ : Finset (Fin 10)).fold max (Ideal.ofBits .f32 0xFF800000#32) (fun k => z (hr.lift (ix1 p) k)) = _
  rw [ofBits_neg_inf_f32]
  exact congrArg (fun f : Fin 10 → EReal => (Finset.univ : Finset (Fin 10)).fold max ⊥ f)
    (funext fun k => congrArg z (lift_row hr p k))

/-- The row sum over the ten columns. -/
theorem rowsum_apply (e : FVec Ideal S400x10 .f32) (hr : S400x10.Reduces [1] S400)
    (hφ : FTy.f32 = FTy.f32 ∨ FTy.f32 = FTy.bf16) (hacc : (0x00000000#32 : BitVec 32) = 0x00000000#32) (p : Fin 400) :
    multiReduction (F := Ideal) .add [1] S400 e 0x00000000#32 hr hφ hacc (ix1 p) = ∑ k : Fin 10, e (ix2 p k) := by
  refine (Ideal.multiReduction_add_single e 0x00000000#32 hr hφ hacc (ix1 p)).trans ?_
  exact Finset.sum_congr rfl fun k _ => congrArg e (lift_row hr p k)

/-! ## The last product at an index -/

/-- The left operand's row coordinate is the output's row. -/
theorem lhs_last_0 (i : S400x10.Idx) (q : dot_S400x128_S128x10_S400x10_1_0_0_1_n_n.contr.Idx) :
    (dot_S400x128_S128x10_S400x10_1_0_0_1_n_n.lhsIdx i q 0).val = (i 0).val := by
  unfold DotDims.lhsIdx
  rw [dif_neg (show ¬(0 : Fin S400x128.rank) ∈ dot_S400x128_S128x10_S400x10_1_0_0_1_n_n.lhsBatch by decide), dif_pos (show (0 : Fin S400x128.rank) ∈ dot_S400x128_S128x10_S400x10_1_0_0_1_n_n.lhsNonContracting by decide)]
  rfl
/-- The left operand's column coordinate is the contracted coordinate. -/
theorem lhs_last_1 (i : S400x10.Idx) (q : dot_S400x128_S128x10_S400x10_1_0_0_1_n_n.contr.Idx) :
    (dot_S400x128_S128x10_S400x10_1_0_0_1_n_n.lhsIdx i q 1).val = (q ⟨0, by decide⟩).val :=
  dot_S400x128_S128x10_S400x10_1_0_0_1_n_n.lhsIdx_val_of_single rfl i q
/-- The right operand's row coordinate is the contracted coordinate. -/
theorem rhs_last_0 (i : S400x10.Idx) (q : dot_S400x128_S128x10_S400x10_1_0_0_1_n_n.contr.Idx) :
    (dot_S400x128_S128x10_S400x10_1_0_0_1_n_n.rhsIdx i q 0).val = (q ⟨0, by decide⟩).val :=
  dot_S400x128_S128x10_S400x10_1_0_0_1_n_n.rhsIdx_val_of_single rfl i q
/-- The right operand's column coordinate is the output's column. -/
theorem rhs_last_1 (i : S400x10.Idx) (q : dot_S400x128_S128x10_S400x10_1_0_0_1_n_n.contr.Idx) :
    (dot_S400x128_S128x10_S400x10_1_0_0_1_n_n.rhsIdx i q 1).val = (i 1).val := by
  unfold DotDims.rhsIdx
  rw [dif_neg (show ¬(1 : Fin S128x10.rank) ∈ dot_S400x128_S128x10_S400x10_1_0_0_1_n_n.rhsBatch by decide), dif_pos (show (1 : Fin S128x10.rank) ∈ dot_S400x128_S128x10_S400x10_1_0_0_1_n_n.rhsNonContracting by decide)]
  rfl

/-- The product of a 400 × 128 array with a 128 × 10 array into a zero accumulator, at (p, q): the sum over the 128
    contracted coordinates of row p against column q. -/
theorem matmul_last_apply (lhs : FVec Ideal S400x128 .bf16) (rhs : FVec Ideal S128x10 .bf16) (p : Fin 400) (q : Fin 10) :
    matmul (F := Ideal) dot_S400x128_S128x10_S400x10_1_0_0_1_n_n none lhs rhs (constant (F := Ideal) S400x10 .f32 0x00000000#32) (ix2 p q)
      = ∑ l : Fin 128, lhs (ix2 p l) * rhs (ix2 l q) := by
  simp only [matmul]
  rw [Ideal.matmul_constant_zero_apply, ← Equiv.sum_comp (ValueIdx.contrEquiv1 dot_S400x128_S128x10_S400x10_1_0_0_1_n_n 128 rfl rfl).symm]
  refine Finset.sum_congr rfl fun k _ => ?_
  have hk := ValueIdx.contrEquiv1_symm_val dot_S400x128_S128x10_S400x10_1_0_0_1_n_n 128 rfl rfl k
  have el : dot_S400x128_S128x10_S400x10_1_0_0_1_n_n.lhsIdx (ix2 p q) ((ValueIdx.contrEquiv1 dot_S400x128_S128x10_S400x10_1_0_0_1_n_n 128 rfl rfl).symm k) = ix2 p k := funext fun a => Fin.ext (by
    match a with
    | ⟨0, _⟩ => exact lhs_last_0 _ _
    | ⟨1, _⟩ => exact (lhs_last_1 _ _).trans hk)
  have er : dot_S400x128_S128x10_S400x10_1_0_0_1_n_n.rhsIdx (ix2 p q) ((ValueIdx.contrEquiv1 dot_S400x128_S128x10_S400x10_1_0_0_1_n_n 128 rfl rfl).symm k) = ix2 k q := funext fun a => Fin.ext (by
    match a with
    | ⟨0, _⟩ => exact (rhs_last_0 _ _).trans hk
    | ⟨1, _⟩ => exact rhs_last_1 _ _)
  rw [el, er]

/-! ## The payload -/

/-- The classifier's last payload is the specification's log-softmax of the last linear map of the normalised, rectified array. -/
theorem pay12_eq (v76 : FVec Ideal S400x128 .f32) (g b rm : FVec Ideal S1x128 .f32) (rv : Vec Ideal S1x128 .f32)
    (W : Vec Ideal S128x10 .f32) (bias : Vec Ideal S1x10 .f32) :
    k0_pay12 (F := Ideal) v76 g b rm rv W bias
      = logSoftmax (linM (relu (bn v76 (row1 g) (row1 b) (row1 rm) (row1 rv))) W bias) := by
  funext i
  obtain ⟨p, q, rfl⟩ : ∃ (p : Fin 400) (q : Fin 10), i = ix2 p q := ⟨i 0, i 1, eq_ix2 i⟩
  unfold k0_pay12
  simp only [subf_apply, column_apply, log_apply, exp_apply, sqrt_apply, addf_apply,
    mulf_apply, divf_apply, maximumf_apply, truncf_apply, broadcast_apply, shapeCast_self, matmul_last_apply,
    broadcastTo_1b_ab_apply, broadcastTo_a1_ab_apply, shapeCast_a_a1_apply]
  rw [rowsum_apply]
  simp only [subf_apply, column_apply, exp_apply, addf_apply, matmul_last_apply, truncf_apply, maximumf_apply,
    mulf_apply, divf_apply, sqrt_apply, broadcast_apply, broadcastTo_1b_ab_apply]
  rw [rowmax_apply]
  simp only [addf_apply, matmul_last_apply, truncf_apply, maximumf_apply, subf_apply,
    mulf_apply, divf_apply, sqrt_apply, broadcast_apply, broadcastTo_1b_ab_apply]
  simp only [Ideal.ofBits_def, Ideal.ofBits_zero_f32]
  rfl

end Cert.KPay

end
-- ==== Proof.KFinal.lean ====
/-
  The kernel's three result arrays are the specification's. The first support the kernel keeps is X·W₁; each row slab
  of its first-layer scratch is that layer's row tile (a layer's tile is the layer on the adjacency's row tile against
  the whole support), so the scratch is the first layer; the second support is X₁·W₂. At grid point t ≥ 25 the body
  computes, from row tile t − 25 of the adjacency and of the first layer, the second layer's tile and both heads on
  that tile, in the association `xc5_tile` / `xr5_tile` state: so each result block is rows 400(t − 25) … of the
  specification's result, and the 25 blocks cover the array.
-/
import proofs.«124129_g73521250173546_cont_sun_c4_545_19_alg».proof.Proof.KBlocks
import proofs.«124129_g73521250173546_cont_sun_c4_545_19_alg».proof.Proof.KPieces
import proofs.«124129_g73521250173546_cont_sun_c4_545_19_alg».proof.Proof.KPayA
import proofs.«124129_g73521250173546_cont_sun_c4_545_19_alg».proof.Proof.KPayB
import proofs.«124129_g73521250173546_cont_sun_c4_545_19_alg».proof.Proof.KPayC
import proofs.«124129_g73521250173546_cont_sun_c4_545_19_alg».proof.Proof.SpecTile

set_option maxRecDepth 16384

noncomputable section

open scoped BigOperators

namespace Cert.KValue

open Cert.KernelIdeal Cert.KernelIdeal.Gen Cert.KernelIdeal.Hand Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Rows taken from two equal offsets are the same rows. -/
theorem rows_congr {n p : Nat} (k r0 r0' : Nat) (h : r0 + k ≤ n) (h' : r0' + k ≤ n) (e : r0 = r0') (v : Mat n p) :
    rows k r0 h v = rows k r0' h' v := by
  subst e; rfl

theorem S1v_spec (c : Dev nD) : S1v m c = s1 (argsK m c) := by
  rw [S1v_eq m c, iblk_2 m c t0, iblk_3 m c t0]
  exact Cert.KPay.pay1_eq _ _

theorem X1full_spec (c : Dev nD) : X1full m c = x1 (argsK m c) := by
  funext idx
  rw [X1full_eq m c idx]
  simp only [Cert.KPay.pay2_eq]
  rw [iblk_adj m c, iblk_4 m c, S1v_spec m c]
  simp only [row1_asRow1]
  rw [x1_tile]
  refine congrArg (x1 (argsK m c)) (funext fun ax => ?_)
  match ax with
  | ⟨0, _⟩ => exact Fin.ext (by
      have := idx2_lt0 idx
      show 400 * ((idx 0).val / 400 % 25) + (idx 0).val % 400 = (idx 0).val
      omega)
  | ⟨1, _⟩ => rfl

theorem S2v_spec (c : Dev nD) : S2v m c = s2 (argsK m c) := by
  rw [S2v_eq m c, iblk_5 m c t25, X1full_spec m c]
  exact Cert.KPay.pay3_eq _ _

theorem x1slab_spec (c : Dev nD) (t : Fin cfg0.N) : x1slab m c t = x1Tile (argsK m c) ⟨t.val % 25, Nat.mod_lt _ (by norm_num)⟩ := by
  unfold x1slab
  rw [X1full_spec m c]
  rfl

theorem x2tile_spec (c : Dev nD) (t : Fin cfg0.N) : x2tile m c t = x2Tile (argsK m c) ⟨t.val % 25, Nat.mod_lt _ (by norm_num)⟩ := by
  unfold x2tile
  rw [Cert.KPay.pay5_eq, iblk_adj m c t, S2v_spec m c, iblk_6 m c t]
  simp only [row1_asRow1]
  exact x2_tile _ _

theorem out29_spec (c : Dev nD) (t : Fin cfg0.N) (ht : 25 ≤ t.val) :
    out29 m c t = rows 400 (400 * (t.val - 25)) (by have := lt_of_lt_of_eq t.isLt N_0; omega) (xc5 (argsK m c)) := by
  have hN : t.val < 50 := lt_of_lt_of_eq t.isLt N_0
  rw [out29_pay m c t ht, Cert.KPay.pay12_eq, Cert.KPay.pay8_eq, Cert.KPay.pay6_eq, Cert.KPay.pay7_eq, Cert.KPay.pay9_eq,
    Cert.KPay.pay10_eq, Cert.KPay.pay11_eq, x1slab_spec m c t, iblk_adj m c t, S2v_spec m c,
    iblk_6 m c t, iblk_7 m c t, iblk_8 m c t, iblk_9 m c t, iblk_10 m c t, iblk_11 m c t, iblk_12 m c t, iblk_13 m c t, iblk_14 m c t, iblk_15 m c t, iblk_16 m c t, iblk_17 m c t, iblk_18 m c t, iblk_19 m c t, iblk_20 m c t, iblk_21 m c t]
  simp only [row1_asRow1]
  rw [x2_tile]
  exact (xc5_tile _ _).trans (rows_congr _ _ _ _ _ (by show 400 * (t.val % 25) = 400 * (t.val - 25); omega) _)

theorem out30_spec (c : Dev nD) (t : Fin cfg0.N) (ht : 25 ≤ t.val) :
    out30 m c t = rows 400 (400 * (t.val - 25)) (by have := lt_of_lt_of_eq t.isLt N_0; omega) (xr5 (argsK m c)) := by
  have hN : t.val < 50 := lt_of_lt_of_eq t.isLt N_0
  rw [out30_pay m c t ht, Cert.KPay.pay4_eq, Cert.KPay.pay13_eq, x1slab_spec m c t, x2tile_spec m c t,
    iblk_22 m c t, iblk_23 m c t, iblk_24 m c t, iblk_25 m c t, iblk_26 m c t, iblk_27 m c t, iblk_28 m c t]
  exact (xr5_tile _ _).trans (rows_congr _ _ _ _ _ (by show 400 * (t.val % 25) = 400 * (t.val - 25); omega) _)

theorem out31_spec (c : Dev nD) (t : Fin cfg0.N) (ht : 25 ≤ t.val) :
    out31 m c t = rows 400 (400 * (t.val - 25)) (by have := lt_of_lt_of_eq t.isLt N_0; omega) (zn (argsK m c)) := by
  have hN : t.val < 50 := lt_of_lt_of_eq t.isLt N_0
  refine Eq.trans ?_ ((rows_congr _ _ _ _ _ (by show 400 * (t.val % 25) = 400 * (t.val - 25); omega) _).symm.trans
    (zn_tile (argsK m c) ⟨t.val % 25, Nat.mod_lt _ (by norm_num)⟩)).symm
  funext y
  rw [out31_pay m c t ht y, x1slab_spec m c t, x2tile_spec m c t]
  rfl

/-- The three result arrays after the run. -/
theorem final29 (c : Dev nD) :
    (dats m 0 c).arrAt 29 cfg0.N = (xc5 (argsK m c) : Buf (Elt Ideal) ((cfg0.win 29).arr.view.loc (c.tc : Thread nD τ))) :=
  (dats m 0 c).arrAt_eq_of_cover 29 _ (fun t hf => by
    have ht : 25 ≤ t.val := (flush29_iff t).mp hf
    show (cfg0.win 29).cut (cfg0.grid.coords t) ((dats m 0 c).after 29 t) = _
    rw [after0_29 m c t, out29_spec m c t ht, blk29_read c t ht]
    all_goals rfl) (cover29 c)
theorem final30 (c : Dev nD) :
    (dats m 0 c).arrAt 30 cfg0.N = (xr5 (argsK m c) : Buf (Elt Ideal) ((cfg0.win 30).arr.view.loc (c.tc : Thread nD τ))) :=
  (dats m 0 c).arrAt_eq_of_cover 30 _ (fun t hf => by
    have ht : 25 ≤ t.val := (flush30_iff t).mp hf
    show (cfg0.win 30).cut (cfg0.grid.coords t) ((dats m 0 c).after 30 t) = _
    rw [after0_30 m c t, out30_spec m c t ht, blk30_read c t ht]
    all_goals rfl) (cover30 c)
theorem final31 (c : Dev nD) :
    (dats m 0 c).arrAt 31 cfg0.N = (zn (argsK m c) : Buf (Elt Ideal) ((cfg0.win 31).arr.view.loc (c.tc : Thread nD τ))) :=
  (dats m 0 c).arrAt_eq_of_cover 31 _ (fun t hf => by
    have ht : 25 ≤ t.val := (flush31_iff t).mp hf
    show (cfg0.win 31).cut (cfg0.grid.coords t) ((dats m 0 c).after 31 t) = _
    rw [after0_31 m c t, out31_spec m c t ht, blk31_read c t ht]
    all_goals rfl) (cover31 c)

end Cert.KValue

end
-- ==== Proof.RefImports.lean ====
/-
  The reference's run and its stages read at an index, imported here once so that the modules that compare the
  reference with the specification share them.
-/
import proofs.«124129_g73521250173546_cont_sun_c4_545_19_alg».proof.Proof.RefRun
import proofs.«124129_g73521250173546_cont_sun_c4_545_19_alg».proof.Proof.RefRead
-- ==== Proof.RefValue.lean ====
/-
  The reference program at the exact instance ends with its three results at the specification's functions of its
  arguments: stage by stage its host operations are the specification's — a dot_general with one contracted axis the
  textbook product, a broadcast of a vector along rows the bias added to every row, the outlined relu max(·, 0), the
  outlined log-softmax the shifted form with the row maximum taken from −∞ and the normaliser summed from 0.
-/
import proofs.«124129_g73521250173546_cont_sun_c4_545_19_alg».proof.Proof.RefImports
import proofs.«124129_g73521250173546_cont_sun_c4_545_19_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefSide

open Idealize.ShloMosaic Idealize.ShloMosaic.TcCoe Idealize.SL.Sem Idealize.ShloMosaic.ValueIdx Cert.Spec

section Stages

open Cert.ReferenceIdeal Cert.ReferenceIdeal.Gen Cert.ReferenceIdeal.Read

/-! ## The two graph-convolution layers and their concatenation -/

/-- The first support is the product X·W₁. -/
theorem ref_s1 (a : Args) : val_main_v0 (F := Ideal) a.x a.gc1W = s1 a := by
  funext i
  rw [val_main_v0_apply]
  show _ = ∑ l : Fin 128, a.x (ix2 (i 0) l) * a.gc1W (ix2 l (i 1))
  refine Finset.sum_congr rfl fun k _ => ?_
  congr 2 <;> exact funext fun d => Fin.ext (by match d with | ⟨0, _⟩ => rfl | ⟨1, _⟩ => rfl)

/-- The first layer is tanh(A·(X·W₁) + b₁), the bias added to every row. -/
theorem ref_x1 (a : Args) : val_main_v5 (F := Ideal) a.x a.adj a.gc1W a.gc1b = x1 a := by
  funext i
  rw [val_main_v5_apply, val_main_v4_apply, val_main_v1_apply, val_main_v3_apply, val_main_v2_apply, ref_s1 a]
  show Ideal.tanh ((∑ k : Fin 10000, _) + _)
    = Ideal.tanh ((∑ l : Fin 10000, a.adj (ix2 (i 0) l) * s1 a (ix2 l (i 1))) + a.gc1b (ix1 (i 1)))
  congr 2
  · refine Finset.sum_congr rfl fun k _ => ?_
    congr 2 <;> exact funext fun d => Fin.ext (by match d with | ⟨0, _⟩ => rfl | ⟨1, _⟩ => rfl)
  · exact congrArg a.gc1b (funext fun d => Fin.ext (by match d with | ⟨0, _⟩ => rfl))

/-- The second support is the product X₁·W₂. -/
theorem ref_s2 (a : Args) : val_main_v6 (F := Ideal) a.x a.adj a.gc1W a.gc1b a.gc2W = s2 a := by
  funext i
  rw [val_main_v6_apply, ref_x1 a]
  show _ = ∑ l : Fin 128, x1 a (ix2 (i 0) l) * a.gc2W (ix2 l (i 1))
  refine Finset.sum_congr rfl fun k _ => ?_
  congr 2 <;> exact funext fun d => Fin.ext (by match d with | ⟨0, _⟩ => rfl | ⟨1, _⟩ => rfl)

/-- The second layer is tanh(A·(X₁·W₂) + b₂). -/
theorem ref_x2 (a : Args) : val_main_v11 (F := Ideal) a.x a.adj a.gc1W a.gc1b a.gc2W a.gc2b = x2 a := by
  funext i
  rw [val_main_v11_apply, val_main_v10_apply, val_main_v7_apply, val_main_v9_apply, val_main_v8_apply, ref_s2 a]
  show Ideal.tanh ((∑ k : Fin 10000, _) + _)
    = Ideal.tanh ((∑ l : Fin 10000, a.adj (ix2 (i 0) l) * s2 a (ix2 l (i 1))) + a.gc2b (ix1 (i 1)))
  congr 2
  · refine Finset.sum_congr rfl fun k _ => ?_
    congr 2 <;> exact funext fun d => Fin.ext (by match d with | ⟨0, _⟩ => rfl | ⟨1, _⟩ => rfl)
  · exact congrArg a.gc2b (funext fun d => Fin.ext (by match d with | ⟨0, _⟩ => rfl))

/-- Two arrays joined along the columns, 128 columns then 64: a column below 128 reads the first array, a column from
    128 on reads the second array 128 columns to the left. -/
theorem concat_cols (h : Shape.Concatenates [S10000x128, S10000x64] S10000x192 1) (u : Mat 10000 128) (v : Mat 10000 64) :
    concatenate S10000x192 1 [⟨S10000x128, u⟩, ⟨S10000x64, v⟩] h = cat u v := by
  funext i
  unfold cat
  by_cases hi : (i 1).val < 128
  · rw [dif_pos hi]
    exact concatenate_pair_apply_left 1 u v h i rfl (ix2 (i 0) ⟨(i 1).val, hi⟩)
      (fun b => by match b with | ⟨0, _⟩ => rfl | ⟨1, _⟩ => rfl)
  · rw [dif_neg hi]
    have hlt : (i 1).val - 128 < 64 := by
      have := (i 1).isLt; simp only [Matrix.cons_val_one, Matrix.cons_val_zero] at this; omega
    refine concatenate_pair_apply_right 1 u v h i rfl rfl (ix2 (i 0) ⟨(i 1).val - 128, hlt⟩) (fun b hb => ?hb) ?ha
    case hb =>
      match b with
      | ⟨0, _⟩ => rfl
      | ⟨1, _⟩ => exact absurd rfl hb
    case ha =>
      show (i 1).val - 128 + 128 = (i 1).val
      omega

/-- The third result: the two layers side by side. -/
theorem ref_zn (a : Args) : val_main_v12 (F := Ideal) a.x a.adj a.gc1W a.gc1b a.gc2W a.gc2b = zn a := by
  unfold val_main_v12
  rw [ref_x1 a, ref_x2 a]
  exact concat_cols _ (x1 a) (x2 a)

/-! ## The classifier head -/

/-- The first linear map of the classifier head: Z·W₁ᵀ + b, the stored weight read row by row. -/
theorem ref_c1 (a : Args) : val_main_v17 (F := Ideal) a.x a.adj a.gc1W a.gc1b a.gc2W a.gc2b a.c1W a.c1b = lin (zn a) a.c1W a.c1b := by
  funext i
  rw [val_main_v17_apply, val_main_v14_apply, val_main_v16_apply, val_main_v15_apply, ref_zn a]
  show (∑ k : Fin 192, _) + _ = (∑ l : Fin 192, zn a (ix2 (i 0) l) * a.c1W (ix2 (i 1) l)) + a.c1b (ix1 (i 1))
  congr 1
  · refine Finset.sum_congr rfl fun k _ => ?_
    rw [val_main_v13_apply]
    congr 2 <;> exact funext fun d => Fin.ext (by match d with | ⟨0, _⟩ => rfl | ⟨1, _⟩ => rfl)
  · exact congrArg a.c1b (funext fun d => Fin.ext (by match d with | ⟨0, _⟩ => rfl))

/-- Batch normalisation with the running statistics and the variance offset, then max(·, 0): the first stage. -/
theorem ref_xc3 (a : Args) : val_main_v33 (F := Ideal) a.x a.adj a.gc1W a.gc1b a.gc2W a.gc2b a.c1W a.c1b a.bn1g a.bn1b a.bn1rm a.bn1rv = xc3 a := by
  funext i
  rw [val_main_v33_apply, val_main_v32_apply, val_main_v29_apply, val_main_v26_apply, val_main_v20_apply, ref_c1 a,
    val_main_v19_apply, val_main_v18_apply,
    val_main_v25_apply, val_main_v24_apply, val_main_v23_apply, val_main_v22_apply, val_main_v21_apply, val_main_cst_apply,
    val_main_v28_apply, val_main_v27_apply, val_main_v31_apply, val_main_v30_apply,
    val_main_call0_v0_apply, val_main_call0_cst_apply,
    show idx_main_v18 (idx_main_v19 i) = ix1 (i 1) from funext fun d => Fin.ext (by match d with | ⟨0, _⟩ => rfl),
    show idx_main_v24 (idx_main_v25 i) = ix1 (i 1) from funext fun d => Fin.ext (by match d with | ⟨0, _⟩ => rfl),
    show idx_main_v27 (idx_main_v28 i) = ix1 (i 1) from funext fun d => Fin.ext (by match d with | ⟨0, _⟩ => rfl),
    show idx_main_v30 (idx_main_v31 i) = ix1 (i 1) from funext fun d => Fin.ext (by match d with | ⟨0, _⟩ => rfl)]
  simp only [Ideal.ofBits_def, Ideal.ofBits_zero_f32]
  rfl

/-- The second linear map of the classifier head. -/
theorem ref_c2 (a : Args) : val_main_v38 (F := Ideal) a.x a.adj a.gc1W a.gc1b a.gc2W a.gc2b a.c1W a.c1b a.bn1g a.bn1b a.bn1rm a.bn1rv a.c2W a.c2b = lin (xc3 a) a.c2W a.c2b := by
  funext i
  rw [val_main_v38_apply, val_main_v35_apply, val_main_v37_apply, val_main_v36_apply, ref_xc3 a]
  show (∑ k : Fin 256, _) + _ = (∑ l : Fin 256, xc3 a (ix2 (i 0) l) * a.c2W (ix2 (i 1) l)) + a.c2b (ix1 (i 1))
  congr 1
  · refine Finset.sum_congr rfl fun k _ => ?_
    rw [val_main_v34_apply]
    congr 2 <;> exact funext fun d => Fin.ext (by match d with | ⟨0, _⟩ => rfl | ⟨1, _⟩ => rfl)
  · exact congrArg a.c2b (funext fun d => Fin.ext (by match d with | ⟨0, _⟩ => rfl))

/-- The second stage: batch normalisation, then max(·, 0). -/
theorem ref_xc4 (a : Args) : val_main_v54 (F := Ideal) a.x a.adj a.gc1W a.gc1b a.gc2W a.gc2b a.c1W a.c1b a.bn1g a.bn1b a.bn1rm a.bn1rv a.c2W a.c2b a.bn2g a.bn2b a.bn2rm a.bn2rv = xc4 a := by
  funext i
  rw [val_main_v54_apply, val_main_v53_apply, val_main_v50_apply, val_main_v47_apply, val_main_v41_apply, ref_c2 a,
    val_main_v40_apply, val_main_v39_apply,
    val_main_v46_apply, val_main_v45_apply, val_main_v44_apply, val_main_v43_apply, val_main_v42_apply, val_main_cst_0_apply,
    val_main_v49_apply, val_main_v48_apply, val_main_v52_apply, val_main_v51_apply,
    val_main_call1_v0_apply, val_main_call1_cst_apply,
    show idx_main_v39 (idx_main_v40 i) = ix1 (i 1) from funext fun d => Fin.ext (by match d with | ⟨0, _⟩ => rfl),
    show idx_main_v45 (idx_main_v46 i) = ix1 (i 1) from funext fun d => Fin.ext (by match d with | ⟨0, _⟩ => rfl),
    show idx_main_v48 (idx_main_v49 i) = ix1 (i 1) from funext fun d => Fin.ext (by match d with | ⟨0, _⟩ => rfl),
    show idx_main_v51 (idx_main_v52 i) = ix1 (i 1) from funext fun d => Fin.ext (by match d with | ⟨0, _⟩ => rfl)]
  simp only [Ideal.ofBits_def, Ideal.ofBits_zero_f32]
  rfl

/-- The last linear map of the classifier head, to the ten classes. -/
theorem ref_c3 (a : Args) : val_main_v59 (F := Ideal) a.x a.adj a.gc1W a.gc1b a.gc2W a.gc2b a.c1W a.c1b a.bn1g a.bn1b a.bn1rm a.bn1rv a.c2W a.c2b a.bn2g a.bn2b a.bn2rm a.bn2rv a.c3W a.c3b = lin (xc4 a) a.c3W a.c3b := by
  funext i
  rw [val_main_v59_apply, val_main_v56_apply, val_main_v58_apply, val_main_v57_apply, ref_xc4 a]
  show (∑ k : Fin 128, _) + _ = (∑ l : Fin 128, xc4 a (ix2 (i 0) l) * a.c3W (ix2 (i 1) l)) + a.c3b (ix1 (i 1))
  congr 1
  · refine Finset.sum_congr rfl fun k _ => ?_
    rw [val_main_v55_apply]
    congr 2 <;> exact funext fun d => Fin.ext (by match d with | ⟨0, _⟩ => rfl | ⟨1, _⟩ => rfl)
  · exact congrArg a.c3b (funext fun d => Fin.ext (by match d with | ⟨0, _⟩ => rfl))

/-- The single-precision word of −∞ is the extended real −∞. -/
theorem neg_inf_word : Ideal.ofBits .f32 0xFF800000#32 = (⊥ : EReal) := by
  simp [Ideal.ofBits, Ideal.ieee]

/-- A maximum taken along the ten columns from an initial value: the fold of max over the row's ten entries. -/
theorem reduce_max_cols (h' : S10000x10.ReducesTo [1] S10000) (hu : 0 < S_.numel) (z : Mat 10000 10)
    (init : S_.Idx → EReal) (j : S10000.Idx) :
    Host.reduce (FloatOps.maximumf (F := Ideal) (φ := .f32)) z init h' hu j
      = (Finset.univ : Finset (Fin 10)).fold max (init (Shape.Idx.first hu)) (fun k => z (ix2 (j 0) k)) := by
  rw [Host.reduce_eq_fold_single (FloatOps.maximumf (F := Ideal) (φ := .f32)) z init h' (by decide) hu j]
  show (Finset.univ : Finset (Fin 10)).fold max _ _ = _
  congr 1
  funext k
  exact congrArg z (funext fun d => Fin.ext (by match d with | ⟨0, _⟩ => rfl | ⟨1, _⟩ => rfl))

/-- The row maximum the log-softmax shifts by: taken from −∞, and the further maximum with −∞ changes nothing. -/
theorem ref_rowmax (a : Args) (j : S10000.Idx) :
    val_main_call2_v2 (F := Ideal) a.x a.adj a.gc1W a.gc1b a.gc2W a.gc2b a.c1W a.c1b a.bn1g a.bn1b a.bn1rm a.bn1rv a.c2W a.c2b a.bn2g a.bn2b a.bn2rm a.bn2rv a.c3W a.c3b j = rowMax (lin (xc4 a) a.c3W a.c3b) (j 0) := by
  rw [val_main_call2_v2_apply, val_main_call2_v1_apply, val_main_call2_cst_0_apply]
  unfold val_main_call2_v0
  rw [ref_c3 a, reduce_max_cols]
  show max (Ideal.ofBits .f32 0xFF800000#32) (Finset.fold max (Ideal.ofBits .f32 0xFF800000#32) _ _) = _
  rw [neg_inf_word, max_bot_left]
  rfl

/-- The shifted logits z − m. -/
theorem ref_shift (a : Args) (i : S10000x10.Idx) :
    val_main_call2_v5 (F := Ideal) a.x a.adj a.gc1W a.gc1b a.gc2W a.gc2b a.c1W a.c1b a.bn1g a.bn1b a.bn1rm a.bn1rv a.c2W a.c2b a.bn2g a.bn2b a.bn2rm a.bn2rv a.c3W a.c3b i
      = lin (xc4 a) a.c3W a.c3b i - rowMax (lin (xc4 a) a.c3W a.c3b) (i 0) := by
  rw [val_main_call2_v5_apply, val_main_call2_v4_apply, val_main_call2_v3_apply, ref_rowmax a, ref_c3 a]
  rfl

/-- The first result: the shifted logits less the logarithm of the sum, from 0, of their exponentials along the row. -/
theorem ref_xc5 (a : Args) : val_main_v60 (F := Ideal) a.x a.adj a.gc1W a.gc1b a.gc2W a.gc2b a.c1W a.c1b a.bn1g a.bn1b a.bn1rm a.bn1rv a.c2W a.c2b a.bn2g a.bn2b a.bn2rm a.bn2rv a.c3W a.c3b = xc5 a := by
  funext i
  rw [val_main_v60_apply, val_main_call2_v10_apply, val_main_call2_v9_apply, val_main_call2_v8_apply,
    val_main_call2_v7_apply, val_main_call2_cst_1_apply, ref_shift a]
  show (lin (xc4 a) a.c3W a.c3b i - rowMax (lin (xc4 a) a.c3W a.c3b) (i 0))
      - Ideal.log (Ideal.ofBits .f32 0x00000000#32 + ∑ k : Fin 10, _)
    = (lin (xc4 a) a.c3W a.c3b i - rowMax (lin (xc4 a) a.c3W a.c3b) (i 0))
      - Ideal.log (∑ k : Fin 10, Ideal.exp (lin (xc4 a) a.c3W a.c3b (ix2 (i 0) k) - rowMax (lin (xc4 a) a.c3W a.c3b) (i 0)))
  rw [Ideal.ofBits_zero_f32, zero_add]
  refine congrArg _ (congrArg _ (Finset.sum_congr rfl fun k _ => ?_))
  rw [val_main_call2_v6_apply, ref_shift a,
    show idx_main_call2_v7 (idx_main_call2_v8 (idx_main_call2_v10 i)) k = ix2 (i 0) k from funext fun d => Fin.ext (by match d with | ⟨0, _⟩ => rfl | ⟨1, _⟩ => rfl)]
  rfl

/-! ## The reconstruction head -/

/-- The first linear map of the reconstruction head. -/
theorem ref_r1 (a : Args) : val_main_v65 (F := Ideal) a.x a.adj a.gc1W a.gc1b a.gc2W a.gc2b a.r1W a.r1b = lin (zn a) a.r1W a.r1b := by
  funext i
  rw [val_main_v65_apply, val_main_v62_apply, val_main_v64_apply, val_main_v63_apply, ref_zn a]
  show (∑ k : Fin 192, _) + _ = (∑ l : Fin 192, zn a (ix2 (i 0) l) * a.r1W (ix2 (i 1) l)) + a.r1b (ix1 (i 1))
  congr 1
  · refine Finset.sum_congr rfl fun k _ => ?_
    rw [val_main_v61_apply]
    congr 2 <;> exact funext fun d => Fin.ext (by match d with | ⟨0, _⟩ => rfl | ⟨1, _⟩ => rfl)
  · exact congrArg a.r1b (funext fun d => Fin.ext (by match d with | ⟨0, _⟩ => rfl))

/-- Its first stage: max(·, 0). -/
theorem ref_xr3 (a : Args) : val_main_v66 (F := Ideal) a.x a.adj a.gc1W a.gc1b a.gc2W a.gc2b a.r1W a.r1b = xr3 a := by
  funext i
  rw [val_main_v66_apply, ref_r1 a, val_main_call3_v0_apply, val_main_call3_cst_apply, Ideal.ofBits_def, Ideal.ofBits_zero_f32]
  rfl

/-- The second linear map of the reconstruction head. -/
theorem ref_r2 (a : Args) : val_main_v71 (F := Ideal) a.x a.adj a.gc1W a.gc1b a.gc2W a.gc2b a.r1W a.r1b a.r2W a.r2b = lin (xr3 a) a.r2W a.r2b := by
  funext i
  rw [val_main_v71_apply, val_main_v68_apply, val_main_v70_apply, val_main_v69_apply, ref_xr3 a]
  show (∑ k : Fin 256, _) + _ = (∑ l : Fin 256, xr3 a (ix2 (i 0) l) * a.r2W (ix2 (i 1) l)) + a.r2b (ix1 (i 1))
  congr 1
  · refine Finset.sum_congr rfl fun k _ => ?_
    rw [val_main_v67_apply]
    congr 2 <;> exact funext fun d => Fin.ext (by match d with | ⟨0, _⟩ => rfl | ⟨1, _⟩ => rfl)
  · exact congrArg a.r2b (funext fun d => Fin.ext (by match d with | ⟨0, _⟩ => rfl))

/-- Its second stage: max(·, 0). -/
theorem ref_xr4 (a : Args) : val_main_v72 (F := Ideal) a.x a.adj a.gc1W a.gc1b a.gc2W a.gc2b a.r1W a.r1b a.r2W a.r2b = xr4 a := by
  funext i
  rw [val_main_v72_apply, ref_r2 a, val_main_call4_v0_apply, val_main_call4_cst_apply, Ideal.ofBits_def, Ideal.ofBits_zero_f32]
  rfl

/-- The second result: the last linear map of the reconstruction head. -/
theorem ref_xr5 (a : Args) : val_main_v77 (F := Ideal) a.x a.adj a.gc1W a.gc1b a.gc2W a.gc2b a.r1W a.r1b a.r2W a.r2b a.r3W a.r3b = xr5 a := by
  funext i
  rw [val_main_v77_apply, val_main_v74_apply, val_main_v76_apply, val_main_v75_apply, ref_xr4 a]
  show (∑ k : Fin 128, _) + _ = (∑ l : Fin 128, xr4 a (ix2 (i 0) l) * a.r3W (ix2 (i 1) l)) + a.r3b (ix1 (i 1))
  congr 1
  · refine Finset.sum_congr rfl fun k _ => ?_
    rw [val_main_v73_apply]
    congr 2 <;> exact funext fun d => Fin.ext (by match d with | ⟨0, _⟩ => rfl | ⟨1, _⟩ => rfl)
  · exact congrArg a.r3b (funext fun d => Fin.ext (by match d with | ⟨0, _⟩ => rfl))

end Stages

/-- The reference's twenty-six argument arrays on core c, as the specification's arguments. -/
def argsOf (m : (ℓ : Loc Cert.ReferenceIdeal.nD Cert.ReferenceIdeal.τ Cert.ReferenceIdeal.sig) → Buf (Elt Ideal) ℓ) (c : Dev Cert.ReferenceIdeal.nD) : Cert.Spec.Args where
  x := m ((c.tc : Thread Cert.ReferenceIdeal.nD Cert.ReferenceIdeal.τ).loc Cert.ReferenceIdeal.main_arg0)
  adj := m ((c.tc : Thread Cert.ReferenceIdeal.nD Cert.ReferenceIdeal.τ).loc Cert.ReferenceIdeal.main_arg1)
  gc1W := m ((c.tc : Thread Cert.ReferenceIdeal.nD Cert.ReferenceIdeal.τ).loc Cert.ReferenceIdeal.main_arg2)
  gc1b := m ((c.tc : Thread Cert.ReferenceIdeal.nD Cert.ReferenceIdeal.τ).loc Cert.ReferenceIdeal.main_arg3)
  gc2W := m ((c.tc : Thread Cert.ReferenceIdeal.nD Cert.ReferenceIdeal.τ).loc Cert.ReferenceIdeal.main_arg4)
  gc2b := m ((c.tc : Thread Cert.ReferenceIdeal.nD Cert.ReferenceIdeal.τ).loc Cert.ReferenceIdeal.main_arg5)
  c1W := m ((c.tc : Thread Cert.ReferenceIdeal.nD Cert.ReferenceIdeal.τ).loc Cert.ReferenceIdeal.main_arg6)
  c1b := m ((c.tc : Thread Cert.ReferenceIdeal.nD Cert.ReferenceIdeal.τ).loc Cert.ReferenceIdeal.main_arg7)
  bn1g := m ((c.tc : Thread Cert.ReferenceIdeal.nD Cert.ReferenceIdeal.τ).loc Cert.ReferenceIdeal.main_arg8)
  bn1b := m ((c.tc : Thread Cert.ReferenceIdeal.nD Cert.ReferenceIdeal.τ).loc Cert.ReferenceIdeal.main_arg9)
  bn1rm := m ((c.tc : Thread Cert.ReferenceIdeal.nD Cert.ReferenceIdeal.τ).loc Cert.ReferenceIdeal.main_arg10)
  bn1rv := m ((c.tc : Thread Cert.ReferenceIdeal.nD Cert.ReferenceIdeal.τ).loc Cert.ReferenceIdeal.main_arg11)
  c2W := m ((c.tc : Thread Cert.ReferenceIdeal.nD Cert.ReferenceIdeal.τ).loc Cert.ReferenceIdeal.main_arg12)
  c2b := m ((c.tc : Thread Cert.ReferenceIdeal.nD Cert.ReferenceIdeal.τ).loc Cert.ReferenceIdeal.main_arg13)
  bn2g := m ((c.tc : Thread Cert.ReferenceIdeal.nD Cert.ReferenceIdeal.τ).loc Cert.ReferenceIdeal.main_arg14)
  bn2b := m ((c.tc : Thread Cert.ReferenceIdeal.nD Cert.ReferenceIdeal.τ).loc Cert.ReferenceIdeal.main_arg15)
  bn2rm := m ((c.tc : Thread Cert.ReferenceIdeal.nD Cert.ReferenceIdeal.τ).loc Cert.ReferenceIdeal.main_arg16)
  bn2rv := m ((c.tc : Thread Cert.ReferenceIdeal.nD Cert.ReferenceIdeal.τ).loc Cert.ReferenceIdeal.main_arg17)
  c3W := m ((c.tc : Thread Cert.ReferenceIdeal.nD Cert.ReferenceIdeal.τ).loc Cert.ReferenceIdeal.main_arg18)
  c3b := m ((c.tc : Thread Cert.ReferenceIdeal.nD Cert.ReferenceIdeal.τ).loc Cert.ReferenceIdeal.main_arg19)
  r1W := m ((c.tc : Thread Cert.ReferenceIdeal.nD Cert.ReferenceIdeal.τ).loc Cert.ReferenceIdeal.main_arg20)
  r1b := m ((c.tc : Thread Cert.ReferenceIdeal.nD Cert.ReferenceIdeal.τ).loc Cert.ReferenceIdeal.main_arg21)
  r2W := m ((c.tc : Thread Cert.ReferenceIdeal.nD Cert.ReferenceIdeal.τ).loc Cert.ReferenceIdeal.main_arg22)
  r2b := m ((c.tc : Thread Cert.ReferenceIdeal.nD Cert.ReferenceIdeal.τ).loc Cert.ReferenceIdeal.main_arg23)
  r3W := m ((c.tc : Thread Cert.ReferenceIdeal.nD Cert.ReferenceIdeal.τ).loc Cert.ReferenceIdeal.main_arg24)
  r3b := m ((c.tc : Thread Cert.ReferenceIdeal.nD Cert.ReferenceIdeal.τ).loc Cert.ReferenceIdeal.main_arg25)

theorem run_spec (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v60) = Cert.Spec.xc5 (argsOf m c)
      ∧ r.2.mem ((c.tc : Thread Cert.ReferenceIdeal.nD Cert.ReferenceIdeal.τ).loc Cert.ReferenceIdeal.main_v77) = Cert.Spec.xr5 (argsOf m c)
      ∧ r.2.mem ((c.tc : Thread Cert.ReferenceIdeal.nD Cert.ReferenceIdeal.τ).loc Cert.ReferenceIdeal.main_v12) = Cert.Spec.zn (argsOf m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)) := by
  exact (θ_run _ _ _).mono (fun r h c =>
    ⟨(h c).1.trans ((Cert.ReferenceIdeal.Read.val_main_v60_eq m c).trans (ref_xc5 (argsOf m c))),
      (h c).2.1.trans ((Cert.ReferenceIdeal.Read.val_main_v77_eq _ _ _ _ _ _ _ _ _ _ _ _).trans (ref_xr5 (argsOf m c))),
      (h c).2.2.1.trans ((Cert.ReferenceIdeal.Read.val_main_v12_eq _ _ _ _ _ _).trans (ref_zn (argsOf m c))),
      (h c).2.2.2⟩) (Cert.ReferenceIdeal.Value.run (F := Ideal) m ρ)

end Cert.RefSide

end
-- ==== Proof.lean ====
/-
  The certificate's five claims.

  Both programs compute, on the extended reals, the network of Proof/Spec.lean: two graph-convolution layers over a
  dense adjacency, the concatenated features, a classifier head ending in a row-wise log-softmax and a reconstruction
  head. The reference does so stage by stage on whole arrays (Proof/RefValue.lean). The kernel sweeps the adjacency's 25
  row tiles twice — the first sweep builds the first layer in a scratch buffer one row slab per grid point, the second
  produces, per row tile, the second layer's tile and both heads — and since every stage after the two supports acts
  row by row, and a contraction over the concatenated 192 features is the sum of the contractions over its 128 and its 64
  (Proof/SpecTile.lean), each result block is the specification's rows (Proof/KFinal.lean). The two frames are the
  kernel's run read at its argument arrays, at the word-level instance and at the exact one (Proof/Bits, Proof/Ideal);
  the reference's frame is its run with the results dropped. The idealization rewrote nothing, so `preserves` is trivial.
-/
import proofs.«124129_g73521250173546_cont_sun_c4_545_19_alg».proof.Defs
import proofs.«124129_g73521250173546_cont_sun_c4_545_19_alg».proof.Proof.Gen.Kernel
import proofs.«124129_g73521250173546_cont_sun_c4_545_19_alg».proof.Proof.Gen.KernelIdeal
import proofs.«124129_g73521250173546_cont_sun_c4_545_19_alg».proof.Proof.Gen.ReferenceIdeal
import proofs.«124129_g73521250173546_cont_sun_c4_545_19_alg».proof.Proof.Gen.Pre_finite_inputs
import proofs.«124129_g73521250173546_cont_sun_c4_545_19_alg».proof.Proof.Bits.Launch
import proofs.«124129_g73521250173546_cont_sun_c4_545_19_alg».proof.Proof.Ideal.Launch
import proofs.«124129_g73521250173546_cont_sun_c4_545_19_alg».proof.Proof.KFinal
import proofs.«124129_g73521250173546_cont_sun_c4_545_19_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

set_option maxHeartbeats 4000000 in
/-- Arguments that agree give the same specification arguments on both sides. -/
theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.RefSide.argsOf m' c = Cert.KValue.argsK m c := by
  obtain ⟨h0, h1, h2, h3, h4, h5, h6, h7, h8, h9, h10, h11, h12, h13, h14, h15, h16, h17, h18, h19, h20, h21, h22, h23, h24, h25⟩ := hagree
  unfold Cert.RefSide.argsOf Cert.KValue.argsK
  rw [h0, h1, h2, h3, h4, h5, h6, h7, h8, h9, h10, h11, h12, h13, h14, h15, h16, h17, h18, h19, h20, h21, h22, h23, h24, h25]

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2) (Cert.RefSide.run_spec m ρ)

theorem preserves : Cert.preserves_Kernel_KernelIdeal := trivial

theorem algebraic : Cert.algebraic_KernelIdeal_ReferenceIdeal := by
  intro m ρ m' ρ' _ hagree
  refine ⟨fun c => Cert.Spec.xc5 (Cert.KValue.argsK m c), fun c => Cert.Spec.xr5 (Cert.KValue.argsK m c),
    fun c => Cert.Spec.zn (Cert.KValue.argsK m c), ?_, ?_⟩
  · exact (θ_run Cert.KernelIdeal.defs _ _).mono (fun _ h c =>
      ⟨(h c).1.trans (Cert.KValue.final29 m c), (h c).2.1.trans (Cert.KValue.final30 m c), (h c).2.2.1.trans (Cert.KValue.final31 m c), (h c).2.2.2⟩)
      (Cert.KernelIdeal.Hand.run_results (F := Ideal) m ρ)
  · exact (θ_run Cert.ReferenceIdeal.defs _ _).mono (fun _ h c =>
      ⟨(h c).1.trans (by rw [args_agree m m' c (hagree c)]), (h c).2.1.trans (by rw [args_agree m m' c (hagree c)]),
        (h c).2.2.1.trans (by rw [args_agree m m' c (hagree c)]), (h c).2.2.2⟩)
      (Cert.RefSide.run_spec m' ρ')

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k (hKernel := Cert.Kernel.Gen.facts) (hPre := Cert.Pre_finite_inputs.Gen.facts),
    Cert.Proof.frame_ki (hKernelIdeal := Cert.KernelIdeal.Gen.facts) (hPre := Cert.Pre_finite_inputs.Gen.facts),
    Cert.Proof.frame_ri (hReferenceIdeal := Cert.ReferenceIdeal.Gen.facts) (hPre := Cert.Pre_finite_inputs.Gen.facts),
    Cert.Proof.preserves,
    Cert.Proof.algebraic (hKernelIdeal := Cert.KernelIdeal.Gen.facts) (hReferenceIdeal := Cert.ReferenceIdeal.Gen.facts) (hPre := Cert.Pre_finite_inputs.Gen.facts)⟩

end
